-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_6" .f32 0x3E2AAAAB#32 ((1 / 6 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S2048x16 : Shape := ⟨2, ![2048, 16]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel

variable [Facts]

def fn {F : FTy → Type} [FloatOps F] (main_arg0 : FVec F S32768x256 .f32) (main_arg1 : IVec S2048x16 32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  main_v3
-- ==== Kernel.lean ====
abbrev S32768x256 : Shape := ⟨2, ![32768, 256]⟩
abbrev S2048x16 : Shape := ⟨2, ![2048, 16]⟩
abbrev S2048x16x256 : Shape := ⟨3, ![2048, 16, 256]⟩
abbrev S_ : Shape := ⟨0, ![]⟩
abbrev S2054x16x256 : Shape := ⟨3, ![2054, 16, 256]⟩
abbrev S2047x16 : Shape := ⟨2, ![2047, 16]⟩
abbrev S2046x16 : Shape := ⟨2, ![2046, 16]⟩
abbrev S2045x16 : Shape := ⟨2, ![2045, 16]⟩
abbrev S2048x16x353 : Shape := ⟨3, ![2048, 16, 353]⟩
abbrev S16x16 : Shape := ⟨2, ![16, 16]⟩
abbrev S16x16x353 : Shape := ⟨3, ![16, 16, 353]⟩
abbrev S16x16x256 : Shape := ⟨3, ![16, 16, 256]⟩
abbrev S16x16x1 : Shape := ⟨3, ![16, 16, 1]⟩
abbrev S16x16x16 : Shape := ⟨3, ![16, 16, 16]⟩
abbrev S16x1x16 : Shape := ⟨3, ![16, 1, 16]⟩
abbrev S16x16x96 : Shape := ⟨3, ![16, 16, 96]⟩
abbrev S16x16x97 : Shape := ⟨3, ![16, 16, 97]⟩
abbrev S32768x353 : Shape := ⟨2, ![32768, 353]⟩

abbrev nBuf : Space → Nat
  | .hbm => 35
  | .vmem => 15
  | .smem => 0
  | _ => 0

abbrev bufTy : (tb : Table) → Fin (tcTables nBuf tb) → BufTy
  | .hbm, ⟨0, _⟩ => ⟨S32768x256, .f32⟩
  | .hbm, ⟨1, _⟩ => ⟨S2048x16, .i32⟩
  | .hbm, ⟨2, _⟩ => ⟨S2048x16x256, .f32⟩
  | .hbm, ⟨3, _⟩ => ⟨S_, .i32⟩
  | .hbm, ⟨4, _⟩ => ⟨S_, .f32⟩
  | .hbm, ⟨5, _⟩ => ⟨S2054x16x256, .f32⟩
  | .hbm, ⟨6, _⟩ => ⟨S2048x16, .f32⟩
  | .hbm, ⟨7, _⟩ => ⟨S2047x16, .f32⟩
  | .hbm, ⟨8, _⟩ => ⟨S_, .i32⟩
  | .hbm, ⟨9, _⟩ => ⟨S_, .f32⟩
  | .hbm, ⟨10, _⟩ => ⟨S2048x16, .f32⟩
  | .hbm, ⟨11, _⟩ => ⟨S2046x16, .f32⟩
  | .hbm, ⟨12, _⟩ => ⟨S_, .i32⟩
  | .hbm, ⟨13, _⟩ => ⟨S_, .f32⟩
  | .hbm, ⟨14, _⟩ => ⟨S2048x16, .f32⟩
  | .hbm, ⟨15, _⟩ => ⟨S2045x16, .f32⟩
  | .hbm, ⟨16, _⟩ => ⟨S_, .i32⟩
  | .hbm, ⟨17, _⟩ => ⟨S_, .f32⟩
  | .hbm, ⟨18, _⟩ => ⟨S2048x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S2047x16, .f32⟩
  | .hbm, ⟨23, _⟩ => ⟨S_, .i32⟩
  | .hbm, ⟨24, _⟩ => ⟨S_, .f32⟩
  | .hbm, ⟨25, _⟩ => ⟨S2048x16, .f32⟩
  | .hbm, ⟨26, _⟩ => ⟨S2046x16, .f32⟩
  | .hbm, ⟨27, _⟩ => ⟨S_, .i32⟩
  | .hbm, ⟨28, _⟩ => ⟨S_, .f32⟩
  | .hbm, ⟨29, _⟩ => ⟨S2048x16, .f32⟩
  | .hbm, ⟨30, _⟩ => ⟨S2048x16, .f32⟩
  | .hbm, ⟨31, _⟩ => ⟨S2048x16, .f32⟩
  | .hbm, ⟨32, _⟩ => ⟨S2048x16, .f32⟩
  | .hbm, ⟨33, _⟩ => ⟨S2048x16x353, .f32⟩
  | .hbm, ⟨34, _⟩ => ⟨S32768x353, .f32⟩
  | .local _ .vmem, ⟨0, _⟩ => ⟨S2054x16x256, .f32⟩
  | .local _ .vmem, ⟨1, _⟩ => ⟨S16x16, .f32⟩
  | .local _ .vmem, ⟨2, _⟩ => ⟨S16x16, .f32⟩
  | .local _ .vmem, ⟨3, _⟩ => ⟨S16x16, .f32⟩
  | .local _ .vmem, ⟨4, _⟩ => ⟨S16x16, .f32⟩
  | .local _ .vmem, ⟨5, _⟩ => ⟨S16x16, .f32⟩
  | .local _ .vmem, ⟨6, _⟩ => ⟨S16x16, .f32⟩
  | .local _ .vmem, ⟨7, _⟩ => ⟨S16x16, .f32⟩
  | .local _ .vmem, ⟨8, _⟩ => ⟨S16x16, .f32⟩
  | .local _ .vmem, ⟨9, _⟩ => ⟨S16x16, .f32⟩
  | .local _ .vmem, ⟨10, _⟩ => ⟨S16x16, .f32⟩
  | .local _ .vmem, ⟨11, _⟩ => ⟨S16x16, .f32⟩
  | .local _ .vmem, ⟨12, _⟩ => ⟨S16x16, .f32⟩
  | .local _ .vmem, ⟨13, _⟩ => ⟨S16x16x353, .f32⟩
  | .local _ .vmem, ⟨14, _⟩ => ⟨S16x16x353, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_call2_v0 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_call3_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_call4_v0 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_call5_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![128], ![false]⟩

def k0_mult1 (i : grid0.Coords) : BitVec 32 :=
  let arg0 : BitVec 32 := BitVec.ofNat 32 (i 0).val
  let c16_i32 : BitVec 32 := 16#32
  let v0 : BitVec 32 := Scalar.muli arg0 c16_i32
  v0
def k0_off1 (i : grid0.Coords) : Fin 3 → Nat :=
  let arg0 : BitVec 32 := BitVec.ofNat 32 (i 0).val
  let c16_i32 : BitVec 32 := 16#32
  let v0 : BitVec 32 := Scalar.muli arg0 c16_i32
  let v1 : BitVec 32 := v0
  let c3_i32 : BitVec 32 := 3#32
  let v2 : BitVec 32 := Scalar.addi v1 c3_i32
  let v3 : Index := Scalar.indexCast v2
  let c0 : Index := 0#32
  let c0_0 : Index := 0#32
  ![v3.toNat, 0, 0]
def k0_off2 (i : grid0.Coords) (c1_i32 : BitVec 32) : Fin 3 → Nat :=
  let arg0 : BitVec 32 := BitVec.ofNat 32 (i 0).val
  let c16_i32 : BitVec 32 := 16#32
  let v0 : BitVec 32 := Scalar.muli arg0 c16_i32
  let v1 : BitVec 32 := v0
  let c3_i32_1 : BitVec 32 := 3#32
  let v6 : BitVec 32 := Scalar.addi v1 c3_i32_1
  let v7 : BitVec 32 := Scalar.subi v6 c1_i32
  let v8 : Index := Scalar.indexCast v7
  let c0_2 : Index := 0#32
  let c0_3 : Index := 0#32
  ![v8.toNat, 0, 0]
def k0_off3 (i : grid0.Coords) (c1_i32_12 : BitVec 32) : Fin 3 → Nat :=
  let arg0 : BitVec 32 := BitVec.ofNat 32 (i 0).val
  let c16_i32 : BitVec 32 := 16#32
  let v0 : BitVec 32 := Scalar.muli arg0 c16_i32
  let v1 : BitVec 32 := v0
  let c3_i32_11 : BitVec 32 := 3#32
  let v21 : BitVec 32 := Scalar.addi v1 c3_i32_11
  let v22 : BitVec 32 := Scalar.addi v21 c1_i32_12
  let v23 : Index := Scalar.indexCast v22
  let c0_13 : Index := 0#32
  let c0_14 : Index := 0#32
  ![v23.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2054x16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x16x353 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S32768x256_S2048x16x256 : S32768x256.ShapeCasts S2048x16x256
  pads_S2048x16x256_S2054x16x256_330_000_000 : S2048x16x256.Pads (![3, 0, 0] : Fin 3 → Nat) ![3, 0, 0] ![0, 0, 0] S2054x16x256
  h_S_ : 0 < S_.numel
  slices_S2048x16_S2047x16_0_0 : S2048x16.Slices ![0, 0] S2047x16
  pads_S2047x16_S2048x16_100_000 : S2047x16.Pads (![1, 0] : Fin 2 → Nat) ![0, 0] ![0, 0] S2048x16
  slices_S2048x16_S2046x16_0_0 : S2048x16.Slices ![0, 0] S2046x16
  pads_S2046x16_S2048x16_200_000 : S2046x16.Pads (![2, 0] : Fin 2 → Nat) ![0, 0] ![0, 0] S2048x16
  slices_S2048x16_S2045x16_0_0 : S2048x16.Slices ![0, 0] S2045x16
  pads_S2045x16_S2048x16_300_000 : S2045x16.Pads (![3, 0] : Fin 2 → Nat) ![0, 0] ![0, 0] S2048x16
  slices_S2048x16_S2047x16_1_0 : S2048x16.Slices ![1, 0] S2047x16
  pads_S2047x16_S2048x16_010_000 : S2047x16.Pads (![0, 0] : Fin 2 → Nat) ![1, 0] ![0, 0] S2048x16
  slices_S2048x16_S2046x16_2_0 : S2048x16.Slices ![2, 0] S2046x16
  pads_S2046x16_S2048x16_020_000 : S2046x16.Pads (![0, 0] : Fin 2 → Nat) ![2, 0] ![0, 0] S2048x16
  h_S16x16x256 : 0 < S16x16x256.numel
  shapeCasts_S16x16x256_S16x16x256 : S16x16x256.ShapeCasts S16x16x256
  inb_S16x16_S16x16_0_0 : ∀ a, (![0, 0] : Fin 2 → Nat) a + S16x16.size a ≤ S16x16.size a
  h_S16x16 : 0 < S16x16.numel
  shapeCasts_S16x16_S16x16 : S16x16.ShapeCasts S16x16
  shapeCasts_S16x16_S16x16x1 : S16x16.ShapeCasts S16x16x1
  broadcasts_S16x16x1_S16x16x256 : S16x16x1.Broadcasts S16x16x256
  reduces_S16x16x256_S16x16 : S16x16x256.Reduces [2] S16x16
  shapeCasts_S16x16_S16x1x16 : S16x16.ShapeCasts S16x1x16
  broadcasts_S16x16x1_S16x16x16 : S16x16x1.Broadcasts S16x16x16
  broadcasts_S16x1x16_S16x16x16 : S16x1x16.Broadcasts S16x16x16
  concatenates_S16x16x16_S16x16x16_S16x16x16_S16x16x16_S16x16x16_S16x16x16_S16x16x96_d2 : Shape.Concatenates [S16x16x16, S16x16x16, S16x16x16, S16x16x16, S16x16x16, S16x16x16] S16x16x96 2
  concatenates_S16x16x96_S16x16x1_S16x16x97_d2 : Shape.Concatenates [S16x16x96, S16x16x1] S16x16x97 2
  reduces_S16x16x97_S16x16 : S16x16x97.Reduces [2] S16x16
  broadcasts_S16x16x1_S16x16x97 : S16x16x1.Broadcasts S16x16x97
  concatenates_S16x16x256_S16x16x97_S16x16x353_d2 : Shape.Concatenates [S16x16x256, S16x16x97] S16x16x353 2
  inb_S16x16x353_S16x16x353_0_0_0 : ∀ a, (![0, 0, 0] : Fin 3 → Nat) a + S16x16x353.size a ≤ S16x16x353.size a
  h_S16x16x353 : 0 < S16x16x353.numel
  shapeCasts_S2048x16x353_S32768x353 : S2048x16x353.ShapeCasts S32768x353
  dot_S16x16x256_S16x16x256_S16x16x16_2_2_1_1_0_0_wf : DotDims.WF S16x16x256 S16x16x256 S16x16x16 [2] [2] [1] [1] [0] [0]
  hrank0 : 0 < grid0.rank
  k0_mult1_dvd : ∀ i : grid0.Coords, 16 ∣ (k0_mult1 i).toNat
  k0_off1_inb : ∀ i : grid0.Coords, ∀ a, (k0_off1 i) a + S16x16x256.size a ≤ S2054x16x256.size a
  k0_off2_inb : ∀ i : grid0.Coords, ∀ (r : Fin 3), ∀ a, (k0_off2 i (BitVec.ofNat 32 (1 + r.val))) a + S16x16x256.size a ≤ S2054x16x256.size a
  k0_off3_inb : ∀ i : grid0.Coords, ∀ (r : Fin 3), ∀ a, (k0_off3 i (BitVec.ofNat 32 (1 + r.val))) a + S16x16x256.size a ≤ S2054x16x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2054x16x256.size a ≤ S2054x16x256.size a
  hwx0_0 : ∀ i : grid0.Coords, EltTy.bits .f32 = 32 ∨ (Rect.block (s := S2054x16x256) S2054x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S2048x16.size a
  hwx0_1 : ∀ i : grid0.Coords, EltTy.bits .f32 = 32 ∨ (Rect.block (s := S2048x16) S16x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x16.size a ≤ S2048x16.size a
  hwx0_2 : ∀ i : grid0.Coords, EltTy.bits .f32 = 32 ∨ (Rect.block (s := S2048x16) S16x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S2048x16.size a
  hwx0_3 : ∀ i : grid0.Coords, EltTy.bits .f32 = 32 ∨ (Rect.block (s := S2048x16) S16x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x16.size a ≤ S2048x16.size a
  hwx0_4 : ∀ i : grid0.Coords, EltTy.bits .f32 = 32 ∨ (Rect.block (s := S2048x16) S16x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x16.size a ≤ S2048x16.size a
  hwx0_5 : ∀ i : grid0.Coords, EltTy.bits .f32 = 32 ∨ (Rect.block (s := S2048x16) S16x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x16.size a ≤ S2048x16.size a
  hwx0_6 : ∀ i : grid0.Coords, EltTy.bits .f32 = 32 ∨ (Rect.block (s := S2048x16) S16x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x16x353.size a ≤ S2048x16x353.size a
  hwx0_7 : ∀ i : grid0.Coords, EltTy.bits .f32 = 32 ∨ (Rect.block (s := S2048x16x353) S16x16x353.size (cc0_transform_7 i) (hinb0_7 i)).WholeWords (EltTy.packing .f32)

variable [Facts₀]

def dot_S16x16x256_S16x16x256_S16x16x16_2_2_1_1_0_0 : DotDims S16x16x256 S16x16x256 S16x16x16 where
  lhsContracting := [2]
  rhsContracting := [2]
  lhsNonContracting := [1]
  rhsNonContracting := [1]
  lhsBatch := [0]
  rhsBatch := [0]
  wf := dot_S16x16x256_S16x16x256_S16x16x16_2_2_1_1_0_0_wf

abbrev win0_0 : Pipeline.Window sig grid0 :=
  Pipeline.Window.ofSpec (Memref.whole main_v1) S2054x16x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S16x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S16x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S16x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S16x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S16x16.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18) S16x16.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19) S16x16x353.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x256 : Shape := ⟨2, ![32768, 256]⟩
abbrev S2048x16 : Shape := ⟨2, ![2048, 16]⟩
abbrev S_ : Shape := ⟨0, ![]⟩
abbrev S1x16 : Shape := ⟨2, ![1, 16]⟩
abbrev S2047x16 : Shape := ⟨2, ![2047, 16]⟩
abbrev S32768x1 : Shape := ⟨2, ![32768, 1]⟩
abbrev S16x256 : Shape := ⟨2, ![16, 256]⟩
abbrev S32752x256 : Shape := ⟨2, ![32752, 256]⟩
abbrev S1x32768x256 : Shape := ⟨3, ![1, 32768, 256]⟩
abbrev S6x32768x256 : Shape := ⟨3, ![6, 32768, 256]⟩
abbrev S2048x16x256 : Shape := ⟨3, ![2048, 16, 256]⟩
abbrev S2048x16x16 : Shape := ⟨3, ![2048, 16, 16]⟩
abbrev S2048x16x1 : Shape := ⟨3, ![2048, 16, 1]⟩
abbrev S2048x1x16 : Shape := ⟨3, ![2048, 1, 16]⟩
abbrev S2048x16x96 : Shape := ⟨3, ![2048, 16, 96]⟩
abbrev S32768x96 : Shape := ⟨2, ![32768, 96]⟩
abbrev S32768x97 : Shape := ⟨2, ![32768, 97]⟩
abbrev S32768 : Shape := ⟨1, ![32768]⟩
abbrev S32768x353 : Shape := ⟨2, ![32768, 353]⟩

abbrev nBuf : Space → Nat
  | .hbm => 250
  | .vmem => 0
  | .smem => 0
  | _ => 0

abbrev hbmTy0_0 (i : Nat) : BufTy := match i % 128 with
  | 0 => ⟨S32768x256, .f32⟩
  | 1 => ⟨S2048x16, .i32⟩
  | 2 => ⟨S2048x16, .f32⟩
  | 3 => ⟨S_, .f32⟩
  | 4 => ⟨S1x16, .f32⟩
  | 5 => ⟨S2047x16, .f32⟩
  | 6 => ⟨S2048x16, .f32⟩
  | 7 => ⟨S32768x1, .f32⟩
  | 8 => ⟨S32768x1, .f32⟩
  | 9 => ⟨S_, .f32⟩
  | 10 => ⟨S16x256, .f32⟩
  | 11 => ⟨S32752x256, .f32⟩
  | 12 => ⟨S32768x256, .f32⟩
  | 13 => ⟨S32768x256, .f32⟩
  | 14 => ⟨S32768x256, .f32⟩
  | 15 => ⟨S32752x256, .f32⟩
  | 16 => ⟨S32768x256, .f32⟩
  | 17 => ⟨S32768x256, .f32⟩
  | 18 => ⟨S32768x256, .f32⟩
  | 19 => ⟨S32752x256, .f32⟩
  | 20 => ⟨S32768x256, .f32⟩
  | 21 => ⟨S32768x256, .f32⟩
  | 22 => ⟨S32768x256, .f32⟩
  | 23 => ⟨S32752x256, .f32⟩
  | 24 => ⟨S32768x256, .f32⟩
  | 25 => ⟨S32768x256, .f32⟩
  | 26 => ⟨S32768x256, .f32⟩
  | 27 => ⟨S32752x256, .f32⟩
  | 28 => ⟨S32768x256, .f32⟩
  | 29 => ⟨S32768x256, .f32⟩
  | 30 => ⟨S32768x256, .f32⟩
  | 31 => ⟨S32752x256, .f32⟩
  | 32 => ⟨S32768x256, .f32⟩
  | 33 => ⟨S32768x256, .f32⟩
  | 34 => ⟨S32768x256, .f32⟩
  | 35 => ⟨S1x32768x256, .f32⟩
  | 36 => ⟨S1x32768x256, .f32⟩
  | 37 => ⟨S1x32768x256, .f32⟩
  | 38 => ⟨S1x32768x256, .f32⟩
  | 39 => ⟨S1x32768x256, .f32⟩
  | 40 => ⟨S1x32768x256, .f32⟩
  | 41 => ⟨S6x32768x256, .f32⟩
  | 42 => ⟨S_, .f32⟩
  | 43 => ⟨S32768x256, .f32⟩
  | 44 => ⟨S_, .f32⟩
  | 45 => ⟨S32768x256, .f32⟩
  | 46 => ⟨S32768x256, .f32⟩
  | 47 => ⟨S2048x16x256, .f32⟩
  | 48 => ⟨S2048x16x256, .f32⟩
  | 49 => ⟨S_, .f32⟩
  | 50 => ⟨S2048x16, .f32⟩
  | 51 => ⟨S2048x16, .f32⟩
  | 52 => ⟨S2048x16x256, .f32⟩
  | 53 => ⟨S2048x16x256, .f32⟩
  | 54 => ⟨S_, .f32⟩
  | 55 => ⟨S2048x16, .f32⟩
  | 56 => ⟨S2048x16, .f32⟩
  | 57 => ⟨S2048x16x16, .f32⟩
  | 58 => ⟨S2048x16x1, .f32⟩
  | 59 => ⟨S2048x1x16, .f32⟩
  | 60 => ⟨S2048x16x16, .f32⟩
  | 61 => ⟨S2048x16x16, .f32⟩
  | 62 => ⟨S2048x16x16, .f32⟩
  | 63 => ⟨S_, .f32⟩
  | 64 => ⟨S2048x16x16, .f32⟩
  | 65 => ⟨S2048x16x16, .f32⟩
  | 66 => ⟨S2048x16x16, .f32⟩
  | 67 => ⟨S_, .f32⟩
  | 68 => ⟨S2048x16x16, .f32⟩
  | 69 => ⟨S2048x16x16, .i1⟩
  | 70 => ⟨S_, .f32⟩
  | 71 => ⟨S_, .f32⟩
  | 72 => ⟨S_, .f32⟩
  | 73 => ⟨S2048x16x16, .f32⟩
  | 74 => ⟨S2048x16x16, .f32⟩
  | 75 => ⟨S_, .f32⟩
  | 76 => ⟨S2048x16x16, .f32⟩
  | 77 => ⟨S2048x16x16, .f32⟩
  | 78 => ⟨S_, .f32⟩
  | 79 => ⟨S_, .f32⟩
  | 80 => ⟨S2048x16x16, .f32⟩
  | 81 => ⟨S2048x16x16, .f32⟩
  | 82 => ⟨S2048x16x256, .f32⟩
  | 83 => ⟨S2048x16x256, .f32⟩
  | 84 => ⟨S_, .f32⟩
  | 85 => ⟨S2048x16, .f32⟩
  | 86 => ⟨S2048x16, .f32⟩
  | 87 => ⟨S2048x16x16, .f32⟩
  | 88 => ⟨S2048x16x1, .f32⟩
  | 89 => ⟨S2048x1x16, .f32⟩
  | 90 => ⟨S2048x16x16, .f32⟩
  | 91 => ⟨S2048x16x16, .f32⟩
  | 92 => ⟨S2048x16x16, .f32⟩
  | 93 => ⟨S_, .f32⟩
  | 94 => ⟨S2048x16x16, .f32⟩
  | 95 => ⟨S2048x16x16, .f32⟩
  | 96 => ⟨S2048x16x16, .f32⟩
  | 97 => ⟨S_, .f32⟩
  | 98 => ⟨S2048x16x16, .f32⟩
  | 99 => ⟨S2048x16x16, .i1⟩
  | 100 => ⟨S_, .f32⟩
  | 101 => ⟨S_, .f32⟩
  | 102 => ⟨S_, .f32⟩
  | 103 => ⟨S2048x16x16, .f32⟩
  | 104 => ⟨S2048x16x16, .f32⟩
  | 105 => ⟨S_, .f32⟩
  | 106 => ⟨S2048x16x16, .f32⟩
  | 107 => ⟨S2048x16x16, .f32⟩
  | 108 => ⟨S_, .f32⟩
  | 109 => ⟨S_, .f32⟩
  | 110 => ⟨S2048x16x16, .f32⟩
  | 111 => ⟨S2048x16x16, .f32⟩
  | 112 => ⟨S2048x16x256, .f32⟩
  | 113 => ⟨S2048x16x256, .f32⟩
  | 114 => ⟨S_, .f32⟩
  | 115 => ⟨S2048x16, .f32⟩
  | 116 => ⟨S2048x16, .f32⟩
  | 117 => ⟨S2048x16x16, .f32⟩
  | 118 => ⟨S2048x16x1, .f32⟩
  | 119 => ⟨S2048x1x16, .f32⟩
  | 120 => ⟨S2048x16x16, .f32⟩
  | 121 => ⟨S2048x16x16, .f32⟩
  | 122 => ⟨S2048x16x16, .f32⟩
  | 123 => ⟨S_, .f32⟩
  | 124 => ⟨S2048x16x16, .f32⟩
  | 125 => ⟨S2048x16x16, .f32⟩
  | 126 => ⟨S2048x16x16, .f32⟩
  | 127 => ⟨S_, .f32⟩
  | _ => ⟨S32768x256, .f32⟩

abbrev hbmTy0_1 (i : Nat) : BufTy := match i % 128 with
  | 0 => ⟨S2048x16x16, .f32⟩
  | 1 => ⟨S2048x16x16, .i1⟩
  | 2 => ⟨S_, .f32⟩
  | 3 => ⟨S_, .f32⟩
  | 4 => ⟨S_, .f32⟩
  | 5 => ⟨S2048x16x16, .f32⟩
  | 6 => ⟨S2048x16x16, .f32⟩
  | 7 => ⟨S_, .f32⟩
  | 8 => ⟨S2048x16x16, .f32⟩
  | 9 => ⟨S2048x16x16, .f32⟩
  | 10 => ⟨S_, .f32⟩
  | 11 => ⟨S_, .f32⟩
  | 12 => ⟨S2048x16x16, .f32⟩
  | 13 => ⟨S2048x16x16, .f32⟩
  | 14 => ⟨S2048x16x256, .f32⟩
  | 15 => ⟨S2048x16x256, .f32⟩
  | 16 => ⟨S_, .f32⟩
  | 17 => ⟨S2048x16, .f32⟩
  | 18 => ⟨S2048x16, .f32⟩
  | 19 => ⟨S2048x16x16, .f32⟩
  | 20 => ⟨S2048x16x1, .f32⟩
  | 21 => ⟨S2048x1x16, .f32⟩
  | 22 => ⟨S2048x16x16, .f32⟩
  | 23 => ⟨S2048x16x16, .f32⟩
  | 24 => ⟨S2048x16x16, .f32⟩
  | 25 => ⟨S_, .f32⟩
  | 26 => ⟨S2048x16x16, .f32⟩
  | 27 => ⟨S2048x16x16, .f32⟩
  | 28 => ⟨S2048x16x16, .f32⟩
  | 29 => ⟨S_, .f32⟩
  | 30 => ⟨S2048x16x16, .f32⟩
  | 31 => ⟨S2048x16x16, .i1⟩
  | 32 => ⟨S_, .f32⟩
  | 33 => ⟨S_, .f32⟩
  | 34 => ⟨S_, .f32⟩
  | 35 => ⟨S2048x16x16, .f32⟩
  | 36 => ⟨S2048x16x16, .f32⟩
  | 37 => ⟨S_, .f32⟩
  | 38 => ⟨S2048x16x16, .f32⟩
  | 39 => ⟨S2048x16x16, .f32⟩
  | 40 => ⟨S_, .f32⟩
  | 41 => ⟨S_, .f32⟩
  | 42 => ⟨S2048x16x16, .f32⟩
  | 43 => ⟨S2048x16x16, .f32⟩
  | 44 => ⟨S2048x16x256, .f32⟩
  | 45 => ⟨S2048x16x256, .f32⟩
  | 46 => ⟨S_, .f32⟩
  | 47 => ⟨S2048x16, .f32⟩
  | 48 => ⟨S2048x16, .f32⟩
  | 49 => ⟨S2048x16x16, .f32⟩
  | 50 => ⟨S2048x16x1, .f32⟩
  | 51 => ⟨S2048x1x16, .f32⟩
  | 52 => ⟨S2048x16x16, .f32⟩
  | 53 => ⟨S2048x16x16, .f32⟩
  | 54 => ⟨S2048x16x16, .f32⟩
  | 55 => ⟨S_, .f32⟩
  | 56 => ⟨S2048x16x16, .f32⟩
  | 57 => ⟨S2048x16x16, .f32⟩
  | 58 => ⟨S2048x16x16, .f32⟩
  | 59 => ⟨S_, .f32⟩
  | 60 => ⟨S2048x16x16, .f32⟩
  | 61 => ⟨S2048x16x16, .i1⟩
  | 62 => ⟨S_, .f32⟩
  | 63 => ⟨S_, .f32⟩
  | 64 => ⟨S_, .f32⟩
  | 65 => ⟨S2048x16x16, .f32⟩
  | 66 => ⟨S2048x16x16, .f32⟩
  | 67 => ⟨S_, .f32⟩
  | 68 => ⟨S2048x16x16, .f32⟩
  | 69 => ⟨S2048x16x16, .f32⟩
  | 70 => ⟨S_, .f32⟩
  | 71 => ⟨S_, .f32⟩
  | 72 => ⟨S2048x16x16, .f32⟩
  | 73 => ⟨S2048x16x16, .f32⟩
  | 74 => ⟨S2048x16x256, .f32⟩
  | 75 => ⟨S2048x16x256, .f32⟩
  | 76 => ⟨S_, .f32⟩
  | 77 => ⟨S2048x16, .f32⟩
  | 78 => ⟨S2048x16, .f32⟩
  | 79 => ⟨S2048x16x16, .f32⟩
  | 80 => ⟨S2048x16x1, .f32⟩
  | 81 => ⟨S2048x1x16, .f32⟩
  | 82 => ⟨S2048x16x16, .f32⟩
  | 83 => ⟨S2048x16x16, .f32⟩
  | 84 => ⟨S2048x16x16, .f32⟩
  | 85 => ⟨S_, .f32⟩
  | 86 => ⟨S2048x16x16, .f32⟩
  | 87 => ⟨S2048x16x16, .f32⟩
  | 88 => ⟨S2048x16x16, .f32⟩
  | 89 => ⟨S_, .f32⟩
  | 90 => ⟨S2048x16x16, .f32⟩
  | 91 => ⟨S2048x16x16, .i1⟩
  | 92 => ⟨S_, .f32⟩
  | 93 => ⟨S_, .f32⟩
  | 94 => ⟨S_, .f32⟩
  | 95 => ⟨S2048x16x16, .f32⟩
  | 96 => ⟨S2048x16x16, .f32⟩
  | 97 => ⟨S_, .f32⟩
  | 98 => ⟨S2048x16x16, .f32⟩
  | 99 => ⟨S2048x16x16, .f32⟩
  | 100 => ⟨S_, .f32⟩
  | 101 => ⟨S_, .f32⟩
  | 102 => ⟨S2048x16x16, .f32⟩
  | 103 => ⟨S2048x16x16, .f32⟩
  | 104 => ⟨S2048x16x96, .f32⟩
  | 105 => ⟨S32768x96, .f32⟩
  | 106 => ⟨S_, .f32⟩
  | 107 => ⟨S32768x1, .f32⟩
  | 108 => ⟨S_, .f32⟩
  | 109 => ⟨S32768x96, .f32⟩
  | 110 => ⟨S32768x96, .f32⟩
  | 111 => ⟨S32768x97, .f32⟩
  | 112 => ⟨S32768x97, .f32⟩
  | 113 => ⟨S_, .f32⟩
  | 114 => ⟨S32768, .f32⟩
  | 115 => ⟨S32768x1, .f32⟩
  | 116 => ⟨S_, .f32⟩
  | 117 => ⟨S32768x1, .f32⟩
  | 118 => ⟨S32768x1, .f32⟩
  | 119 => ⟨S32768x97, .f32⟩
  | 120 => ⟨S32768x97, .f32⟩
  | 121 => ⟨S32768x353, .f32⟩
  | _ => ⟨S32768x256, .f32⟩

abbrev hbmTy (i : Nat) : BufTy := match i / 128 with
  | 0 => hbmTy0_0 i
  | 1 => hbmTy0_1 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_cst_1 : Ref sig .tc := ⟨.hbm, 42, rfl⟩
abbrev main_v38 : Ref sig .tc := ⟨.hbm, 43, rfl⟩
abbrev main_cst_2 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_call0_v0 : Ref sig .tc := ⟨.hbm, 48, rfl⟩
abbrev main_call0_cst : Ref sig .tc := ⟨.hbm, 49, rfl⟩
abbrev main_call0_v1 : Ref sig .tc := ⟨.hbm, 50, rfl⟩
abbrev main_v42 : Ref sig .tc := ⟨.hbm, 51, rfl⟩
abbrev main_v43 : Ref sig .tc := ⟨.hbm, 52, rfl⟩
abbrev main_call1_v0 : Ref sig .tc := ⟨.hbm, 53, rfl⟩
abbrev main_call1_cst : Ref sig .tc := ⟨.hbm, 54, rfl⟩
abbrev main_call1_v1 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_3 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_4 : Ref sig .tc := ⟨.hbm, 67, rfl⟩
abbrev main_v54 : Ref sig .tc := ⟨.hbm, 68, rfl⟩
abbrev main_v55 : Ref sig .tc := ⟨.hbm, 69, rfl⟩
abbrev main_cst_5 : Ref sig .tc := ⟨.hbm, 70, rfl⟩
abbrev main_cst_6 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v56 : Ref sig .tc := ⟨.hbm, 77, rfl⟩
abbrev main_cst_7 : Ref sig .tc := ⟨.hbm, 78, rfl⟩
abbrev main_call3_v0 : Ref sig .tc := ⟨.hbm, 79, rfl⟩
abbrev main_call3_v1 : Ref sig .tc := ⟨.hbm, 80, rfl⟩
abbrev main_v57 : Ref sig .tc := ⟨.hbm, 81, rfl⟩
abbrev main_v58 : Ref sig .tc := ⟨.hbm, 82, rfl⟩
abbrev main_call4_v0 : Ref sig .tc := ⟨.hbm, 83, rfl⟩
abbrev main_call4_cst : Ref sig .tc := ⟨.hbm, 84, rfl⟩
abbrev main_call4_v1 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_8 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_9 : Ref sig .tc := ⟨.hbm, 97, rfl⟩
abbrev main_v69 : Ref sig .tc := ⟨.hbm, 98, rfl⟩
abbrev main_v70 : Ref sig .tc := ⟨.hbm, 99, rfl⟩
abbrev main_cst_10 : Ref sig .tc := ⟨.hbm, 100, rfl⟩
abbrev main_cst_11 : Ref sig .tc := ⟨.hbm, 101, rfl⟩
abbrev main_call5_v0 : Ref sig .tc := ⟨.hbm, 102, rfl⟩
abbrev main_call5_v1 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_v71 : Ref sig .tc := ⟨.hbm, 107, rfl⟩
abbrev main_cst_12 : Ref sig .tc := ⟨.hbm, 108, rfl⟩
abbrev main_call6_v0 : Ref sig .tc := ⟨.hbm, 109, rfl⟩
abbrev main_call6_v1 : Ref sig .tc := ⟨.hbm, 110, rfl⟩
abbrev main_v72 : Ref sig .tc := ⟨.hbm, 111, rfl⟩
abbrev main_v73 : Ref sig .tc := ⟨.hbm, 112, rfl⟩
abbrev main_call7_v0 : Ref sig .tc := ⟨.hbm, 113, rfl⟩
abbrev main_call7_cst : Ref sig .tc := ⟨.hbm, 114, rfl⟩
abbrev main_call7_v1 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_13 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_14 : Ref sig .tc := ⟨.hbm, 127, rfl⟩
abbrev main_v84 : Ref sig .tc := ⟨.hbm, 128, rfl⟩
abbrev main_v85 : Ref sig .tc := ⟨.hbm, 129, rfl⟩
abbrev main_cst_15 : Ref sig .tc := ⟨.hbm, 130, rfl⟩
abbrev main_cst_16 : Ref sig .tc := ⟨.hbm, 131, rfl⟩
abbrev main_call8_v0 : Ref sig .tc := ⟨.hbm, 132, rfl⟩
abbrev main_call8_v1 : Ref sig .tc := ⟨.hbm, 133, rfl⟩
abbrev main_call8_v2 : Ref sig .tc := ⟨.hbm, 134, rfl⟩
abbrev main_call8_v3 : Ref sig .tc := ⟨.hbm, 135, rfl⟩
abbrev main_call8_v4 : Ref sig .tc := ⟨.hbm, 136, rfl⟩
abbrev main_v86 : Ref sig .tc := ⟨.hbm, 137, rfl⟩
abbrev main_cst_17 : Ref sig .tc := ⟨.hbm, 138, rfl⟩
abbrev main_call9_v0 : Ref sig .tc := ⟨.hbm, 139, rfl⟩
abbrev main_call9_v1 : Ref sig .tc := ⟨.hbm, 140, rfl⟩
abbrev main_v87 : Ref sig .tc := ⟨.hbm, 141, rfl⟩
abbrev main_v88 : Ref sig .tc := ⟨.hbm, 142, rfl⟩
abbrev main_call10_v0 : Ref sig .tc := ⟨.hbm, 143, rfl⟩
abbrev main_call10_cst : Ref sig .tc := ⟨.hbm, 144, rfl⟩
abbrev main_call10_v1 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_cst_18 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_cst_19 : Ref sig .tc := ⟨.hbm, 157, rfl⟩
abbrev main_v99 : Ref sig .tc := ⟨.hbm, 158, rfl⟩
abbrev main_v100 : Ref sig .tc := ⟨.hbm, 159, rfl⟩
abbrev main_cst_20 : Ref sig .tc := ⟨.hbm, 160, rfl⟩
abbrev main_cst_21 : Ref sig .tc := ⟨.hbm, 161, rfl⟩
abbrev main_call11_v0 : Ref sig .tc := ⟨.hbm, 162, rfl⟩
abbrev main_call11_v1 : Ref sig .tc := ⟨.hbm, 163, rfl⟩
abbrev main_call11_v2 : Ref sig .tc := ⟨.hbm, 164, rfl⟩
abbrev main_call11_v3 : Ref sig .tc := ⟨.hbm, 165, rfl⟩
abbrev main_call11_v4 : Ref sig .tc := ⟨.hbm, 166, rfl⟩
abbrev main_v101 : Ref sig .tc := ⟨.hbm, 167, rfl⟩
abbrev main_cst_22 : Ref sig .tc := ⟨.hbm, 168, rfl⟩
abbrev main_call12_v0 : Ref sig .tc := ⟨.hbm, 169, rfl⟩
abbrev main_call12_v1 : Ref sig .tc := ⟨.hbm, 170, rfl⟩
abbrev main_v102 : Ref sig .tc := ⟨.hbm, 171, rfl⟩
abbrev main_v103 : Ref sig .tc := ⟨.hbm, 172, rfl⟩
abbrev main_call13_v0 : Ref sig .tc := ⟨.hbm, 173, rfl⟩
abbrev main_call13_cst : Ref sig .tc := ⟨.hbm, 174, rfl⟩
abbrev main_call13_v1 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_cst_23 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_cst_24 : Ref sig .tc := ⟨.hbm, 187, rfl⟩
abbrev main_v114 : Ref sig .tc := ⟨.hbm, 188, rfl⟩
abbrev main_v115 : Ref sig .tc := ⟨.hbm, 189, rfl⟩
abbrev main_cst_25 : Ref sig .tc := ⟨.hbm, 190, rfl⟩
abbrev main_cst_26 : Ref sig .tc := ⟨.hbm, 191, rfl⟩
abbrev main_call14_v0 : Ref sig .tc := ⟨.hbm, 192, rfl⟩
abbrev main_call14_v1 : Ref sig .tc := ⟨.hbm, 193, rfl⟩
abbrev main_call14_v2 : Ref sig .tc := ⟨.hbm, 194, rfl⟩
abbrev main_call14_v3 : Ref sig .tc := ⟨.hbm, 195, rfl⟩
abbrev main_call14_v4 : Ref sig .tc := ⟨.hbm, 196, rfl⟩
abbrev main_v116 : Ref sig .tc := ⟨.hbm, 197, rfl⟩
abbrev main_cst_27 : Ref sig .tc := ⟨.hbm, 198, rfl⟩
abbrev main_call15_v0 : Ref sig .tc := ⟨.hbm, 199, rfl⟩
abbrev main_call15_v1 : Ref sig .tc := ⟨.hbm, 200, rfl⟩
abbrev main_v117 : Ref sig .tc := ⟨.hbm, 201, rfl⟩
abbrev main_v118 : Ref sig .tc := ⟨.hbm, 202, rfl⟩
abbrev main_call16_v0 : Ref sig .tc := ⟨.hbm, 203, rfl⟩
abbrev main_call16_cst : Ref sig .tc := ⟨.hbm, 204, rfl⟩
abbrev main_call16_v1 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_cst_28 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_cst_29 : Ref sig .tc := ⟨.hbm, 217, rfl⟩
abbrev main_v129 : Ref sig .tc := ⟨.hbm, 218, rfl⟩
abbrev main_v130 : Ref sig .tc := ⟨.hbm, 219, rfl⟩
abbrev main_cst_30 : Ref sig .tc := ⟨.hbm, 220, rfl⟩
abbrev main_cst_31 : Ref sig .tc := ⟨.hbm, 221, rfl⟩
abbrev main_call17_v0 : Ref sig .tc := ⟨.hbm, 222, rfl⟩
abbrev main_call17_v1 : Ref sig .tc := ⟨.hbm, 223, rfl⟩
abbrev main_call17_v2 : Ref sig .tc := ⟨.hbm, 224, rfl⟩
abbrev main_call17_v3 : Ref sig .tc := ⟨.hbm, 225, rfl⟩
abbrev main_call17_v4 : Ref sig .tc := ⟨.hbm, 226, rfl⟩
abbrev main_v131 : Ref sig .tc := ⟨.hbm, 227, rfl⟩
abbrev main_cst_32 : Ref sig .tc := ⟨.hbm, 228, rfl⟩
abbrev main_call18_v0 : Ref sig .tc := ⟨.hbm, 229, rfl⟩
abbrev main_call18_v1 : Ref sig .tc := ⟨.hbm, 230, rfl⟩
abbrev main_v132 : Ref sig .tc := ⟨.hbm, 231, rfl⟩
abbrev main_v133 : Ref sig .tc := ⟨.hbm, 232, rfl⟩
abbrev main_v134 : Ref sig .tc := ⟨.hbm, 233, rfl⟩
abbrev main_cst_33 : Ref sig .tc := ⟨.hbm, 234, rfl⟩
abbrev main_v135 : Ref sig .tc := ⟨.hbm, 235, rfl⟩
abbrev main_cst_34 : Ref sig .tc := ⟨.hbm, 236, rfl⟩
abbrev main_v136 : Ref sig .tc := ⟨.hbm, 237, rfl⟩
abbrev main_v137 : Ref sig .tc := ⟨.hbm, 238, rfl⟩
abbrev main_v138 : Ref sig .tc := ⟨.hbm, 239, rfl⟩
abbrev main_v139 : Ref sig .tc := ⟨.hbm, 240, rfl⟩
abbrev main_cst_35 : Ref sig .tc := ⟨.hbm, 241, rfl⟩
abbrev main_v140 : Ref sig .tc := ⟨.hbm, 242, rfl⟩
abbrev main_v141 : Ref sig .tc := ⟨.hbm, 243, rfl⟩
abbrev main_cst_36 : Ref sig .tc := ⟨.hbm, 244, rfl⟩
abbrev main_v142 : Ref sig .tc := ⟨.hbm, 245, rfl⟩
abbrev main_v143 : Ref sig .tc := ⟨.hbm, 246, rfl⟩
abbrev main_v144 : Ref sig .tc := ⟨.hbm, 247, rfl⟩
abbrev main_v145 : Ref sig .tc := ⟨.hbm, 248, rfl⟩
abbrev main_v146 : Ref sig .tc := ⟨.hbm, 249, rfl⟩

abbrev nD : Nat := 1
abbrev τ : Topo := Topo.v7x

variable {F : FTy → Type} [FloatOps F]

class Facts₀ : Prop where
  bcast_S_S1x16 : S_.BroadcastsInDim S1x16 (![] : Fin 0 → Fin S1x16.rank)
  slices_S2048x16_S2047x16_0_0 : S2048x16.Slices ![0, 0] S2047x16
  concatenates_S1x16_S2047x16_S2048x16_d0 : Shape.Concatenates [S1x16, S2047x16] S2048x16 0
  shapeCasts_S2048x16_S32768x1 : S2048x16.ShapeCasts S32768x1
  bcast_S_S16x256 : S_.BroadcastsInDim S16x256 (![] : Fin 0 → Fin S16x256.rank)
  slices_S32768x256_S32752x256_0_0 : S32768x256.Slices ![0, 0] S32752x256
  concatenates_S16x256_S32752x256_S32768x256_d0 : Shape.Concatenates [S16x256, S32752x256] S32768x256 0
  bcast_S32768x1_S32768x256_0_1 : S32768x1.BroadcastsInDim S32768x256 (![0, 1] : Fin 2 → Fin S32768x256.rank)
  slices_S32768x256_S32752x256_16_0 : S32768x256.Slices ![16, 0] S32752x256
  concatenates_S32752x256_S16x256_S32768x256_d0 : Shape.Concatenates [S32752x256, S16x256] S32768x256 0
  bcast_S32768x256_S1x32768x256_1_2 : S32768x256.BroadcastsInDim S1x32768x256 (![1, 2] : Fin 2 → Fin S1x32768x256.rank)
  concatenates_S1x32768x256_S1x32768x256_S1x32768x256_S1x32768x256_S1x32768x256_S1x32768x256_S6x32768x256_d0 : Shape.Concatenates [S1x32768x256, S1x32768x256, S1x32768x256, S1x32768x256, S1x32768x256, S1x32768x256] S6x32768x256 0
  reducesTo_S6x32768x256_S32768x256_d0 : S6x32768x256.ReducesTo [0] S32768x256
  h_S_ : 0 < S_.numel
  bcast_S_S32768x256 : S_.BroadcastsInDim S32768x256 (![] : Fin 0 → Fin S32768x256.rank)
  shapeCasts_S32768x256_S2048x16x256 : S32768x256.ShapeCasts S2048x16x256
  reducesTo_S2048x16x256_S2048x16_d2 : S2048x16x256.ReducesTo [2] S2048x16
  bcast_S2048x16_S2048x16x1_0_1 : S2048x16.BroadcastsInDim S2048x16x1 (![0, 1] : Fin 2 → Fin S2048x16x1.rank)
  bcast_S2048x16_S2048x1x16_0_2 : S2048x16.BroadcastsInDim S2048x1x16 (![0, 2] : Fin 2 → Fin S2048x1x16.rank)
  bcast_S2048x16x1_S2048x16x16_0_1_2 : S2048x16x1.BroadcastsInDim S2048x16x16 (![0, 1, 2] : Fin 3 → Fin S2048x16x16.rank)
  bcast_S2048x1x16_S2048x16x16_0_1_2 : S2048x1x16.BroadcastsInDim S2048x16x16 (![0, 1, 2] : Fin 3 → Fin S2048x16x16.rank)
  bcast_S_S2048x16x16 : S_.BroadcastsInDim S2048x16x16 (![] : Fin 0 → Fin S2048x16x16.rank)
  concatenates_S2048x16x16_S2048x16x16_S2048x16x16_S2048x16x16_S2048x16x16_S2048x16x16_S2048x16x96_d2 : Shape.Concatenates [S2048x16x16, S2048x16x16, S2048x16x16, S2048x16x16, S2048x16x16, S2048x16x16] S2048x16x96 2
  shapeCasts_S2048x16x96_S32768x96 : S2048x16x96.ShapeCasts S32768x96
  bcast_S_S32768x1 : S_.BroadcastsInDim S32768x1 (![] : Fin 0 → Fin S32768x1.rank)
  bcast_S_S32768x96 : S_.BroadcastsInDim S32768x96 (![] : Fin 0 → Fin S32768x96.rank)
  concatenates_S32768x96_S32768x1_S32768x97_d1 : Shape.Concatenates [S32768x96, S32768x1] S32768x97 1
  reducesTo_S32768x97_S32768_d1 : S32768x97.ReducesTo [1] S32768
  bcast_S32768_S32768x1_0 : S32768.BroadcastsInDim S32768x1 (![0] : Fin 1 → Fin S32768x1.rank)
  bcast_S32768x1_S32768x97_0_1 : S32768x1.BroadcastsInDim S32768x97 (![0, 1] : Fin 2 → Fin S32768x97.rank)
  concatenates_S32768x256_S32768x97_S32768x353_d1 : Shape.Concatenates [S32768x256, S32768x97] S32768x353 1
  dot_S2048x16x256_S2048x16x256_S2048x16x16_2_2_1_1_0_0_wf : DotDims.WF S2048x16x256 S2048x16x256 S2048x16x16 [2] [2] [1] [1] [0] [0]

variable [Facts₀]

def dot_S2048x16x256_S2048x16x256_S2048x16x16_2_2_1_1_0_0 : DotDims S2048x16x256 S2048x16x256 S2048x16x16 where
  lhsContracting := [2]
  rhsContracting := [2]
  lhsNonContracting := [1]
  rhsNonContracting := [1]
  lhsBatch := [0]
  rhsBatch := [0]
  wf := dot_S2048x16x256_S2048x16x256_S2048x16x16_2_2_1_1_0_0_wf

class Facts : Prop extends Facts₀ where

variable [Facts]
-- ==== Proof.Spec.lean ====
/-
  The mathematics of the neighbour-window layer, stated once over plain functions, free of any program.

  A batch of 2048 mentions, each with 16 candidates of 256 features: `e b c` is candidate `c` of mention `b`,
  `w b c` its 0/1 validity weight.  Both arrays are read through a window of three zero mentions on either
  side (`padE`, `padW`: position `p` is mention `p - 3`), so that a shift by up to three mentions never
  leaves the array and meets zeros at the ends.

  Six shifted, masked copies of the batch (`copy`): copy `k = 0, 1, 2` holds mention `b - 1`, `b - 2`, `b - 3`
  weighted by the product of the weights of the mentions stepped over on the way (`b - 1`, then `b - 2`, …),
  copies `3, 4, 5` mention `b + 1`, `b + 2`, `b + 3` weighted by the weights of `b`, `b + 1`, ….

  A row of the result (`rowOut`, 353 entries for candidate `i` of a mention): first the mean of the six
  copies (`neigh`, 256 entries), then the candidate's 97 adjacency weights divided by the sum of their absolute
  values (`adjN`): the gated cosine similarity (`sim`) of the candidate against each of the 16 candidates of each
  of the six copies, and a final constant one.
-/
import Idealize.ShloMosaic.PureOps.Ideal
import Idealize.ShloMosaic.PureOps.Ideal.Laws
import Idealize.ShloMosaic.Lib.ValueIdx

noncomputable section

namespace Nbr

open Idealize.ShloMosaic

/-- One candidate: 256 features. -/
abbrev Feat := Fin 256 → EReal
/-- One mention: 16 candidates. -/
abbrev Cands := Fin 16 → Feat

/-- The float words the layer uses, as the extended reals they denote: the cosine's floor on the product of
    norms, the similarity threshold, one, zero, and the floor on a row's absolute sum. -/
def wEps : EReal := Ideal.ofBits .f32 0x322BCC77#32
def wThr : EReal := Ideal.ofBits .f32 0x3F4CCCCD#32
def wOne : EReal := Ideal.ofBits .f32 0x3F800000#32
def wZero : EReal := Ideal.ofBits .f32 0x00000000#32
def wTiny : EReal := Ideal.ofBits .f32 0x2B8CBCCC#32

/-- Sum of squares, Euclidean norm and inner product of feature vectors. -/
def sqsum (v : Feat) : EReal := ∑ d : Fin 256, v d * v d
def norm2 (v : Feat) : EReal := Ideal.sqrt (sqsum v)
def dot (u v : Feat) : EReal := ∑ d : Fin 256, u d * v d

/-- Cosine similarity with the product of norms floored at `wEps`. -/
def cosim (u v : Feat) : EReal := Ideal.div (dot u v) (max (norm2 u * norm2 v) wEps)

/-- Keep a similarity above the threshold, clipped into [threshold, 1]; drop the rest to zero. -/
def gate (q : EReal) : EReal := Scalar.select (Ideal.cmp .ogt q wThr) (min wOne (max wThr q)) wZero

def sim (u v : Feat) : EReal := gate (cosim u v)

/-- Candidate `i`'s 97 adjacency weights: entry `q < 96` is its similarity to candidate `q % 16` of copy `q / 16`
    (times one), entry 96 is one. -/
def adj (x : Cands) (s : Fin 6 → Cands) (i : Fin 16) (q : Fin 97) : EReal :=
  if h : q.val < 96 then sim (x i) (s ⟨q.val / 16, by omega⟩ ⟨q.val % 16, Nat.mod_lt _ (by decide)⟩) * wOne else wOne

/-- The sum of the absolute values of a row of adjacency weights. -/
def rowAbs (x : Cands) (s : Fin 6 → Cands) (i : Fin 16) : EReal :=
  ∑ q : Fin 97, max (adj x s i q) (-(adj x s i q))

/-- The row of adjacency weights, divided by its absolute sum floored at `wTiny`. -/
def adjN (x : Cands) (s : Fin 6 → Cands) (i : Fin 16) (q : Fin 97) : EReal :=
  Ideal.div (adj x s i q) (max (rowAbs x s i) wTiny)

/-- The mean of the six copies, feature by feature: their sum times one sixth. -/
def neigh (s : Fin 6 → Cands) (i : Fin 16) (d : Fin 256) : EReal :=
  (s 0 i d + s 1 i d + s 2 i d + s 3 i d + s 4 i d + s 5 i d) * ((1 / 6 : ℝ) : EReal)

/-- One result row: the 256 mean features, then the 97 normalised adjacency weights. -/
def rowOut (x : Cands) (s : Fin 6 → Cands) (i : Fin 16) (col : Fin 353) : EReal :=
  if h : col.val < 256 then neigh s i ⟨col.val, h⟩ else adjN x s i ⟨col.val - 256, by omega⟩

/-- The batch read through three zero mentions on either side: position `p` is mention `p - 3`. -/
def padE (e : Fin 2048 → Cands) (p : Nat) : Cands := fun c d =>
  if h : 3 ≤ p ∧ p < 2051 then e ⟨p - 3, by omega⟩ c d else 0
def padW (w : Fin 2048 → Fin 16 → EReal) (p : Nat) (c : Fin 16) : EReal :=
  if h : 3 ≤ p ∧ p < 2051 then w ⟨p - 3, by omega⟩ c else 0

/-- The six shifted, masked copies of the batch at mention `b` (`b` itself sits at padded position `b + 3`). -/
def copy (e : Fin 2048 → Cands) (w : Fin 2048 → Fin 16 → EReal) (b : Nat) : Fin 6 → Cands := fun k c d =>
  match k with
  | 0 => padE e (b + 2) c d * padW w (b + 2) c
  | 1 => padE e (b + 1) c d * (padW w (b + 2) c * padW w (b + 1) c)
  | 2 => padE e b c d * (padW w (b + 2) c * padW w (b + 1) c * padW w b c)
  | 3 => padE e (b + 4) c d * padW w (b + 3) c
  | 4 => padE e (b + 5) c d * (padW w (b + 3) c * padW w (b + 4) c)
  | 5 => padE e (b + 6) c d * (padW w (b + 3) c * padW w (b + 4) c * padW w (b + 5) c)

/-- The whole result: row `16 b + i` is `rowOut` of mention `b` and its six copies, candidate `i`. -/
def result (e : Fin 2048 → Cands) (w : Fin 2048 → Fin 16 → EReal) (b : Fin 2048) (i : Fin 16) (col : Fin 353) : EReal :=
  rowOut (e b) (copy e w b.val) i col

/-! ## The batch and the weights read out of the argument arrays, and the result laid out as an array -/

open Idealize.ShloMosaic.ValueIdx

/-- The embeddings array `[32768, 256]` seen as 2048 mentions of 16 candidates: candidate `c` of mention `b` is
    row `b * 16 + c`. -/
def embOf (x0 : (⟨2, ![32768, 256]⟩ : Shape).Idx → EReal) : Fin 2048 → Cands := fun b c d =>
  x0 (ix2 (⟨b.val * 16 + c.val, by have := b.isLt; have := c.isLt; omega⟩ : Fin 32768) d)

/-- The validity weights: the integer counts `[2048, 16]` converted to extended reals. -/
def wOf (x1 : (⟨2, ![2048, 16]⟩ : Shape).Idx → BitVec 32) : Fin 2048 → Fin 16 → EReal := fun b c =>
  FloatOps.sitofp (F := Ideal) .f32 (x1 (ix2 b c))

/-- The result as the array `[32768, 353]`: row `r` is candidate `r % 16` of mention `r / 16`. -/
def outArr (x0 : (⟨2, ![32768, 256]⟩ : Shape).Idx → EReal) (x1 : (⟨2, ![2048, 16]⟩ : Shape).Idx → BitVec 32) :
    (⟨2, ![32768, 353]⟩ : Shape).Idx → EReal := fun idx =>
  result (embOf x0) (wOf x1)
    ⟨(idx 0).val / 16, by have := idx2_lt0 idx; omega⟩ ⟨(idx 0).val % 16, Nat.mod_lt _ (by decide)⟩
    ⟨(idx 1).val, idx2_lt1 idx⟩

/-- The result at row `b * 16 + i`, column `col`. -/
theorem outArr_apply (x0 : (⟨2, ![32768, 256]⟩ : Shape).Idx → EReal) (x1 : (⟨2, ![2048, 16]⟩ : Shape).Idx → BitVec 32)
    (b : Fin 2048) (i : Fin 16) (col : Fin 353) (r : Fin 32768) (hr : r.val = b.val * 16 + i.val) :
    outArr x0 x1 (ix2 r col) = result (embOf x0) (wOf x1) b i col := by
  have hb : r.val / 16 = b.val := by have := i.isLt; omega
  have hi : r.val % 16 = i.val := by have := i.isLt; omega
  unfold outArr
  congr 1
  · exact Fin.ext hb
  · exact Fin.ext hi

end Nbr

end
-- ==== Proof.LibLayout3.lean ====
/-
  Layout facts for arrays of rank two and three, read at an index built from literal coordinates.

  A per-row quantity `[a, b]` kept with a unit axis — trailing `[a, b, 1]` or in the middle `[a, 1, b]` — and
  spread along that axis: the cast reads the operand at the two proper coordinates, the broadcast reads the
  operand at coordinate `0` of the unit axis.  A matrix `[a * b, c]` seen as `[a, b, c]` and back: row
  `i * b + j` of the matrix is row `(i, j)` of the rank-three array.
-/
import Idealize.ShloMosaic.Lib.Pipeline.Value
import Idealize.ShloMosaic.Lib.ValueIdx

namespace Cert.Layout3

open Idealize.ShloMosaic Idealize.ShloMosaic.ValueIdx

variable {α : Type}

/-- `[a, b]` cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b]` cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, 1]` broadcast to `[a, b, n]` reads, at `(i, j, k)`, the operand's one entry at `(i, j)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- `[a, 1, b]` broadcast to `[a, n, b]` reads, at `(i, k, j)`, the operand's one entry at `(i, j)`. -/
theorem broadcastTo_a1b_anb_apply {a b n : ℕ} (v : (⟨3, ![a, 1, b]⟩ : Shape).Idx → α)
    (h : (⟨3, ![a, 1, b]⟩ : Shape).Broadcasts ⟨3, ![a, n, b]⟩) (i : Fin a) (k : Fin n) (j : Fin b) :
    broadcastTo ⟨3, ![a, n, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A matrix `[R, c]` seen as `[a, b, c]`: entry `(i, j, k)` is the matrix's row `i * b + j`, column `k`. -/
theorem shapeCast_rows_split_apply {R a b c : ℕ} (x : (⟨2, ![R, c]⟩ : Shape).Idx → α)
    (h : (⟨2, ![R, c]⟩ : Shape).ShapeCasts ⟨3, ![a, b, c]⟩) (i : Fin a) (j : Fin b) (k : Fin c) (r : Fin R)
    (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

/-- An array `[a, b, c]` seen as the matrix `[R, c]`: row `i * b + j`, column `k` is entry `(i, j, k)`. -/
theorem shapeCast_rows_merge_apply {R a b c : ℕ} (x : (⟨3, ![a, b, c]⟩ : Shape).Idx → α)
    (h : (⟨3, ![a, b, c]⟩ : Shape).ShapeCasts ⟨2, ![R, c]⟩) (r : Fin R) (k : Fin c) (i : Fin a) (j : Fin b)
    (hr : r.val = i.val * b + j.val) :
    shapeCast ⟨2, ![R, c]⟩ x h (ix2 r k) = x (ix3 i j k) :=
  shapeCast_apply x h _ _ (by
    rw [Shape.rowMajor_val_two, Shape.rowMajor_val_three]
    show (i.val * b + j.val) * c + k.val = r.val * c + k.val
    rw [hr])

/-- A matrix `[a, b]` seen as the column `[R, 1]`: row `i * b + j` is entry `(i, j)`. -/
theorem shapeCast_ab_col_apply {R a b : ℕ} (x : (⟨2, ![a, b]⟩ : Shape).Idx → α)
    (h : (⟨2, ![a, b]⟩ : Shape).ShapeCasts ⟨2, ![R, 1]⟩) (r : Fin R) (u : Fin 1) (i : Fin a) (j : Fin b)
    (hr : r.val = i.val * b + j.val) :
    shapeCast ⟨2, ![R, 1]⟩ x h (ix2 r u) = x (ix2 i j) :=
  shapeCast_apply x h _ _ (by
    have hu : u.val = 0 := by omega
    rw [Shape.rowMajor_val_two, Shape.rowMajor_val_two]
    show i.val * b + j.val = r.val * 1 + u.val
    rw [hr, hu, Nat.mul_one, Nat.add_zero])

end Cert.Layout3
-- ==== Proof.KStored.lean ====
/-
  What one grid step of the kernel stores, as one pure term of the vectors it loads.

  The step loads seven windows of 16 mentions out of the resident padded batch — the current mentions `a0` and the
  mentions one, two, three places before (`a1 a2 a3`) and after (`a4 a5 a6`) — and the six blocks of cumulative
  weights `m1 … m6`, and stores one block of 16 × 16 result rows: `stored` is that block, written as the
  composition of the body's intermediate values in the order the body computes them.
-/
import proofs.«404893_j46205258170686_1_alg».proof.Proof.Gen.KernelIdeal.Skeleton

noncomputable section

namespace Cert.KernelIdeal.Body

open Idealize.ShloMosaic Cert.KernelIdeal Cert.KernelIdeal.Gen

variable {F : FTy → Type} [FloatOps F] [Named F]

/-- The block of result rows one grid step stores, from the seven loaded windows of the padded batch and the six
    loaded blocks of weights. The masked copies are `ak * mk` (weights spread over the features); `a0` is the
    step's own 16 mentions. -/
def stored (a0 a1 a2 a3 a4 a5 a6 : Vec F S16x16x256 .f32) (m1 m2 m3 m4 m5 m6 : Vec F S16x16 .f32) :
    FVec F S16x16x353 .f32 :=
  k0_pay26 (k0_pay1 a0) (k0_pay12 a6 m6)
    (k0_pay13 (k0_pay2 a1) (k0_pay3 a2) (k0_pay4 a3) (k0_pay5 a4) (k0_pay6 a5) a6 m1 m2 m3 m4 m5 m6)
    (k0_pay14 (k0_pay1 a0))
    (k0_pay16 (k0_pay1 a0) (k0_pay7 (k0_pay2 a1) m1) (k0_pay14 (k0_pay1 a0)) (k0_pay15 (k0_pay2 a1) m1))
    (k0_pay17 (k0_pay1 a0) (k0_pay8 (k0_pay3 a2) m2) (k0_pay14 (k0_pay1 a0)))
    (k0_pay21 (k0_pay18 (k0_pay9 (k0_pay4 a3) m3)) (k0_pay19 (k0_pay1 a0) (k0_pay9 (k0_pay4 a3) m3)) (k0_pay20 (k0_pay14 (k0_pay1 a0))))
    (k0_pay22 (k0_pay1 a0) (k0_pay10 (k0_pay5 a4) m4) (k0_pay14 (k0_pay1 a0)))
    (k0_pay23 (k0_pay1 a0) (k0_pay11 (k0_pay6 a5) m5))
    (k0_pay24 (k0_pay11 (k0_pay6 a5) m5) (k0_pay14 (k0_pay1 a0)))
    (k0_pay25 (F := F))

end Cert.KernelIdeal.Body

end
-- ==== Proof.KPiece.lean ====
/-
  The block one grid step leaves in the output's staging buffer is `Body.stored` of what the step loads: the
  seven windows of 16 mentions read out of the resident padded batch `x0` at the step's offsets, and the six
  blocks of weights `x1 … x6` whole.
-/
import proofs.«404893_j46205258170686_1_alg».proof.Proof.Gen.KernelIdeal.Frame
import proofs.«404893_j46205258170686_1_alg».proof.Proof.KStored
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.Sem
open Cert.KernelIdeal Cert.KernelIdeal.Gen

variable {F : FTy → Type} [FloatOps F] [Named F]

/-- The window of 16 mentions a step reads out of the padded batch, starting at the mention the offsets name. -/
abbrev win (x0 : Vec F S2054x16x256 .f32) (off : Fin 3 → Nat) (inb : ∀ a, off a + S16x16x256.size a ≤ S2054x16x256.size a) :
    Vec F S16x16x256 .f32 :=
  View.ld x0 (Rect.unit (s := S2054x16x256) off S16x16x256.size inb)

theorem out_eq_stored (c : Dev nD) (i : grid0.Coords) (arg1 : Memref sig .tc .vmem S2054x16x256 .f32) (harg1 : arg1.IsWhole) (arg2 : Memref sig .tc .vmem S16x16 .f32) (harg2 : arg2.IsWhole) (arg3 : Memref sig .tc .vmem S16x16 .f32) (harg3 : arg3.IsWhole) (arg4 : Memref sig .tc .vmem S16x16 .f32) (harg4 : arg4.IsWhole) (arg5 : Memref sig .tc .vmem S16x16 .f32) (harg5 : arg5.IsWhole) (arg6 : Memref sig .tc .vmem S16x16 .f32) (harg6 : arg6.IsWhole) (arg7 : Memref sig .tc .vmem S16x16 .f32) (harg7 : arg7.IsWhole) (arg8 : Memref sig .tc .vmem S16x16x353 .f32) (harg8 : arg8.IsWhole)
    (x0 : Vec F S2054x16x256 .f32) (x1 : Vec F S16x16 .f32) (x2 : Vec F S16x16 .f32) (x3 : Vec F S16x16 .f32) (x4 : Vec F S16x16 .f32) (x5 : Vec F S16x16 .f32) (x6 : Vec F S16x16 .f32) :
    out0_A_7 c i arg1 harg1 arg2 harg2 arg3 harg3 arg4 harg4 arg5 harg5 arg6 harg6 arg7 harg7 arg8 harg8 x0 x1 x2 x3 x4 x5 x6
      = stored (win x0 (k0_off1 i) (k0_off1_inb i))
          (win x0 (k0_off2 i 1#32) (k0_off2_inb i 0)) (win x0 (k0_off2 i 2#32) (k0_off2_inb i 1)) (win x0 (k0_off2 i 3#32) (k0_off2_inb i 2))
          (win x0 (k0_off3 i 1#32) (k0_off3_inb i 0)) (win x0 (k0_off3 i 2#32) (k0_off3_inb i 1)) (win x0 (k0_off3 i 3#32) (k0_off3_inb i 2))
          x1 x2 x3 x4 x5 x6 := by
  have hz3 : (![0, 0, 0] : Fin 3 → Nat) = fun _ => 0 := by funext a; fin_cases a <;> rfl
  have hz2 : (![0, 0] : Fin 2 → Nat) = fun _ => 0 := by funext a; fin_cases a <;> rfl
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  unfold kernelRun0_A
  dsimp only
  sl_unfold_words
  rw [View.canon_unit_zero hz3]
  simp only [View.readAt_eq_ld, harg1.read_unread, harg2.read_unread, harg3.read_unread, harg4.read_unread, harg5.read_unread,
    harg6.read_unread, harg7.read_unread, View.ld_unit_zero (S := S16x16) hz2]
  rfl

end Cert.KernelIdeal.Body

end
-- ==== Proof.KBody.lean ====
/-
  The block of result rows one grid step stores (`Body.stored`), read at one entry: row `i` of the step's mention
  `bb`, column `col`, is `Nbr.rowOut` of that mention's 16 candidates and of its six masked shifted copies — each
  copy the loaded window times the loaded weights, feature by feature.

  The road.  The body's steps are named as operations on whole blocks — a masked copy, the norms of a block, the
  inner products of two blocks, the products of their norms, the gate, the mean of six blocks, the 97-entry rows, the
  rows' floored absolute sums, the assembled result — and the stored term IS their composition, by unfolding
  (`stored_eq`).  Each step is then read at an index of literal coordinates: a masked copy is a product of two
  entries, a sum over the last axis is a finite sum, the matrix product is the inner product of two feature vectors,
  a similarity block's entry is `Nbr.sim`, a row's entry is `Nbr.adj` (column `k * 16 + j` of six blocks side by side
  is column `j` of block `k`; the last column is one), and the result's columns are `Nbr.neigh` below 256 and
  `Nbr.adjN` from 256 on.
-/
import proofs.«404893_j46205258170686_1_alg».proof.Proof.KStored
import proofs.«404893_j46205258170686_1_alg».proof.Proof.Spec
import proofs.«404893_j46205258170686_1_alg».proof.Proof.LibLayout3
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen

/-- The six masked copies of mention `bb` of a step, from the six loaded windows and the six loaded weight blocks. -/
def copiesOf (a1 a2 a3 a4 a5 a6 : Vec Ideal S16x16x256 .f32) (m1 m2 m3 m4 m5 m6 : Vec Ideal S16x16 .f32) (bb : Fin 16) :
    Fin 6 → Nbr.Cands := fun k c d =>
  match k with
  | 0 => a1 (ix3 bb c d) * m1 (ix2 bb c)
  | 1 => a2 (ix3 bb c d) * m2 (ix2 bb c)
  | 2 => a3 (ix3 bb c d) * m3 (ix2 bb c)
  | 3 => a4 (ix3 bb c d) * m4 (ix2 bb c)
  | 4 => a5 (ix3 bb c d) * m5 (ix2 bb c)
  | 5 => a6 (ix3 bb c d) * m6 (ix2 bb c)

/-! ## The vocabulary: the body's steps as operations on whole blocks -/

/-- A block of weights spread over the 256 features. -/
def spread (m : FVec Ideal S16x16 .f32) : FVec Ideal S16x16x256 .f32 :=
  broadcastTo S16x16x256
    (shapeCast S16x16x1 (shapeCast S16x16 m shapeCasts_S16x16_S16x16) shapeCasts_S16x16_S16x16x1)
    broadcasts_S16x16x1_S16x16x256

/-- A masked copy: a loaded window times its weights, feature by feature. -/
def maskedCopy (a : FVec Ideal S16x16x256 .f32) (m : FVec Ideal S16x16 .f32) : FVec Ideal S16x16x256 .f32 :=
  mulf (shapeCast S16x16x256 a shapeCasts_S16x16x256_S16x16x256) (spread m)

/-- The Euclidean norms of a block's 16 × 16 candidates. -/
def norms (x : FVec Ideal S16x16x256 .f32) : FVec Ideal S16x16 .f32 :=
  sqrt (multiReduction .add [2] S16x16 (mulf x x) 0x00000000#32 reduces_S16x16x256_S16x16 (.inl rfl) rfl)

/-- The inner products of each candidate of `x` with each candidate of `s`, mention by mention. -/
def dots (x s : FVec Ideal S16x16x256 .f32) : FVec Ideal S16x16x16 .f32 :=
  matmul dot_S16x16x256_S16x16x256_S16x16x16_2_2_1_1_0_0 (some .fp32) x s (constant S16x16x16 .f32 0x00000000#32)

/-- The products of norms `nx (b, i) * ns (b, j)`. -/
def normProds (nx ns : FVec Ideal S16x16 .f32) : FVec Ideal S16x16x16 .f32 :=
  mulf (broadcastTo S16x16x16 (shapeCast S16x16x1 nx shapeCasts_S16x16_S16x16x1) broadcasts_S16x16x1_S16x16x16)
    (broadcastTo S16x16x16 (shapeCast S16x1x16 ns shapeCasts_S16x16_S16x1x16) broadcasts_S16x1x16_S16x16x16)

/-- The gate on a block of quotients. -/
def gateV (q : FVec Ideal S16x16x16 .f32) : FVec Ideal S16x16x16 .f32 :=
  select (cmpf .ogt q (broadcast S16x16x16 (Scalar.ofBits .f32 0x3F4CCCCD#32)))
    (minimumf (broadcast S16x16x16 (Scalar.ofBits .f32 0x3F800000#32))
      (maximumf (broadcast S16x16x16 (Scalar.ofBits .f32 0x3F4CCCCD#32)) q))
    (broadcast S16x16x16 (Scalar.ofBits .f32 0x00000000#32))

/-- One similarity block from its inner products and its products of norms. -/
def simOf (d np : FVec Ideal S16x16x16 .f32) : FVec Ideal S16x16x16 .f32 :=
  gateV (divf d (maximumf np (broadcast S16x16x16 (Scalar.ofBits .f32 0x322BCC77#32))))

/-- One similarity block: the candidates of `x` against the candidates of the copy `s`. -/
def simBlock (x s : FVec Ideal S16x16x256 .f32) : FVec Ideal S16x16x16 .f32 :=
  simOf (dots x s) (normProds (norms x) (norms s))

/-- The mean of six blocks: their sum times the named sixth. -/
def meanV (c1 c2 c3 c4 c5 c6 : FVec Ideal S16x16x256 .f32) : FVec Ideal S16x16x256 .f32 :=
  mulf (addf (addf (addf (addf (addf c1 c2) c3) c4) c5) c6)
    (broadcast S16x16x256 (Named.named κ "inv_6" 0x3E2AAAAB#32))

/-- The 97 adjacency weights of every candidate: six similarity blocks side by side, times one, then a column of ones. -/
def rowV (blk : Fin 6 → FVec Ideal S16x16x16 .f32) : FVec Ideal S16x16x97 .f32 :=
  concatenate S16x16x97 2
    [⟨S16x16x96, mulf
        (concatenate S16x16x96 2
          [⟨S16x16x16, blk 0⟩, ⟨S16x16x16, blk 1⟩, ⟨S16x16x16, blk 2⟩, ⟨S16x16x16, blk 3⟩, ⟨S16x16x16, blk 4⟩, ⟨S16x16x16, blk 5⟩]
          concatenates_S16x16x16_S16x16x16_S16x16x16_S16x16x16_S16x16x16_S16x16x16_S16x16x96_d2)
        (broadcast S16x16x96 (Scalar.ofBits .f32 0x3F800000#32))⟩,
     ⟨S16x16x1, broadcast S16x16x1 (Scalar.ofBits .f32 0x3F800000#32)⟩]
    concatenates_S16x16x96_S16x16x1_S16x16x97_d2

/-- The floored absolute sums of the rows, kept with a unit axis. -/
def rowDen (r : FVec Ideal S16x16x97 .f32) : FVec Ideal S16x16x1 .f32 :=
  maximumf
    (shapeCast S16x16x1 (multiReduction .add [2] S16x16 (absf r) 0x00000000#32 reduces_S16x16x97_S16x16 (.inl rfl) rfl)
      shapeCasts_S16x16_S16x16x1)
    (broadcast S16x16x1 (Scalar.ofBits .f32 0x2B8CBCCC#32))

/-- The stored block from the mean and the rows: the mean's 256 columns, then the normalised rows' 97. -/
def assemble (mean : FVec Ideal S16x16x256 .f32) (r : FVec Ideal S16x16x97 .f32) : FVec Ideal S16x16x353 .f32 :=
  concatenate S16x16x353 2
    [⟨S16x16x256, mean⟩, ⟨S16x16x97, divf r (broadcastTo S16x16x97 (rowDen r) broadcasts_S16x16x1_S16x16x97)⟩]
    concatenates_S16x16x256_S16x16x97_S16x16x353_d2

/-- The six masked copies of a step as whole blocks. -/
def copyV (a1 a2 a3 a4 a5 a6 : Vec Ideal S16x16x256 .f32) (m1 m2 m3 m4 m5 m6 : Vec Ideal S16x16 .f32) :
    Fin 6 → FVec Ideal S16x16x256 .f32 := fun k =>
  match k with
  | 0 => maskedCopy a1 m1
  | 1 => maskedCopy a2 m2
  | 2 => maskedCopy a3 m3
  | 3 => maskedCopy a4 m4
  | 4 => maskedCopy a5 m5
  | 5 => maskedCopy a6 m6

/-- The stored block in this vocabulary. -/
theorem stored_eq (a0 a1 a2 a3 a4 a5 a6 : Vec Ideal S16x16x256 .f32) (m1 m2 m3 m4 m5 m6 : Vec Ideal S16x16 .f32) :
    stored (F := Ideal) a0 a1 a2 a3 a4 a5 a6 m1 m2 m3 m4 m5 m6
      = assemble
          (meanV (copyV a1 a2 a3 a4 a5 a6 m1 m2 m3 m4 m5 m6 0) (copyV a1 a2 a3 a4 a5 a6 m1 m2 m3 m4 m5 m6 1)
            (copyV a1 a2 a3 a4 a5 a6 m1 m2 m3 m4 m5 m6 2) (copyV a1 a2 a3 a4 a5 a6 m1 m2 m3 m4 m5 m6 3)
            (copyV a1 a2 a3 a4 a5 a6 m1 m2 m3 m4 m5 m6 4) (copyV a1 a2 a3 a4 a5 a6 m1 m2 m3 m4 m5 m6 5))
          (rowV fun k => simBlock (k0_pay1 a0) (copyV a1 a2 a3 a4 a5 a6 m1 m2 m3 m4 m5 m6 k)) := rfl

/-! ## The steps read at an index -/

/-- A masked copy at `(b, c, d)`: the window's entry times the weight of `(b, c)`. -/
theorem maskedCopy_apply (a : FVec Ideal S16x16x256 .f32) (m : FVec Ideal S16x16 .f32) (b c : Fin 16) (d : Fin 256) :
    maskedCopy a m (ix3 b c d) = a (ix3 b c d) * m (ix2 b c) := by
  show shapeCast S16x16x256 a shapeCasts_S16x16x256_S16x16x256 (ix3 b c d) * spread m (ix3 b c d) = _
  rw [shapeCast_self]
  refine congrArg (a (ix3 b c d) * ·) ?_
  unfold spread
  refine (Cert.Layout3.broadcastTo_ab1_abn_apply _ _ b c d).trans ?_
  refine (Cert.Layout3.shapeCast_ab_ab1_apply _ _ b c 0).trans ?_
  rw [shapeCast_self]

/-- The sum over the 256 features at `(b, c)`. -/
theorem laneSum256_apply (v : FVec Ideal S16x16x256 .f32) (b c : Fin 16) :
    multiReduction .add [2] S16x16 v 0x00000000#32 reduces_S16x16x256_S16x16 (.inl rfl) rfl (ix2 b c)
      = ∑ d : Fin 256, v (ix3 b c d) := by
  refine (Ideal.multiReduction_add_single v _ reduces_S16x16x256_S16x16 (.inl rfl) rfl (ix2 b c)).trans ?_
  refine Finset.sum_congr rfl fun d _ => congrArg v (funext fun a => Fin.ext ?_)
  match a with
  | ⟨0, _⟩ => rfl
  | ⟨1, _⟩ => rfl
  | ⟨2, _⟩ => rfl

/-- The sum over a row's 97 entries at `(b, c)`. -/
theorem laneSum97_apply (v : FVec Ideal S16x16x97 .f32) (b c : Fin 16) :
    multiReduction .add [2] S16x16 v 0x00000000#32 reduces_S16x16x97_S16x16 (.inl rfl) rfl (ix2 b c)
      = ∑ q : Fin 97, v (ix3 b c q) := by
  refine (Ideal.multiReduction_add_single v _ reduces_S16x16x97_S16x16 (.inl rfl) rfl (ix2 b c)).trans ?_
  refine Finset.sum_congr rfl fun d _ => congrArg v (funext fun a => Fin.ext ?_)
  match a with
  | ⟨0, _⟩ => rfl
  | ⟨1, _⟩ => rfl
  | ⟨2, _⟩ => rfl

/-- The norm of candidate `(b, c)` of a block. -/
theorem norms_apply (x : FVec Ideal S16x16x256 .f32) (b c : Fin 16) :
    norms x (ix2 b c) = Nbr.norm2 fun d => x (ix3 b c d) := by
  show Ideal.sqrt (multiReduction .add [2] S16x16 (mulf x x) 0x00000000#32 reduces_S16x16x256_S16x16 (.inl rfl) rfl (ix2 b c)) = _
  rw [laneSum256_apply]
  rfl

/-! ### The matrix product: the operand indices of the dot's record, axis by axis -/

theorem dot_lhs_0 (i : S16x16x16.Idx) (q : dot_S16x16x256_S16x16x256_S16x16x16_2_2_1_1_0_0.contr.Idx) :
    (dot_S16x16x256_S16x16x256_S16x16x16_2_2_1_1_0_0.lhsIdx i q 0).val = (i 0).val := by
  unfold DotDims.lhsIdx
  rw [dif_pos (show (0 : Fin S16x16x256.rank) ∈ dot_S16x16x256_S16x16x256_S16x16x16_2_2_1_1_0_0.lhsBatch by decide)]
  rfl
theorem dot_lhs_1 (i : S16x16x16.Idx) (q : dot_S16x16x256_S16x16x256_S16x16x16_2_2_1_1_0_0.contr.Idx) :
    (dot_S16x16x256_S16x16x256_S16x16x16_2_2_1_1_0_0.lhsIdx i q 1).val = (i 1).val := by
  unfold DotDims.lhsIdx
  rw [dif_neg (show ¬(1 : Fin S16x16x256.rank) ∈ dot_S16x16x256_S16x16x256_S16x16x16_2_2_1_1_0_0.lhsBatch by decide),
    dif_pos (show (1 : Fin S16x16x256.rank) ∈ dot_S16x16x256_S16x16x256_S16x16x16_2_2_1_1_0_0.lhsNonContracting by decide)]
  rfl
theorem dot_lhs_2 (i : S16x16x16.Idx) (q : dot_S16x16x256_S16x16x256_S16x16x16_2_2_1_1_0_0.contr.Idx) :
    (dot_S16x16x256_S16x16x256_S16x16x16_2_2_1_1_0_0.lhsIdx i q 2).val = (q ⟨0, by decide⟩).val :=
  dot_S16x16x256_S16x16x256_S16x16x16_2_2_1_1_0_0.lhsIdx_val_of_single rfl i q
theorem dot_rhs_0 (i : S16x16x16.Idx) (q : dot_S16x16x256_S16x16x256_S16x16x16_2_2_1_1_0_0.contr.Idx) :
    (dot_S16x16x256_S16x16x256_S16x16x16_2_2_1_1_0_0.rhsIdx i q 0).val = (i 0).val := by
  unfold DotDims.rhsIdx
  rw [dif_pos (show (0 : Fin S16x16x256.rank) ∈ dot_S16x16x256_S16x16x256_S16x16x16_2_2_1_1_0_0.rhsBatch by decide)]
  rfl
theorem dot_rhs_1 (i : S16x16x16.Idx) (q : dot_S16x16x256_S16x16x256_S16x16x16_2_2_1_1_0_0.contr.Idx) :
    (dot_S16x16x256_S16x16x256_S16x16x16_2_2_1_1_0_0.rhsIdx i q 1).val = (i 2).val := by
  unfold DotDims.rhsIdx
  rw [dif_neg (show ¬(1 : Fin S16x16x256.rank) ∈ dot_S16x16x256_S16x16x256_S16x16x16_2_2_1_1_0_0.rhsBatch by decide),
    dif_pos (show (1 : Fin S16x16x256.rank) ∈ dot_S16x16x256_S16x16x256_S16x16x16_2_2_1_1_0_0.rhsNonContracting by decide)]
  rfl
theorem dot_rhs_2 (i : S16x16x16.Idx) (q : dot_S16x16x256_S16x16x256_S16x16x16_2_2_1_1_0_0.contr.Idx) :
    (dot_S16x16x256_S16x16x256_S16x16x16_2_2_1_1_0_0.rhsIdx i q 2).val = (q ⟨0, by decide⟩).val :=
  dot_S16x16x256_S16x16x256_S16x16x16_2_2_1_1_0_0.rhsIdx_val_of_single rfl i q

/-- The inner product of candidate `i` of `x` with candidate `j` of `s`, in mention `b`. -/
theorem dots_apply (x s : FVec Ideal S16x16x256 .f32) (b i j : Fin 16) :
    dots x s (ix3 b i j) = Nbr.dot (fun d => x (ix3 b i d)) (fun d => s (ix3 b j d)) := by
  unfold dots
  refine (Ideal.matmul_constant_zero_apply _ _ x s (ix3 b i j)).trans ?_
  refine (Equiv.sum_comp (contrEquiv1 dot_S16x16x256_S16x16x256_S16x16x16_2_2_1_1_0_0 256 rfl rfl).symm _).symm.trans ?_
  refine Finset.sum_congr rfl fun k _ => ?_
  have hk := contrEquiv1_symm_val dot_S16x16x256_S16x16x256_S16x16x16_2_2_1_1_0_0 256 rfl rfl k
  have el : dot_S16x16x256_S16x16x256_S16x16x16_2_2_1_1_0_0.lhsIdx (ix3 b i j)
      ((contrEquiv1 dot_S16x16x256_S16x16x256_S16x16x16_2_2_1_1_0_0 256 rfl rfl).symm k) = ix3 b i k :=
    funext fun a => Fin.ext (by
      match a with
      | ⟨0, _⟩ => exact dot_lhs_0 _ _
      | ⟨1, _⟩ => exact dot_lhs_1 _ _
      | ⟨2, _⟩ => exact (dot_lhs_2 _ _).trans hk)
  have er : dot_S16x16x256_S16x16x256_S16x16x16_2_2_1_1_0_0.rhsIdx (ix3 b i j)
      ((contrEquiv1 dot_S16x16x256_S16x16x256_S16x16x16_2_2_1_1_0_0 256 rfl rfl).symm k) = ix3 b j k :=
    funext fun a => Fin.ext (by
      match a with
      | ⟨0, _⟩ => exact dot_rhs_0 _ _
      | ⟨1, _⟩ => exact dot_rhs_1 _ _
      | ⟨2, _⟩ => exact (dot_rhs_2 _ _).trans hk)
  rw [el, er]

/-- The product of the norms of `(b, i)` and `(b, j)`. -/
theorem normProds_apply (nx ns : FVec Ideal S16x16 .f32) (b i j : Fin 16) :
    normProds nx ns (ix3 b i j) = nx (ix2 b i) * ns (ix2 b j) := by
  show broadcastTo S16x16x16 (shapeCast S16x16x1 nx shapeCasts_S16x16_S16x16x1) broadcasts_S16x16x1_S16x16x16 (ix3 b i j)
      * broadcastTo S16x16x16 (shapeCast S16x1x16 ns shapeCasts_S16x16_S16x1x16) broadcasts_S16x1x16_S16x16x16 (ix3 b i j) = _
  rw [(Cert.Layout3.broadcastTo_ab1_abn_apply _ _ b i j).trans (Cert.Layout3.shapeCast_ab_ab1_apply _ _ b i 0),
    (Cert.Layout3.broadcastTo_a1b_anb_apply _ _ b i j).trans (Cert.Layout3.shapeCast_ab_a1b_apply _ _ b 0 j)]

/-- A similarity block entry from its inner product and its product of norms: the gated floored quotient. -/
theorem simOf_apply (d np : FVec Ideal S16x16x16 .f32) (j : S16x16x16.Idx) :
    simOf d np j = Nbr.gate (Ideal.div (d j) (max (np j) Nbr.wEps)) := rfl

/-- A similarity block at `(b, i, j)`: the similarity of candidate `i` of `x` to candidate `j` of the copy. -/
theorem simBlock_apply (x s : FVec Ideal S16x16x256 .f32) (b i j : Fin 16) :
    simBlock x s (ix3 b i j) = Nbr.sim (fun d => x (ix3 b i d)) (fun d => s (ix3 b j d)) := by
  unfold simBlock
  rw [simOf_apply, dots_apply, normProds_apply, norms_apply, norms_apply]
  rfl

/-! ### The concatenations along the last axis -/

/-- Six blocks of 16 columns side by side: column `k * 16 + j` is column `j` of block `k`. -/
theorem cat6_apply (blk : Fin 6 → FVec Ideal S16x16x16 .f32) (b i : Fin 16) (k : Fin 6) (j : Fin 16) (q : Fin 96)
    (hq : q.val = k.val * 16 + j.val) :
    concatenate S16x16x96 2
        [⟨S16x16x16, blk 0⟩, ⟨S16x16x16, blk 1⟩, ⟨S16x16x16, blk 2⟩, ⟨S16x16x16, blk 3⟩, ⟨S16x16x16, blk 4⟩, ⟨S16x16x16, blk 5⟩]
        concatenates_S16x16x16_S16x16x16_S16x16x16_S16x16x16_S16x16x16_S16x16x16_S16x16x96_d2 (ix3 b i q)
      = blk k (ix3 b i j) := by
  have hi : ∀ a : Fin S16x16x16.rank, a.cast (rfl : S16x16x16.rank = S16x16x96.rank) ≠ (2 : Fin S16x16x96.rank) →
      ((ix3 b i j : S16x16x16.Idx) a).val = ((ix3 b i q : S16x16x96.Idx) (a.cast rfl)).val := fun a =>
    match a with
    | ⟨0, _⟩ => fun _ => rfl
    | ⟨1, _⟩ => fun _ => rfl
    | ⟨2, _⟩ => fun h => absurd rfl h
  match k, hq with
  | ⟨0, _⟩, hq =>
    exact concatenate_apply_piece (t := S16x16x96) 2
      [⟨S16x16x16, blk 0⟩, ⟨S16x16x16, blk 1⟩, ⟨S16x16x16, blk 2⟩, ⟨S16x16x16, blk 3⟩, ⟨S16x16x16, blk 4⟩, ⟨S16x16x16, blk 5⟩]
      concatenates_S16x16x16_S16x16x16_S16x16x16_S16x16x16_S16x16x16_S16x16x16_S16x16x96_d2 (ix3 b i q)
      0 (show (_ : Nat) < 6 by decide) S16x16x16 (blk 0) rfl rfl 0 rfl (ix3 b i j) hi
      (by show 0 + j.val = q.val; simp only [] at hq; omega)
  | ⟨1, _⟩, hq =>
    exact concatenate_apply_piece (t := S16x16x96) 2
      [⟨S16x16x16, blk 0⟩, ⟨S16x16x16, blk 1⟩, ⟨S16x16x16, blk 2⟩, ⟨S16x16x16, blk 3⟩, ⟨S16x16x16, blk 4⟩, ⟨S16x16x16, blk 5⟩]
      concatenates_S16x16x16_S16x16x16_S16x16x16_S16x16x16_S16x16x16_S16x16x16_S16x16x96_d2 (ix3 b i q)
      1 (show (_ : Nat) < 6 by decide) S16x16x16 (blk 1) rfl rfl 16 rfl (ix3 b i j) hi
      (by show 16 + j.val = q.val; simp only [] at hq; omega)
  | ⟨2, _⟩, hq =>
    exact concatenate_apply_piece (t := S16x16x96) 2
      [⟨S16x16x16, blk 0⟩, ⟨S16x16x16, blk 1⟩, ⟨S16x16x16, blk 2⟩, ⟨S16x16x16, blk 3⟩, ⟨S16x16x16, blk 4⟩, ⟨S16x16x16, blk 5⟩]
      concatenates_S16x16x16_S16x16x16_S16x16x16_S16x16x16_S16x16x16_S16x16x16_S16x16x96_d2 (ix3 b i q)
      2 (show (_ : Nat) < 6 by decide) S16x16x16 (blk 2) rfl rfl 32 rfl (ix3 b i j) hi
      (by show 32 + j.val = q.val; simp only [] at hq; omega)
  | ⟨3, _⟩, hq =>
    exact concatenate_apply_piece (t := S16x16x96) 2
      [⟨S16x16x16, blk 0⟩, ⟨S16x16x16, blk 1⟩, ⟨S16x16x16, blk 2⟩, ⟨S16x16x16, blk 3⟩, ⟨S16x16x16, blk 4⟩, ⟨S16x16x16, blk 5⟩]
      concatenates_S16x16x16_S16x16x16_S16x16x16_S16x16x16_S16x16x16_S16x16x16_S16x16x96_d2 (ix3 b i q)
      3 (show (_ : Nat) < 6 by decide) S16x16x16 (blk 3) rfl rfl 48 rfl (ix3 b i j) hi
      (by show 48 + j.val = q.val; simp only [] at hq; omega)
  | ⟨4, _⟩, hq =>
    exact concatenate_apply_piece (t := S16x16x96) 2
      [⟨S16x16x16, blk 0⟩, ⟨S16x16x16, blk 1⟩, ⟨S16x16x16, blk 2⟩, ⟨S16x16x16, blk 3⟩, ⟨S16x16x16, blk 4⟩, ⟨S16x16x16, blk 5⟩]
      concatenates_S16x16x16_S16x16x16_S16x16x16_S16x16x16_S16x16x16_S16x16x16_S16x16x96_d2 (ix3 b i q)
      4 (show (_ : Nat) < 6 by decide) S16x16x16 (blk 4) rfl rfl 64 rfl (ix3 b i j) hi
      (by show 64 + j.val = q.val; simp only [] at hq; omega)
  | ⟨5, _⟩, hq =>
    exact concatenate_apply_piece (t := S16x16x96) 2
      [⟨S16x16x16, blk 0⟩, ⟨S16x16x16, blk 1⟩, ⟨S16x16x16, blk 2⟩, ⟨S16x16x16, blk 3⟩, ⟨S16x16x16, blk 4⟩, ⟨S16x16x16, blk 5⟩]
      concatenates_S16x16x16_S16x16x16_S16x16x16_S16x16x16_S16x16x16_S16x16x16_S16x16x96_d2 (ix3 b i q)
      5 (show (_ : Nat) < 6 by decide) S16x16x16 (blk 5) rfl rfl 80 rfl (ix3 b i j) hi
      (by show 80 + j.val = q.val; simp only [] at hq; omega)

/-- A row's entry `q < 96`: column `q % 16` of block `q / 16`, times one. -/
theorem rowV_apply_lt (blk : Fin 6 → FVec Ideal S16x16x16 .f32) (b i : Fin 16) (q : Fin 97) (h : q.val < 96) :
    rowV blk (ix3 b i q)
      = blk ⟨q.val / 16, by omega⟩ (ix3 b i ⟨q.val % 16, Nat.mod_lt _ (by decide)⟩) * Nbr.wOne := by
  unfold rowV
  refine (concatenate_pair_apply_left (t := S16x16x97) 2 _ _ concatenates_S16x16x96_S16x16x1_S16x16x97_d2 (ix3 b i q) rfl
    (ix3 b i (⟨q.val, h⟩ : Fin 96)) (fun a => match a with | ⟨0, _⟩ => rfl | ⟨1, _⟩ => rfl | ⟨2, _⟩ => rfl)).trans ?_
  refine congrArg (· * Nbr.wOne) ?_
  exact cat6_apply blk b i ⟨q.val / 16, by omega⟩ ⟨q.val % 16, Nat.mod_lt _ (by decide)⟩ ⟨q.val, h⟩
    (by show q.val = q.val / 16 * 16 + q.val % 16; omega)

/-- A row's last entry: one. -/
theorem rowV_apply_last (blk : Fin 6 → FVec Ideal S16x16x16 .f32) (b i : Fin 16) (q : Fin 97) (h : ¬q.val < 96) :
    rowV blk (ix3 b i q) = Nbr.wOne := by
  unfold rowV
  exact concatenate_pair_apply_right (t := S16x16x97) 2 _ _ concatenates_S16x16x96_S16x16x1_S16x16x97_d2 (ix3 b i q) rfl rfl
    (ix3 b i (0 : Fin 1))
    (fun a => match a with | ⟨0, _⟩ => fun _ => rfl | ⟨1, _⟩ => fun _ => rfl | ⟨2, _⟩ => fun h => absurd rfl h)
    (by show 0 + 96 = q.val; have := q.isLt; omega)

/-- The rows of similarity blocks are the adjacency weights. -/
theorem rowV_apply (x : FVec Ideal S16x16x256 .f32) (cp : Fin 6 → FVec Ideal S16x16x256 .f32) (b i : Fin 16) (q : Fin 97) :
    rowV (fun k => simBlock x (cp k)) (ix3 b i q)
      = Nbr.adj (fun c d => x (ix3 b c d)) (fun k c d => cp k (ix3 b c d)) i q := by
  unfold Nbr.adj
  split
  · next h => rw [rowV_apply_lt _ b i q h, simBlock_apply]
  · next h => exact rowV_apply_last _ b i q h

/-- The floored absolute sum of row `(b, i)`. -/
theorem rowDen_apply (r : FVec Ideal S16x16x97 .f32) (b i : Fin 16) (u : Fin 1) :
    rowDen r (ix3 b i u) = max (∑ q : Fin 97, max (r (ix3 b i q)) (-(r (ix3 b i q)))) Nbr.wTiny := by
  show max (shapeCast S16x16x1
      (multiReduction .add [2] S16x16 (absf r) 0x00000000#32 reduces_S16x16x97_S16x16 (.inl rfl) rfl)
      shapeCasts_S16x16_S16x16x1 (ix3 b i u)) Nbr.wTiny = _
  rw [Cert.Layout3.shapeCast_ab_ab1_apply, laneSum97_apply]
  rfl

/-- The stored block's first 256 columns: the mean. -/
theorem assemble_apply_lt (mean : FVec Ideal S16x16x256 .f32) (r : FVec Ideal S16x16x97 .f32) (b i : Fin 16) (col : Fin 353)
    (h : col.val < 256) : assemble mean r (ix3 b i col) = mean (ix3 b i ⟨col.val, h⟩) := by
  unfold assemble
  exact concatenate_pair_apply_left (t := S16x16x353) 2 _ _ concatenates_S16x16x256_S16x16x97_S16x16x353_d2 (ix3 b i col) rfl
    (ix3 b i (⟨col.val, h⟩ : Fin 256)) (fun a => match a with | ⟨0, _⟩ => rfl | ⟨1, _⟩ => rfl | ⟨2, _⟩ => rfl)

/-- The stored block's last 97 columns: the row divided by its floored absolute sum. -/
theorem assemble_apply_ge (mean : FVec Ideal S16x16x256 .f32) (r : FVec Ideal S16x16x97 .f32) (b i : Fin 16) (col : Fin 353)
    (h : ¬col.val < 256) :
    assemble mean r (ix3 b i col)
      = Ideal.div (r (ix3 b i ⟨col.val - 256, by have := col.isLt; omega⟩))
          (max (∑ q : Fin 97, max (r (ix3 b i q)) (-(r (ix3 b i q)))) Nbr.wTiny) := by
  unfold assemble
  refine (concatenate_pair_apply_right (t := S16x16x353) 2 _ _ concatenates_S16x16x256_S16x16x97_S16x16x353_d2 (ix3 b i col)
    rfl rfl (ix3 b i (⟨col.val - 256, by have := col.isLt; omega⟩ : Fin 97))
    (fun a => match a with | ⟨0, _⟩ => fun _ => rfl | ⟨1, _⟩ => fun _ => rfl | ⟨2, _⟩ => fun h => absurd rfl h)
    (by show col.val - 256 + 256 = col.val; omega)).trans ?_
  show Ideal.div _ (broadcastTo S16x16x97 (rowDen r) broadcasts_S16x16x1_S16x16x97 (ix3 b i _)) = _
  rw [Cert.Layout3.broadcastTo_ab1_abn_apply, rowDen_apply]

/-- The named sixth is the rational `1 / 6`. -/
theorem inv_6 : Named.named (F := Ideal) Cert.KernelIdeal.κ "inv_6" (φ := .f32) 0x3E2AAAAB#32 = ((1 / 6 : ℝ) : EReal) :=
  IdealRules.named_const.ideal_named_scalar _ _ _ _ rfl

/-- The mean at an index. -/
theorem meanV_apply (c1 c2 c3 c4 c5 c6 : FVec Ideal S16x16x256 .f32) (j : S16x16x256.Idx) :
    meanV c1 c2 c3 c4 c5 c6 j = (c1 j + c2 j + c3 j + c4 j + c5 j + c6 j) * ((1 / 6 : ℝ) : EReal) := by
  show (c1 j + c2 j + c3 j + c4 j + c5 j + c6 j) * Named.named (F := Ideal) κ "inv_6" (φ := .f32) 0x3E2AAAAB#32 = _
  rw [inv_6]

/-- The masked copies as blocks, at an index, are the masked copies of the mention. -/
theorem copyV_apply (a1 a2 a3 a4 a5 a6 : Vec Ideal S16x16x256 .f32) (m1 m2 m3 m4 m5 m6 : Vec Ideal S16x16 .f32)
    (bb : Fin 16) (k : Fin 6) (c : Fin 16) (d : Fin 256) :
    copyV a1 a2 a3 a4 a5 a6 m1 m2 m3 m4 m5 m6 k (ix3 bb c d) = copiesOf a1 a2 a3 a4 a5 a6 m1 m2 m3 m4 m5 m6 bb k c d := by
  match k with
  | 0 => exact maskedCopy_apply a1 m1 bb c d
  | 1 => exact maskedCopy_apply a2 m2 bb c d
  | 2 => exact maskedCopy_apply a3 m3 bb c d
  | 3 => exact maskedCopy_apply a4 m4 bb c d
  | 4 => exact maskedCopy_apply a5 m5 bb c d
  | 5 => exact maskedCopy_apply a6 m6 bb c d

/-- The stored block at `(bb, i, col)`. -/
theorem stored_apply (a0 a1 a2 a3 a4 a5 a6 : Vec Ideal S16x16x256 .f32) (m1 m2 m3 m4 m5 m6 : Vec Ideal S16x16 .f32)
    (bb i : Fin 16) (col : Fin 353) :
    stored (F := Ideal) a0 a1 a2 a3 a4 a5 a6 m1 m2 m3 m4 m5 m6 (ix3 bb i col)
      = Nbr.rowOut (fun c d => a0 (ix3 bb c d)) (copiesOf a1 a2 a3 a4 a5 a6 m1 m2 m3 m4 m5 m6 bb) i col := by
  rw [stored_eq]
  have hx : k0_pay1 (F := Ideal) a0 = a0 := shapeCast_self _ _
  have hcp : (fun k c d => copyV a1 a2 a3 a4 a5 a6 m1 m2 m3 m4 m5 m6 k (ix3 bb c d))
      = copiesOf a1 a2 a3 a4 a5 a6 m1 m2 m3 m4 m5 m6 bb :=
    funext fun k => funext fun c => funext fun d => copyV_apply a1 a2 a3 a4 a5 a6 m1 m2 m3 m4 m5 m6 bb k c d
  have hrow : ∀ q : Fin 97,
      rowV (fun k => simBlock (k0_pay1 a0) (copyV a1 a2 a3 a4 a5 a6 m1 m2 m3 m4 m5 m6 k)) (ix3 bb i q)
        = Nbr.adj (fun c d => a0 (ix3 bb c d)) (copiesOf a1 a2 a3 a4 a5 a6 m1 m2 m3 m4 m5 m6 bb) i q := fun q => by
    rw [rowV_apply, hx, hcp]
  unfold Nbr.rowOut
  split
  · next h =>
    rw [assemble_apply_lt _ _ bb i col h, meanV_apply]
    simp only [copyV_apply]
    rfl
  · next h =>
    rw [assemble_apply_ge _ _ bb i col h, hrow]
    simp only [hrow]
    rfl

end Cert.KernelIdeal.Body

end
-- ==== Proof.KHost.lean ====
/-
  The arrays the kernel's launch reads, as the host operations before it leave them, read at an index.

  The padded batch (`%1`: the embeddings seen as 2048 mentions and padded with three zero mentions on either side)
  at padded position `p` is `Nbr.padE` there.  The six blocks of cumulative weights are products of the weights
  shifted by up to three mentions with zero fill (`pad` of a `slice`), and a shifted weight at mention `b` is
  `Nbr.padW` at the shifted position: `%4` is the weight of mention `b - 1`, `%9` that times the weight of
  `b - 2`, `%11` that times the weight of `b - 3`; `%2` is the weight of `b`, `%16` that times the weight of
  `b + 1`, `%18` that times the weight of `b + 2`.
-/
import proofs.«404893_j46205258170686_1_alg».proof.Proof.Gen.KernelIdeal.Frame
import proofs.«404893_j46205258170686_1_alg».proof.Proof.Spec
import proofs.«404893_j46205258170686_1_alg».proof.Proof.LibLayout3
import Idealize.ShloMosaic.Lib.StableHlo.Run
import Idealize.ShloMosaic.Lib.Pipeline.Value
import Idealize.ShloMosaic.Lib.KernelVsHost
import Idealize.ShloMosaic.Lib.ValueIdx

set_option maxRecDepth 16384

noncomputable section

namespace Cert.KernelIdeal.Host

open Idealize.ShloMosaic Idealize.ShloMosaic.TcCoe Idealize.ShloMosaic.StableHlo Idealize.ShloMosaic.ValueIdx
open Idealize.SL Idealize.SL.Sem
open Cert.KernelIdeal Cert.KernelIdeal.Gen

/-! ## Reads of the padded accessors -/

theorem padE_inside (e : Fin 2048 → Nbr.Cands) (p : Nat) (q : Fin 2048) (h : p = q.val + 3) (c : Fin 16) (d : Fin 256) :
    Nbr.padE e p c d = e q c d := by
  have hq := q.isLt
  subst h
  unfold Nbr.padE
  rw [dif_pos ⟨by omega, by omega⟩]
  simp only [Nat.add_sub_cancel, Fin.eta]

theorem padE_outside (e : Fin 2048 → Nbr.Cands) (p : Nat) (h : p < 3 ∨ 2051 ≤ p) (c : Fin 16) (d : Fin 256) :
    Nbr.padE e p c d = 0 := by
  unfold Nbr.padE
  rw [dif_neg (by omega)]

theorem padW_inside (w : Fin 2048 → Fin 16 → EReal) (p : Nat) (q : Fin 2048) (h : p = q.val + 3) (c : Fin 16) :
    Nbr.padW w p c = w q c := by
  have hq := q.isLt
  subst h
  unfold Nbr.padW
  rw [dif_pos ⟨by omega, by omega⟩]
  simp only [Nat.add_sub_cancel, Fin.eta]

theorem padW_outside (w : Fin 2048 → Fin 16 → EReal) (p : Nat) (h : p < 3 ∨ 2051 ≤ p) (c : Fin 16) :
    Nbr.padW w p c = 0 := by
  unfold Nbr.padW
  rw [dif_neg (by omega)]

/-- The padding value the host operations use: the integer zero converted, which is the real zero. -/
theorem padValue (i : S_.Idx) : (sitofp (F := Ideal) .f32 (constantI S_ 32 0#32) : FVec Ideal S_ .f32) i = 0 :=
  sitofp_zero (φ := .f32)

/-! ## A matrix of 2048 rows shifted down or up by `k` rows with zero fill -/

/-- Rows `0 … n - 1` of `W` placed after `k` rows of padding: row `b` is `W`'s row `b - k`, the padding before. -/
theorem shiftDown_apply {n : Nat} (k : Nat) (hk : n + k = 2048) (W : (⟨2, ![2048, 16]⟩ : Shape).Idx → EReal)
    (z : S_.Idx → EReal) (hs : (⟨2, ![2048, 16]⟩ : Shape).Slices ![0, 0] ⟨2, ![n, 16]⟩)
    (hp : (⟨2, ![n, 16]⟩ : Shape).Pads ![k, 0] ![0, 0] ![0, 0] ⟨2, ![2048, 16]⟩) (hu : 0 < S_.numel)
    (b : Fin 2048) (c : Fin 16) :
    pad ⟨2, ![2048, 16]⟩ ![k, 0] ![0, 0] ![0, 0] (extractStridedSlice ⟨2, ![n, 16]⟩ ![0, 0] W hs) z hp hu (ix2 b c)
      = if h : k ≤ b.val then W (ix2 (⟨b.val - k, by have := b.isLt; omega⟩ : Fin 2048) c) else z (Shape.Idx.first hu) := by
  have hb := b.isLt
  by_cases h : k ≤ b.val
  · rw [dif_pos h]
    refine (pad_apply_of_inside _ _ _ _ z hp hu (ix2 b c) (ix2 (⟨b.val - k, by omega⟩ : Fin n) c) fun a => ?_).trans ?_
    · match a with
      | ⟨0, _⟩ => show b.val = k + (b.val - k) * (0 + 1); omega
      | ⟨1, _⟩ => show c.val = 0 + c.val * (0 + 1); omega
    · refine extractStridedSlice_apply _ W hs _ _ fun a => ?_
      match a with
      | ⟨0, _⟩ => show b.val - k = 0 + (b.val - k); omega
      | ⟨1, _⟩ => show c.val = 0 + c.val; omega
  · rw [dif_neg h]
    refine pad_apply_of_not_inside _ _ _ _ z hp hu (ix2 b c) (0 : Fin 2) fun hin => h ?_
    exact hin.1

/-- Rows `k … 2047` of `W` placed before `k` rows of padding: row `b` is `W`'s row `b + k`, the padding after. -/
theorem shiftUp_apply {n : Nat} (k : Nat) (hk : n + k = 2048) (W : (⟨2, ![2048, 16]⟩ : Shape).Idx → EReal)
    (z : S_.Idx → EReal) (hs : (⟨2, ![2048, 16]⟩ : Shape).Slices ![k, 0] ⟨2, ![n, 16]⟩)
    (hp : (⟨2, ![n, 16]⟩ : Shape).Pads ![0, 0] ![k, 0] ![0, 0] ⟨2, ![2048, 16]⟩) (hu : 0 < S_.numel)
    (b : Fin 2048) (c : Fin 16) :
    pad ⟨2, ![2048, 16]⟩ ![0, 0] ![k, 0] ![0, 0] (extractStridedSlice ⟨2, ![n, 16]⟩ ![k, 0] W hs) z hp hu (ix2 b c)
      = if h : b.val + k < 2048 then W (ix2 (⟨b.val + k, h⟩ : Fin 2048) c) else z (Shape.Idx.first hu) := by
  have hb := b.isLt
  by_cases h : b.val + k < 2048
  · rw [dif_pos h]
    refine (pad_apply_of_inside _ _ _ _ z hp hu (ix2 b c) (ix2 (⟨b.val, by omega⟩ : Fin n) c) fun a => ?_).trans ?_
    · match a with
      | ⟨0, _⟩ => show b.val = 0 + b.val * (0 + 1); omega
      | ⟨1, _⟩ => show c.val = 0 + c.val * (0 + 1); omega
    · refine extractStridedSlice_apply _ W hs _ _ fun a => ?_
      match a with
      | ⟨0, _⟩ => show b.val + k = k + b.val; omega
      | ⟨1, _⟩ => show c.val = 0 + c.val; omega
  · rw [dif_neg h]
    refine pad_apply_of_not_inside _ _ _ _ z hp hu (ix2 b c) (0 : Fin 2) fun hin => h ?_
    have h3 : (b.val - 0) / (0 + 1) < n := hin.2.2
    simp only [Nat.sub_zero, Nat.zero_add, Nat.div_one] at h3
    omega

/-! ## The launch's arrays as the region finds them -/

variable (m : (ℓ : Loc nD τ sig) → Buf (Elt Ideal) ℓ)

/-- Device `c`'s two argument arrays. -/
abbrev arg0 (c : Dev nD) : S32768x256.Idx → EReal := m ((c : Thread nD τ).loc main_arg0)
abbrev arg1 (c : Dev nD) : S2048x16.Idx → BitVec 32 := m ((c : Thread nD τ).loc main_arg1)

/-- The batch and the weights read out of them. -/
abbrev eOf (c : Dev nD) : Fin 2048 → Nbr.Cands := Nbr.embOf (arg0 m c)
abbrev wOf (c : Dev nD) : Fin 2048 → Fin 16 → EReal := Nbr.wOf (arg1 m c)

set_option maxHeartbeats 4000000 in
theorem V_batch (c : Dev nD) : (V m c main_v1 : S2054x16x256.Idx → EReal)
    = pad S2054x16x256 ![3, 0, 0] ![3, 0, 0] ![0, 0, 0] (shapeCast S2048x16x256 (arg0 m c) shapeCasts_S32768x256_S2048x16x256)
        (sitofp (F := Ideal) .f32 (constantI S_ 32 0#32)) pads_S2048x16x256_S2054x16x256_330_000_000 h_S_ := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  simp only [TRef.ofBuf, TRef.toBuf, cast_eq]
  rfl

set_option maxHeartbeats 4000000 in
theorem V_cl1 (c : Dev nD) : (V m c main_v4 : S2048x16.Idx → EReal) = (pad S2048x16 ![1, 0] ![0, 0] ![0, 0] (extractStridedSlice S2047x16 ![0, 0] (sitofp (F := Ideal) .f32 (arg1 m c)) slices_S2048x16_S2047x16_0_0) (sitofp (F := Ideal) .f32 (constantI S_ 32 0#32)) pads_S2047x16_S2048x16_100_000 h_S_) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  simp only [TRef.ofBuf, TRef.toBuf, cast_eq]

set_option maxHeartbeats 4000000 in
theorem V_cl2 (c : Dev nD) : (V m c main_v9 : S2048x16.Idx → EReal) = mulf (pad S2048x16 ![1, 0] ![0, 0] ![0, 0] (extractStridedSlice S2047x16 ![0, 0] (sitofp (F := Ideal) .f32 (arg1 m c)) slices_S2048x16_S2047x16_0_0) (sitofp (F := Ideal) .f32 (constantI S_ 32 0#32)) pads_S2047x16_S2048x16_100_000 h_S_) (pad S2048x16 ![2, 0] ![0, 0] ![0, 0] (extractStridedSlice S2046x16 ![0, 0] (sitofp (F := Ideal) .f32 (arg1 m c)) slices_S2048x16_S2046x16_0_0) (sitofp (F := Ideal) .f32 (constantI S_ 32 0#32)) pads_S2046x16_S2048x16_200_000 h_S_) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  simp only [TRef.ofBuf, TRef.toBuf, cast_eq]

set_option maxHeartbeats 4000000 in
theorem V_cl3 (c : Dev nD) : (V m c main_v11 : S2048x16.Idx → EReal) = mulf (mulf (pad S2048x16 ![1, 0] ![0, 0] ![0, 0] (extractStridedSlice S2047x16 ![0, 0] (sitofp (F := Ideal) .f32 (arg1 m c)) slices_S2048x16_S2047x16_0_0) (sitofp (F := Ideal) .f32 (constantI S_ 32 0#32)) pads_S2047x16_S2048x16_100_000 h_S_) (pad S2048x16 ![2, 0] ![0, 0] ![0, 0] (extractStridedSlice S2046x16 ![0, 0] (sitofp (F := Ideal) .f32 (arg1 m c)) slices_S2048x16_S2046x16_0_0) (sitofp (F := Ideal) .f32 (constantI S_ 32 0#32)) pads_S2046x16_S2048x16_200_000 h_S_)) (pad S2048x16 ![3, 0] ![0, 0] ![0, 0] (extractStridedSlice S2045x16 ![0, 0] (sitofp (F := Ideal) .f32 (arg1 m c)) slices_S2048x16_S2045x16_0_0) (sitofp (F := Ideal) .f32 (constantI S_ 32 0#32)) pads_S2045x16_S2048x16_300_000 h_S_) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  simp only [TRef.ofBuf, TRef.toBuf, cast_eq]

set_option maxHeartbeats 4000000 in
theorem V_cr1 (c : Dev nD) : (V m c main_v2 : S2048x16.Idx → EReal) = (sitofp (F := Ideal) .f32 (arg1 m c)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp

set_option maxHeartbeats 4000000 in
theorem V_cr2 (c : Dev nD) : (V m c main_v16 : S2048x16.Idx → EReal) = mulf (sitofp (F := Ideal) .f32 (arg1 m c)) (pad S2048x16 ![0, 0] ![1, 0] ![0, 0] (extractStridedSlice S2047x16 ![1, 0] (sitofp (F := Ideal) .f32 (arg1 m c)) slices_S2048x16_S2047x16_1_0) (sitofp (F := Ideal) .f32 (constantI S_ 32 0#32)) pads_S2047x16_S2048x16_010_000 h_S_) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  simp only [TRef.ofBuf, TRef.toBuf, cast_eq]

set_option maxHeartbeats 4000000 in
theorem V_cr3 (c : Dev nD) : (V m c main_v18 : S2048x16.Idx → EReal) = mulf (mulf (sitofp (F := Ideal) .f32 (arg1 m c)) (pad S2048x16 ![0, 0] ![1, 0] ![0, 0] (extractStridedSlice S2047x16 ![1, 0] (sitofp (F := Ideal) .f32 (arg1 m c)) slices_S2048x16_S2047x16_1_0) (sitofp (F := Ideal) .f32 (constantI S_ 32 0#32)) pads_S2047x16_S2048x16_010_000 h_S_)) (pad S2048x16 ![0, 0] ![2, 0] ![0, 0] (extractStridedSlice S2046x16 ![2, 0] (sitofp (F := Ideal) .f32 (arg1 m c)) slices_S2048x16_S2046x16_2_0) (sitofp (F := Ideal) .f32 (constantI S_ 32 0#32)) pads_S2046x16_S2048x16_020_000 h_S_) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  simp only [TRef.ofBuf, TRef.toBuf, cast_eq]

/-! ## … read at an index -/

/-- The converted weights at `(q, c)`. -/
theorem W_apply (c : Dev nD) (q : Fin 2048) (cc : Fin 16) : (sitofp (F := Ideal) .f32 (arg1 m c)) (ix2 q cc) = wOf m c q cc := rfl

/-- The weight of the mention `k` places before `b` (zero before the first mention) is the padded weight at `b + 3 - k`. -/
theorem down_eq (c : Dev nD) (k : Nat) (hk : k ≤ 3) (b : Fin 2048) (cc : Fin 16) (hu : 0 < S_.numel) :
    (if h : k ≤ b.val then (sitofp (F := Ideal) .f32 (arg1 m c)) (ix2 (⟨b.val - k, by have := b.isLt; omega⟩ : Fin 2048) cc) else (sitofp (F := Ideal) .f32 (constantI S_ 32 0#32)) (Shape.Idx.first hu))
      = Nbr.padW (wOf m c) (b.val + 3 - k) cc := by
  have hb := b.isLt
  by_cases h : k ≤ b.val
  · rw [dif_pos h, W_apply]
    exact (padW_inside _ _ ⟨b.val - k, by omega⟩ (by show b.val + 3 - k = b.val - k + 3; omega) cc).symm
  · rw [dif_neg h, padValue]
    exact (padW_outside _ _ (Or.inl (by omega)) cc).symm

/-- The weight of the mention `k` places after `b` (zero after the last mention) is the padded weight at `b + 3 + k`. -/
theorem up_eq (c : Dev nD) (k : Nat) (b : Fin 2048) (cc : Fin 16) (hu : 0 < S_.numel) :
    (if h : b.val + k < 2048 then (sitofp (F := Ideal) .f32 (arg1 m c)) (ix2 (⟨b.val + k, h⟩ : Fin 2048) cc) else (sitofp (F := Ideal) .f32 (constantI S_ 32 0#32)) (Shape.Idx.first hu))
      = Nbr.padW (wOf m c) (b.val + 3 + k) cc := by
  have hb := b.isLt
  by_cases h : b.val + k < 2048
  · rw [dif_pos h, W_apply]
    exact (padW_inside _ _ ⟨b.val + k, h⟩ (by show b.val + 3 + k = b.val + k + 3; omega) cc).symm
  · rw [dif_neg h, padValue]
    exact (padW_outside _ _ (Or.inr (by omega)) cc).symm

theorem D1_apply (c : Dev nD) (b : Fin 2048) (cc : Fin 16) : (pad S2048x16 ![1, 0] ![0, 0] ![0, 0] (extractStridedSlice S2047x16 ![0, 0] (sitofp (F := Ideal) .f32 (arg1 m c)) slices_S2048x16_S2047x16_0_0) (sitofp (F := Ideal) .f32 (constantI S_ 32 0#32)) pads_S2047x16_S2048x16_100_000 h_S_) (ix2 b cc) = Nbr.padW (wOf m c) (b.val + 2) cc :=
  (shiftDown_apply 1 rfl _ _ _ _ h_S_ b cc).trans (down_eq m c 1 (by decide) b cc h_S_)
theorem D2_apply (c : Dev nD) (b : Fin 2048) (cc : Fin 16) : (pad S2048x16 ![2, 0] ![0, 0] ![0, 0] (extractStridedSlice S2046x16 ![0, 0] (sitofp (F := Ideal) .f32 (arg1 m c)) slices_S2048x16_S2046x16_0_0) (sitofp (F := Ideal) .f32 (constantI S_ 32 0#32)) pads_S2046x16_S2048x16_200_000 h_S_) (ix2 b cc) = Nbr.padW (wOf m c) (b.val + 1) cc :=
  (shiftDown_apply 2 rfl _ _ _ _ h_S_ b cc).trans (down_eq m c 2 (by decide) b cc h_S_)
theorem D3_apply (c : Dev nD) (b : Fin 2048) (cc : Fin 16) : (pad S2048x16 ![3, 0] ![0, 0] ![0, 0] (extractStridedSlice S2045x16 ![0, 0] (sitofp (F := Ideal) .f32 (arg1 m c)) slices_S2048x16_S2045x16_0_0) (sitofp (F := Ideal) .f32 (constantI S_ 32 0#32)) pads_S2045x16_S2048x16_300_000 h_S_) (ix2 b cc) = Nbr.padW (wOf m c) b.val cc :=
  (shiftDown_apply 3 rfl _ _ _ _ h_S_ b cc).trans (down_eq m c 3 (by decide) b cc h_S_)
theorem U0_apply (c : Dev nD) (b : Fin 2048) (cc : Fin 16) : (sitofp (F := Ideal) .f32 (arg1 m c)) (ix2 b cc) = Nbr.padW (wOf m c) (b.val + 3) cc :=
  (W_apply m c b cc).trans (padW_inside _ _ b rfl cc).symm
theorem U1_apply (c : Dev nD) (b : Fin 2048) (cc : Fin 16) : (pad S2048x16 ![0, 0] ![1, 0] ![0, 0] (extractStridedSlice S2047x16 ![1, 0] (sitofp (F := Ideal) .f32 (arg1 m c)) slices_S2048x16_S2047x16_1_0) (sitofp (F := Ideal) .f32 (constantI S_ 32 0#32)) pads_S2047x16_S2048x16_010_000 h_S_) (ix2 b cc) = Nbr.padW (wOf m c) (b.val + 4) cc :=
  (shiftUp_apply 1 rfl _ _ _ _ h_S_ b cc).trans (up_eq m c 1 b cc h_S_)
theorem U2_apply (c : Dev nD) (b : Fin 2048) (cc : Fin 16) : (pad S2048x16 ![0, 0] ![2, 0] ![0, 0] (extractStridedSlice S2046x16 ![2, 0] (sitofp (F := Ideal) .f32 (arg1 m c)) slices_S2048x16_S2046x16_2_0) (sitofp (F := Ideal) .f32 (constantI S_ 32 0#32)) pads_S2046x16_S2048x16_020_000 h_S_) (ix2 b cc) = Nbr.padW (wOf m c) (b.val + 5) cc :=
  (shiftUp_apply 2 rfl _ _ _ _ h_S_ b cc).trans (up_eq m c 2 b cc h_S_)

/-- The six blocks of cumulative weights at mention `b`, candidate `cc`. -/
theorem V_cl1_apply (c : Dev nD) (b : Fin 2048) (cc : Fin 16) :
    (V m c main_v4 : S2048x16.Idx → EReal) (ix2 b cc) = Nbr.padW (wOf m c) (b.val + 2) cc := by
  rw [V_cl1]; exact D1_apply m c b cc
theorem V_cl2_apply (c : Dev nD) (b : Fin 2048) (cc : Fin 16) :
    (V m c main_v9 : S2048x16.Idx → EReal) (ix2 b cc) = Nbr.padW (wOf m c) (b.val + 2) cc * Nbr.padW (wOf m c) (b.val + 1) cc := by
  rw [V_cl2]; show _ * _ = _; rw [D1_apply, D2_apply]
theorem V_cl3_apply (c : Dev nD) (b : Fin 2048) (cc : Fin 16) :
    (V m c main_v11 : S2048x16.Idx → EReal) (ix2 b cc)
      = Nbr.padW (wOf m c) (b.val + 2) cc * Nbr.padW (wOf m c) (b.val + 1) cc * Nbr.padW (wOf m c) b.val cc := by
  rw [V_cl3]; show _ * _ * _ = _; rw [D1_apply, D2_apply, D3_apply]
theorem V_cr1_apply (c : Dev nD) (b : Fin 2048) (cc : Fin 16) :
    (V m c main_v2 : S2048x16.Idx → EReal) (ix2 b cc) = Nbr.padW (wOf m c) (b.val + 3) cc := by
  rw [V_cr1]; exact U0_apply m c b cc
theorem V_cr2_apply (c : Dev nD) (b : Fin 2048) (cc : Fin 16) :
    (V m c main_v16 : S2048x16.Idx → EReal) (ix2 b cc) = Nbr.padW (wOf m c) (b.val + 3) cc * Nbr.padW (wOf m c) (b.val + 4) cc := by
  rw [V_cr2]; show _ * _ = _; rw [U0_apply, U1_apply]
theorem V_cr3_apply (c : Dev nD) (b : Fin 2048) (cc : Fin 16) :
    (V m c main_v18 : S2048x16.Idx → EReal) (ix2 b cc)
      = Nbr.padW (wOf m c) (b.val + 3) cc * Nbr.padW (wOf m c) (b.val + 4) cc * Nbr.padW (wOf m c) (b.val + 5) cc := by
  rw [V_cr3]; show _ * _ * _ = _; rw [U0_apply, U1_apply, U2_apply]

set_option maxHeartbeats 1000000 in
/-- The padded batch at padded position `p`, candidate `cc`, feature `d`. -/
theorem V_batch_apply (c : Dev nD) (p : Fin 2054) (cc : Fin 16) (d : Fin 256) :
    (V m c main_v1 : S2054x16x256.Idx → EReal) (ix3 p cc d) = Nbr.padE (eOf m c) p.val cc d := by
  have hp := p.isLt
  rw [V_batch]
  by_cases h : 3 ≤ p.val ∧ p.val < 2051
  · refine (pad_apply_of_inside _ _ _ _ _ pads_S2048x16x256_S2054x16x256_330_000_000 h_S_ (ix3 p cc d)
      (ix3 (⟨p.val - 3, by omega⟩ : Fin 2048) cc d) (fun a => ?_)).trans ?_
    · match a with
      | ⟨0, _⟩ => show p.val = 3 + (p.val - 3) * (0 + 1); omega
      | ⟨1, _⟩ => show cc.val = 0 + cc.val * (0 + 1); omega
      | ⟨2, _⟩ => show d.val = 0 + d.val * (0 + 1); omega
    · have hq : p.val - 3 < 2048 := by omega
      have hr : (p.val - 3) * 16 + cc.val < 32768 := by have := cc.isLt; omega
      refine (Cert.Layout3.shapeCast_rows_split_apply (arg0 m c) shapeCasts_S32768x256_S2048x16x256
        (⟨p.val - 3, hq⟩ : Fin 2048) cc d (⟨(p.val - 3) * 16 + cc.val, hr⟩ : Fin 32768) (Eq.refl _)).trans ?_
      exact (padE_inside (eOf m c) p.val ⟨p.val - 3, hq⟩ (by show p.val = p.val - 3 + 3; omega) cc d).symm
  · refine (pad_apply_of_not_inside _ _ _ _ _ pads_S2048x16x256_S2054x16x256_330_000_000 h_S_ (ix3 p cc d) (0 : Fin 3) fun hin => h ?_).trans ?_
    · have h1 : 3 ≤ p.val := hin.1
      have h3 : (p.val - 3) / (0 + 1) < 2048 := hin.2.2
      simp only [Nat.zero_add, Nat.div_one] at h3
      exact ⟨h1, by omega⟩
    · rw [padValue]
      exact (padE_outside (eOf m c) p.val (by omega) cc d).symm

end Cert.KernelIdeal.Host

end
-- ==== Proof.KArray.lean ====
/-
  From the grid steps' stored blocks to the whole result array.

  Grid step `t` works on mentions `16 t … 16 t + 15`.  Its input blocks are read off the arrays the launch finds:
  the padded batch whole, and rows `16 t …` of each block of cumulative weights; its seven loaded windows are rows
  `16 t + 3 + k` (`k = -3 … 3`) of the padded batch.  So the block it stores holds, at `(bb, i, col)`,
  `Nbr.result` at mention `16 t + bb`.  The blocks tile the `[2048, 16, 353]` array, which the host then lays out as
  `[32768, 353]`: `Nbr.outArr`.
-/
import proofs.«404893_j46205258170686_1_alg».proof.Proof.Gen.KernelIdeal.Frame
import proofs.«404893_j46205258170686_1_alg».proof.Proof.Spec
import proofs.«404893_j46205258170686_1_alg».proof.Proof.LibLayout3
import proofs.«404893_j46205258170686_1_alg».proof.Proof.KStored
import proofs.«404893_j46205258170686_1_alg».proof.Proof.KPiece
import proofs.«404893_j46205258170686_1_alg».proof.Proof.KBody
import proofs.«404893_j46205258170686_1_alg».proof.Proof.KHost
import Idealize.ShloMosaic.Lib.StableHlo.Run
import Idealize.ShloMosaic.Lib.Pipeline.Value
import Idealize.ShloMosaic.Lib.ValueIdx

set_option maxRecDepth 16384

noncomputable section

namespace Cert.KernelIdeal.Arr

open Idealize.ShloMosaic Idealize.ShloMosaic.TcCoe Idealize.ShloMosaic.StableHlo Idealize.ShloMosaic.ValueIdx
open Idealize.SL Idealize.SL.Sem
open Idealize.ShloMosaic.Pipeline (Dat)
open Cert.KernelIdeal Cert.KernelIdeal.Gen Cert.KernelIdeal.Body Cert.KernelIdeal.Host

variable (m : (ℓ : Loc nD τ sig) → Buf (Elt Ideal) ℓ) (ρ : Dev nD → PrngReg)

/-! ## The index maps over the grid -/

/-- Step `t`'s coordinate is `t`; the padded batch's one block is the whole array; the weight blocks and the output
    block of step `t` are block `t` along the mentions. -/
theorem index_facts : ∀ t : Fin cfg0.N,
    (grid0.coords t 0).val = t.val
    ∧ (∀ a : Fin 3, win0_0.index t a = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0 ∧ win0_7.index t 2 = 0) :=
  (by decide +kernel : ∀ t : Fin grid0.N, _)

/-! ## The input blocks, read off the arrays -/

/-- The padded batch's block is the whole padded batch, at every step. -/
theorem iblk0_apply (c : Dev nD) (t : Fin cfg0.N) (y : S2054x16x256.Idx) :
    (iblk m c 0 t : Vec Ideal S2054x16x256 .f32) y = (V m c main_v1 : S2054x16x256.Idx → EReal) y := by
  obtain ⟨-, h0, -⟩ := index_facts t
  unfold iblk
  rw [View.read_apply]
  show V m c main_v1 _ = V m c main_v1 _
  congr 1
  funext a
  apply Fin.ext
  match a with
  | ⟨0, _⟩ => show win0_0.index t 0 * 2054 + 1 * (y 0).val = (y 0).val; rw [h0 0]; omega
  | ⟨1, _⟩ => show win0_0.index t 1 * 16 + 1 * (y 1).val = (y 1).val; rw [h0 1]; omega
  | ⟨2, _⟩ => show win0_0.index t 2 * 256 + 1 * (y 2).val = (y 2).val; rw [h0 2]; omega

theorem iblk1_apply (c : Dev nD) (t : Fin cfg0.N) (bb cc : Fin 16) (b : Fin 2048) (hb : b.val = t.val * 16 + bb.val) :
    (iblk m c 1 t : Vec Ideal S16x16 .f32) (ix2 bb cc) = (V m c main_v4 : S2048x16.Idx → EReal) (ix2 b cc) := by
  obtain ⟨-, -, h1, h2, h3, h4, h5, h6, -⟩ := index_facts t
  unfold iblk
  rw [View.read_apply]
  show V m c main_v4 _ = V m c main_v4 _
  congr 1
  funext a
  apply Fin.ext
  match a with
  | ⟨0, _⟩ => show win0_1.index t 0 * 16 + 1 * bb.val = b.val; rw [h1.1, hb]; omega
  | ⟨1, _⟩ => show win0_1.index t 1 * 16 + 1 * cc.val = cc.val; rw [h1.2]; omega

theorem iblk2_apply (c : Dev nD) (t : Fin cfg0.N) (bb cc : Fin 16) (b : Fin 2048) (hb : b.val = t.val * 16 + bb.val) :
    (iblk m c 2 t : Vec Ideal S16x16 .f32) (ix2 bb cc) = (V m c main_v9 : S2048x16.Idx → EReal) (ix2 b cc) := by
  obtain ⟨-, -, h1, h2, h3, h4, h5, h6, -⟩ := index_facts t
  unfold iblk
  rw [View.read_apply]
  show V m c main_v9 _ = V m c main_v9 _
  congr 1
  funext a
  apply Fin.ext
  match a with
  | ⟨0, _⟩ => show win0_2.index t 0 * 16 + 1 * bb.val = b.val; rw [h2.1, hb]; omega
  | ⟨1, _⟩ => show win0_2.index t 1 * 16 + 1 * cc.val = cc.val; rw [h2.2]; omega

theorem iblk3_apply (c : Dev nD) (t : Fin cfg0.N) (bb cc : Fin 16) (b : Fin 2048) (hb : b.val = t.val * 16 + bb.val) :
    (iblk m c 3 t : Vec Ideal S16x16 .f32) (ix2 bb cc) = (V m c main_v11 : S2048x16.Idx → EReal) (ix2 b cc) := by
  obtain ⟨-, -, h1, h2, h3, h4, h5, h6, -⟩ := index_facts t
  unfold iblk
  rw [View.read_apply]
  show V m c main_v11 _ = V m c main_v11 _
  congr 1
  funext a
  apply Fin.ext
  match a with
  | ⟨0, _⟩ => show win0_3.index t 0 * 16 + 1 * bb.val = b.val; rw [h3.1, hb]; omega
  | ⟨1, _⟩ => show win0_3.index t 1 * 16 + 1 * cc.val = cc.val; rw [h3.2]; omega

theorem iblk4_apply (c : Dev nD) (t : Fin cfg0.N) (bb cc : Fin 16) (b : Fin 2048) (hb : b.val = t.val * 16 + bb.val) :
    (iblk m c 4 t : Vec Ideal S16x16 .f32) (ix2 bb cc) = (V m c main_v2 : S2048x16.Idx → EReal) (ix2 b cc) := by
  obtain ⟨-, -, h1, h2, h3, h4, h5, h6, -⟩ := index_facts t
  unfold iblk
  rw [View.read_apply]
  show V m c main_v2 _ = V m c main_v2 _
  congr 1
  funext a
  apply Fin.ext
  match a with
  | ⟨0, _⟩ => show win0_4.index t 0 * 16 + 1 * bb.val = b.val; rw [h4.1, hb]; omega
  | ⟨1, _⟩ => show win0_4.index t 1 * 16 + 1 * cc.val = cc.val; rw [h4.2]; omega

theorem iblk5_apply (c : Dev nD) (t : Fin cfg0.N) (bb cc : Fin 16) (b : Fin 2048) (hb : b.val = t.val * 16 + bb.val) :
    (iblk m c 5 t : Vec Ideal S16x16 .f32) (ix2 bb cc) = (V m c main_v16 : S2048x16.Idx → EReal) (ix2 b cc) := by
  obtain ⟨-, -, h1, h2, h3, h4, h5, h6, -⟩ := index_facts t
  unfold iblk
  rw [View.read_apply]
  show V m c main_v16 _ = V m c main_v16 _
  congr 1
  funext a
  apply Fin.ext
  match a with
  | ⟨0, _⟩ => show win0_5.index t 0 * 16 + 1 * bb.val = b.val; rw [h5.1, hb]; omega
  | ⟨1, _⟩ => show win0_5.index t 1 * 16 + 1 * cc.val = cc.val; rw [h5.2]; omega

theorem iblk6_apply (c : Dev nD) (t : Fin cfg0.N) (bb cc : Fin 16) (b : Fin 2048) (hb : b.val = t.val * 16 + bb.val) :
    (iblk m c 6 t : Vec Ideal S16x16 .f32) (ix2 bb cc) = (V m c main_v18 : S2048x16.Idx → EReal) (ix2 b cc) := by
  obtain ⟨-, -, h1, h2, h3, h4, h5, h6, -⟩ := index_facts t
  unfold iblk
  rw [View.read_apply]
  show V m c main_v18 _ = V m c main_v18 _
  congr 1
  funext a
  apply Fin.ext
  match a with
  | ⟨0, _⟩ => show win0_6.index t 0 * 16 + 1 * bb.val = b.val; rw [h6.1, hb]; omega
  | ⟨1, _⟩ => show win0_6.index t 1 * 16 + 1 * cc.val = cc.val; rw [h6.2]; omega

/-! ## A step's loaded windows -/

/-- A window of 16 mentions loaded at offsets `(o, 0, 0)` reads, at `(bb, cc, d)`, the array at `(o + bb, cc, d)`. -/
theorem win_apply (X : Vec Ideal S2054x16x256 .f32) (off : Fin 3 → Nat)
    (inb : ∀ a, off a + S16x16x256.size a ≤ S2054x16x256.size a) (o : Nat) (hoff : off = ![o, 0, 0])
    (bb cc : Fin 16) (d : Fin 256) (p : Fin 2054) (hp : p.val = o + bb.val) :
    Body.win X off inb (ix3 bb cc d) = X (ix3 p cc d) := by
  subst hoff
  show X ((Rect.unit (s := S2054x16x256) ![o, 0, 0] S16x16x256.size inb).idx (ix3 bb cc d)) = X (ix3 p cc d)
  congr 1
  funext a
  apply Fin.ext
  match a with
  | ⟨0, _⟩ => show o + 1 * bb.val = p.val; omega
  | ⟨1, _⟩ => show 0 + 1 * cc.val = cc.val; omega
  | ⟨2, _⟩ => show 0 + 1 * d.val = d.val; omega

/-- The window loaded `k - 3` mentions from the step's own (`k = 0 … 6`; the step's own is `k = 3`), at mention
    `bb` of step `t`: the padded batch at position `16 t + bb + k`. -/
theorem win_pad (c : Dev nD) (t : Fin cfg0.N) (off : Fin 3 → Nat)
    (inb : ∀ a, off a + S16x16x256.size a ≤ S2054x16x256.size a) (k : Nat) (hk : k ≤ 6)
    (hoff : off = ![t.val * 16 + k, 0, 0]) (bb cc : Fin 16) (d : Fin 256) :
    Body.win (iblk m c 0 t : Vec Ideal S2054x16x256 .f32) off inb (ix3 bb cc d)
      = Nbr.padE (eOf m c) (t.val * 16 + bb.val + k) cc d := by
  have ht : t.val < 128 := t.isLt
  have hbb := bb.isLt
  rw [win_apply _ off inb (t.val * 16 + k) hoff bb cc d ⟨t.val * 16 + bb.val + k, by omega⟩
      (by show t.val * 16 + bb.val + k = t.val * 16 + k + bb.val; omega),
    iblk0_apply, V_batch_apply]

/-! ## The offsets of a step's seven loads -/

theorem off_cur (t : Fin cfg0.N) : k0_off1 (grid0.coords t) = ![t.val * 16 + 3, 0, 0] := by
  obtain ⟨hc, -⟩ := index_facts t
  rw [k0_off1_eq, hc, Nat.mul_comm 16 t.val]

theorem off_before (t : Fin cfg0.N) (r : Fin 3) :
    k0_off2 (grid0.coords t) (BitVec.ofNat 32 (1 + r.val)) = ![t.val * 16 + (2 - r.val), 0, 0] := by
  obtain ⟨hc, -⟩ := index_facts t
  have hr := r.isLt
  rw [k0_off2_eq, hc]
  exact congrArg (fun x : Nat => (![x, 0, 0] : Fin 3 → Nat)) (by omega)

theorem off_after (t : Fin cfg0.N) (r : Fin 3) :
    k0_off3 (grid0.coords t) (BitVec.ofNat 32 (1 + r.val)) = ![t.val * 16 + (4 + r.val), 0, 0] := by
  obtain ⟨hc, -⟩ := index_facts t
  rw [k0_off3_eq, hc]
  exact congrArg (fun x : Nat => (![x, 0, 0] : Fin 3 → Nat)) (by omega)

/-! ## The block a step stores, at an entry -/

/-- Step `t`'s stored block at `(bb, i, col)` is the result at mention `b = 16 t + bb`, candidate `i`, column `col`. -/
theorem outs_apply (c : Dev nD) (t : Fin cfg0.N) (bb i : Fin 16) (col : Fin 353) (b : Fin 2048)
    (hb : b.val = t.val * 16 + bb.val) :
    (outsAt0 m c t : Vec Ideal S16x16x353 .f32) (ix3 bb i col) = Nbr.result (eOf m c) (wOf m c) b i col := by
  unfold outsAt0
  rw [out_eq_stored, stored_apply]
  unfold Nbr.result
  congr 1
  · funext cc d
    rw [win_pad m c t _ _ 3 (by decide) (off_cur t) bb cc d, ← hb]
    exact padE_inside _ _ b rfl cc d
  · funext k cc d
    match k with
    | 0 =>
      show Body.win _ _ _ (ix3 bb cc d) * (iblk m c 1 t : Vec Ideal S16x16 .f32) (ix2 bb cc) = _
      rw [win_pad m c t _ _ 2 (by decide) (show k0_off2 (grid0.coords t) 1#32 = ![t.val * 16 + 2, 0, 0] from off_before t 0) bb cc d, iblk1_apply m c t bb cc b hb, V_cl1_apply, ← hb]
      rfl
    | 1 =>
      show Body.win _ _ _ (ix3 bb cc d) * (iblk m c 2 t : Vec Ideal S16x16 .f32) (ix2 bb cc) = _
      rw [win_pad m c t _ _ 1 (by decide) (show k0_off2 (grid0.coords t) 2#32 = ![t.val * 16 + 1, 0, 0] from off_before t 1) bb cc d, iblk2_apply m c t bb cc b hb, V_cl2_apply, ← hb]
      rfl
    | 2 =>
      show Body.win _ _ _ (ix3 bb cc d) * (iblk m c 3 t : Vec Ideal S16x16 .f32) (ix2 bb cc) = _
      rw [win_pad m c t _ _ 0 (by decide) (show k0_off2 (grid0.coords t) 3#32 = ![t.val * 16 + 0, 0, 0] from off_before t 2) bb cc d, iblk3_apply m c t bb cc b hb, V_cl3_apply, ← hb]
      rfl
    | 3 =>
      show Body.win _ _ _ (ix3 bb cc d) * (iblk m c 4 t : Vec Ideal S16x16 .f32) (ix2 bb cc) = _
      rw [win_pad m c t _ _ 4 (by decide) (show k0_off3 (grid0.coords t) 1#32 = ![t.val * 16 + 4, 0, 0] from off_after t 0) bb cc d, iblk4_apply m c t bb cc b hb, V_cr1_apply, ← hb]
      rfl
    | 4 =>
      show Body.win _ _ _ (ix3 bb cc d) * (iblk m c 5 t : Vec Ideal S16x16 .f32) (ix2 bb cc) = _
      rw [win_pad m c t _ _ 5 (by decide) (show k0_off3 (grid0.coords t) 2#32 = ![t.val * 16 + 5, 0, 0] from off_after t 1) bb cc d, iblk5_apply m c t bb cc b hb, V_cr2_apply, ← hb]
      rfl
    | 5 =>
      show Body.win _ _ _ (ix3 bb cc d) * (iblk m c 6 t : Vec Ideal S16x16 .f32) (ix2 bb cc) = _
      rw [win_pad m c t _ _ 6 (by decide) (show k0_off3 (grid0.coords t) 3#32 = ![t.val * 16 + 6, 0, 0] from off_after t 2) bb cc d, iblk6_apply m c t bb cc b hb, V_cr3_apply, ← hb]
      rfl

/-! ## The write-backs tile the result -/

/-- The result as the `[2048, 16, 353]` array the launch writes. -/
def out3 (c : Dev nD) : S2048x16x353.Idx → EReal := fun idx =>
  Nbr.result (eOf m c) (wOf m c) ⟨(idx 0).val, (idx 0).isLt⟩ ⟨(idx 1).val, (idx 1).isLt⟩ ⟨(idx 2).val, (idx 2).isLt⟩

theorem stored_at (c : Dev nD) (t : Fin cfg0.N) (j : S16x16x353.Idx) :
    (outsAt0 m c t : Vec Ideal S16x16x353 .f32) j
      = out3 m c (ix3 (⟨t.val * 16 + (j 0).val, by have ht : t.val < 128 := t.isLt; have hj : (j 0).val < 16 := (j 0).isLt; omega⟩ : Fin 2048)
          (⟨(j 1).val, (j 1).isLt⟩ : Fin 16) (⟨(j 2).val, (j 2).isLt⟩ : Fin 353)) := by
  obtain ⟨bb, i, col, rfl⟩ : ∃ (bb i : Fin 16) (col : Fin 353), j = ix3 bb i col := ⟨j 0, j 1, j 2, eq_ix3 j⟩
  exact outs_apply m c t bb i col ⟨t.val * 16 + bb.val, by have ht : t.val < 128 := t.isLt; have := bb.isLt; omega⟩ rfl

/-- What step `t` writes back is block `t` of the result. -/
theorem flushed_eq (c : Dev nD) (t : Fin cfg0.N) :
    (dats m 0 c).flushed 7 t = ((cfg0.win 7).blk t).view.read (Elt Ideal) (out3 m c) := by
  obtain ⟨-, -, -, -, -, -, -, -, h7⟩ := index_facts t
  show (cfg0.win 7).cut (grid0.coords t) ((dats m 0 c).after 7 t) = _
  rw [after0_7]
  funext j
  show (outsAt0 m c t : Vec Ideal S16x16x353 .f32) j = out3 m c (((cfg0.win 7).blk t).view.emb j)
  rw [stored_at]
  congr 1
  funext a
  apply Fin.ext
  match a with
  | ⟨0, _⟩ => show t.val * 16 + (j 0).val = win0_7.index t 0 * 16 + 1 * (j 0).val; rw [h7.1]; omega
  | ⟨1, _⟩ => show (j 1).val = win0_7.index t 1 * 16 + 1 * (j 1).val; rw [h7.2.1]; omega
  | ⟨2, _⟩ => show (j 2).val = win0_7.index t 2 * 353 + 1 * (j 2).val; rw [h7.2.2]; omega

/-- Every entry of the result lies in the block of the step that owns its mention. -/
theorem cover (i : S2048x16x353.Idx) :
    ∃ t : Fin cfg0.N, (cfg0.win 7).flush t = true ∧ i ∈ ((cfg0.win 7).blk t).view.set := by
  have h0 : (i 0).val < 2048 := (i 0).isLt
  have h1 : (i 1).val < 16 := (i 1).isLt
  have h2 : (i 2).val < 353 := (i 2).isLt
  have hN : cfg0.N = 128 := N_0
  let t : Fin cfg0.N := ⟨(i 0).val / 16, by rw [hN]; omega⟩
  obtain ⟨-, -, -, -, -, -, -, -, h7⟩ := index_facts t
  have ht : t.val = (i 0).val / 16 := rfl
  refine ⟨t, flush0_7 t, ?_⟩
  show i ∈ ((View.whole main_v19).slice (win0_7.rect t)).set
  rw [View.set_slice_whole, Rect.mem_set_unit]
  intro a
  match a with
  | ⟨0, _⟩ =>
    show win0_7.index t 0 * 16 ≤ (i 0).val ∧ (i 0).val < win0_7.index t 0 * 16 + 16
    rw [h7.1, ht]; omega
  | ⟨1, _⟩ =>
    show win0_7.index t 1 * 16 ≤ (i 1).val ∧ (i 1).val < win0_7.index t 1 * 16 + 16
    rw [h7.2.1]; omega
  | ⟨2, _⟩ =>
    show win0_7.index t 2 * 353 ≤ (i 2).val ∧ (i 2).val < win0_7.index t 2 * 353 + 353
    rw [h7.2.2]; omega

/-- So the launch's result array ends holding the result. -/
theorem final_out3 (c : Dev nD) : (dats m 0 c).arrAt 7 cfg0.N = out3 m c :=
  (dats m 0 c).arrAt_eq_of_cover 7 (out3 m c) (fun t _ => flushed_eq m c t) (cover)

/-! ## The host's last line and the run -/

/-- The host's last line lays the launch's `[2048, 16, 353]` array out as `[32768, 353]`: the result array. -/
theorem tail_eq (c : Dev nD) :
    (Pipeline.afterTail₀ cfgs (dats m) 0 (V0 m) [hostOps1] c main_v20 : S32768x353.Idx → EReal)
      = Nbr.outArr (arg0 m c) (arg1 m c) := by
  have hA : Pipeline.withArrays (cfgs 0).spec c (V0 m c) (fun w => (dats m 0 c).arrAt w (cfgs 0).N) (Proc.devRef .tc main_v19)
      = out3 m c :=
    (Pipeline.withArrays_arr spec0 launch0.win.arr_inj c _ _ 7).trans (final_out3 m c)
  unfold Pipeline.afterTail₀
  show StableHlo.after hostOps1 _ (Proc.devRef .tc main_v20) = _
  after_results
  funext idx
  show shapeCast S32768x353 (Pipeline.withArrays (cfgs 0).spec c (V0 m c) (fun w => (dats m 0 c).arrAt w (cfgs 0).N)
      (Proc.devRef .tc main_v19)) shapeCasts_S2048x16x353_S32768x353 idx = _
  rw [hA]
  obtain ⟨r, col, rfl⟩ : ∃ (r : Fin 32768) (col : Fin 353), idx = ix2 r col := ⟨idx 0, idx 1, eq_ix2 idx⟩
  have hr : r.val < 32768 := r.isLt
  have hsplit : r.val = r.val / 16 * 16 + r.val % 16 := by omega
  rw [Cert.Layout3.shapeCast_rows_merge_apply (out3 m c) shapeCasts_S2048x16x353_S32768x353 r col
      (⟨r.val / 16, by omega⟩ : Fin 2048) (⟨r.val % 16, Nat.mod_lt _ (by decide)⟩ : Fin 16) hsplit,
    Nbr.outArr_apply _ _ (⟨r.val / 16, by omega⟩ : Fin 2048) (⟨r.val % 16, Nat.mod_lt _ (by decide)⟩ : Fin 16) col r hsplit]
  rfl

/-- The idealized kernel's run, read: its result array is the result of its arguments, which it leaves unchanged. -/
theorem kernel_run : θ_run defs (onTc (τ := τ) (main (F := Ideal))) ⟨m, fun _ => 0, ρ⟩ fun r => ∀ c : Dev nD,
      r.2.mem ((c.tc : Thread nD τ).loc main_v20)
        = Nbr.outArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v20 (Pipeline.mem_restRefs_of main_v20 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Arr

end
-- ==== Proof.RCopies.lean ====
/-
  The reference builds its six shifted masked copies of the batch by shifting the whole `[32768, 256]` array by 16
  rows (one mention) with zero fill and multiplying by the weights after every shift.  Read at row `b * 16 + c` each
  is the copy of `Nbr.copy`: the shifts compose into one read of the padded batch, the weights into the product of
  the padded weights stepped over — the reference's grouping of that product differs from `Nbr.copy`'s only by
  associativity and commutativity of the product of extended reals, and a row shifted in from outside is zero on
  both sides.
-/
import proofs.«404893_j46205258170686_1_alg».proof.Proof.RefRead
import proofs.«404893_j46205258170686_1_alg».proof.Proof.Spec
import proofs.«404893_j46205258170686_1_alg».proof.Proof.LibLayout3
import Idealize.ShloMosaic.Lib.Pipeline.Value
import Idealize.ShloMosaic.Lib.ValueIdx
import Idealize.ShloMosaic.PureOps.Ideal.Laws

noncomputable section

namespace Cert.ReferenceIdeal.Bridge

open Idealize.ShloMosaic Idealize.ShloMosaic.ValueIdx Cert.ReferenceIdeal Cert.ReferenceIdeal.Read

/-! ## The zero block, the rows of the embeddings, the two weight columns -/

/-- The zero block is zero everywhere. -/
theorem v6_zero (i : S16x256.Idx) : val_main_v6 (F := Ideal) i = (0 : EReal) := by
  rw [val_main_v6_apply, val_main_cst_0_apply]
  exact Ideal.ofBits_zero_f32

/-- The embeddings array at row `b * 16 + c`, column `d`. -/
theorem x0_row (x0 : (⟨S32768x256, .f32⟩ : BufTy).Contents (Elt Ideal)) (b : Fin 2048) (c : Fin 16) (d : Fin 256)
    (j : S32768x256.Idx) (h0 : (j 0).val = b.val * 16 + c.val) (h1 : (j 1).val = d.val) :
    x0 j = Nbr.embOf x0 b c d := by
  unfold Nbr.embOf
  refine congrArg x0 (funext fun a => ?_)
  match a with
  | ⟨0, _⟩ => exact Fin.ext h0
  | ⟨1, _⟩ => exact Fin.ext h1

/-- The padded batch inside the window: position `p` is mention `p - 3`. -/
theorem padE_in (e : Fin 2048 → Nbr.Cands) (p : Nat) (b : Fin 2048) (hp : p = b.val + 3) (c : Fin 16) (d : Fin 256) :
    Nbr.padE e p c d = e b c d := by
  subst hp
  unfold Nbr.padE
  rw [dif_pos (show 3 ≤ b.val + 3 ∧ b.val + 3 < 2051 from ⟨by omega, by have := b.isLt; omega⟩)]
  exact congrArg (fun q => e q c d) (Fin.ext (by show b.val + 3 - 3 = b.val; omega))

/-- The padded batch outside the window is zero. -/
theorem padE_out (e : Fin 2048 → Nbr.Cands) (p : Nat) (hp : p < 3 ∨ 2051 ≤ p) (c : Fin 16) (d : Fin 256) :
    Nbr.padE e p c d = 0 := by
  unfold Nbr.padE
  rw [dif_neg (show ¬ (3 ≤ p ∧ p < 2051) by omega)]

/-- The padded weights inside the window. -/
theorem padW_in (w : Fin 2048 → Fin 16 → EReal) (p : Nat) (b : Fin 2048) (hp : p = b.val + 3) (c : Fin 16) :
    Nbr.padW w p c = w b c := by
  subst hp
  unfold Nbr.padW
  rw [dif_pos (show 3 ≤ b.val + 3 ∧ b.val + 3 < 2051 from ⟨by omega, by have := b.isLt; omega⟩)]
  exact congrArg (fun q => w q c) (Fin.ext (by show b.val + 3 - 3 = b.val; omega))

/-- The padded weights outside the window are zero. -/
theorem padW_out (w : Fin 2048 → Fin 16 → EReal) (p : Nat) (hp : p < 3 ∨ 2051 ≤ p) (c : Fin 16) :
    Nbr.padW w p c = 0 := by
  unfold Nbr.padW
  rw [dif_neg (show ¬ (3 ≤ p ∧ p < 2051) by omega)]

/-- The converted weights at `(b, c)`. -/
theorem v0_read (x1 : (⟨S2048x16, .i32⟩ : BufTy).Contents (Elt Ideal)) (b : Fin 2048) (c : Fin 16)
    (j : S2048x16.Idx) (h0 : (j 0).val = b.val) (h1 : (j 1).val = c.val) :
    val_main_v0 (F := Ideal) x1 j = Nbr.wOf x1 b c := by
  rw [val_main_v0_apply]
  unfold Nbr.wOf
  refine congrArg (fun q => FloatOps.sitofp (F := Ideal) .f32 (x1 q)) (funext fun a => ?_)
  match a with
  | ⟨0, _⟩ => exact Fin.ext h0
  | ⟨1, _⟩ => exact Fin.ext h1

/-- A rank-two index with given coordinates. -/
theorem idx_eq_ix2 {n0 n1 : Nat} (j : (⟨2, ![n0, n1]⟩ : Shape).Idx) (r : Fin n0) (d : Fin n1)
    (h0 : (j 0).val = r.val) (h1 : (j 1).val = d.val) : j = ix2 r d :=
  funext fun a => match a with
    | ⟨0, _⟩ => Fin.ext h0
    | ⟨1, _⟩ => Fin.ext h1

/-- The left weights: row `b` holds the weights of mention `b - 1`, row `0` zeros. -/
theorem v3_read (x1 : (⟨S2048x16, .i32⟩ : BufTy).Contents (Elt Ideal)) (b : Fin 2048) (c : Fin 16)
    (j : S2048x16.Idx) (h0 : (j 0).val = b.val) (h1 : (j 1).val = c.val) :
    val_main_v3 (F := Ideal) x1 j = Nbr.padW (Nbr.wOf x1) (b.val + 2) c := by
  have hb := b.isLt
  unfold val_main_v3
  by_cases hz : b.val = 0
  · refine (concatenate_pair_apply_left _ _ _ Cert.ReferenceIdeal.Gen.concatenates_S1x16_S2047x16_S2048x16_d0 j rfl (ix2 (0 : Fin 1) c) (fun a => ?_)).trans ?_
    · match a with
      | ⟨0, _⟩ => show (0 : Nat) = (j 0).val; omega
      | ⟨1, _⟩ => show c.val = (j 1).val; omega
    · rw [val_main_v1_apply, val_main_cst_apply,
        padW_out _ (b.val + 2) (show b.val + 2 < 3 ∨ 2051 ≤ b.val + 2 by omega)]
      exact Ideal.ofBits_zero_f32
  · refine (concatenate_pair_apply_right _ _ _ Cert.ReferenceIdeal.Gen.concatenates_S1x16_S2047x16_S2048x16_d0 j rfl rfl
      (ix2 (⟨b.val - 1, by omega⟩ : Fin 2047) c) (fun a ha => ?_) ?_).trans ?_
    · match a with
      | ⟨0, _⟩ => exact absurd rfl ha
      | ⟨1, _⟩ => show c.val = (j 1).val; omega
    · show b.val - 1 + 1 = (j 0).val; omega
    · rw [val_main_v2_apply, padW_in _ _ (⟨b.val - 1, by omega⟩ : Fin 2048) (by show b.val + 2 = b.val - 1 + 3; omega)]
      exact v0_read x1 _ c _ rfl rfl

/-- The left weight column at row `b * 16 + c`. -/
theorem v4_read (x1 : (⟨S2048x16, .i32⟩ : BufTy).Contents (Elt Ideal)) (b : Fin 2048) (c : Fin 16)
    (i : S32768x1.Idx) (hi : (i 0).val = b.val * 16 + c.val) :
    val_main_v4 (F := Ideal) x1 i = Nbr.padW (Nbr.wOf x1) (b.val + 2) c := by
  have hc := c.isLt
  have h1 : (i 1).val < 1 := (i 1).isLt
  rw [val_main_v4_apply]
  refine v3_read x1 b c _ ?_ ?_
  · show ((i 0).val * 1 + (i 1).val) / 16 = b.val; omega
  · show ((i 0).val * 1 + (i 1).val) % 16 = c.val; omega

/-- The right weight column at row `b * 16 + c`. -/
theorem v5_read (x1 : (⟨S2048x16, .i32⟩ : BufTy).Contents (Elt Ideal)) (b : Fin 2048) (c : Fin 16)
    (i : S32768x1.Idx) (hi : (i 0).val = b.val * 16 + c.val) :
    val_main_v5 (F := Ideal) x1 i = Nbr.padW (Nbr.wOf x1) (b.val + 3) c := by
  have hc := c.isLt
  have h1 : (i 1).val < 1 := (i 1).isLt
  rw [val_main_v5_apply, padW_in _ _ b rfl]
  refine v0_read x1 b c _ ?_ ?_
  · show ((i 0).val * 1 + (i 1).val) / 16 = b.val; omega
  · show ((i 0).val * 1 + (i 1).val) % 16 = c.val; omega

/-! ## The weight columns spread over the features -/

/-- The left weight column spread over the features (`%9`) at row `b * 16 + c`. -/
theorem v9_read (x1 : (⟨S2048x16, .i32⟩ : BufTy).Contents (Elt Ideal)) (b : Fin 2048) (c : Fin 16) (d : Fin 256)
    (r : Fin 32768) (hr : r.val = b.val * 16 + c.val) :
    val_main_v9 (F := Ideal) x1 (ix2 r d) = Nbr.padW (Nbr.wOf x1) (b.val + 2) c := by
  rw [val_main_v9_apply]
  exact v4_read x1 b c _ hr

/-- The left weight column spread over the features (`%13`) at row `b * 16 + c`. -/
theorem v13_read (x1 : (⟨S2048x16, .i32⟩ : BufTy).Contents (Elt Ideal)) (b : Fin 2048) (c : Fin 16) (d : Fin 256)
    (r : Fin 32768) (hr : r.val = b.val * 16 + c.val) :
    val_main_v13 (F := Ideal) x1 (ix2 r d) = Nbr.padW (Nbr.wOf x1) (b.val + 2) c := by
  rw [val_main_v13_apply]
  exact v4_read x1 b c _ hr

/-- The left weight column spread over the features (`%17`) at row `b * 16 + c`. -/
theorem v17_read (x1 : (⟨S2048x16, .i32⟩ : BufTy).Contents (Elt Ideal)) (b : Fin 2048) (c : Fin 16) (d : Fin 256)
    (r : Fin 32768) (hr : r.val = b.val * 16 + c.val) :
    val_main_v17 (F := Ideal) x1 (ix2 r d) = Nbr.padW (Nbr.wOf x1) (b.val + 2) c := by
  rw [val_main_v17_apply]
  exact v4_read x1 b c _ hr

/-- The right weight column spread over the features (`%21`) at row `b * 16 + c`. -/
theorem v21_read (x1 : (⟨S2048x16, .i32⟩ : BufTy).Contents (Elt Ideal)) (b : Fin 2048) (c : Fin 16) (d : Fin 256)
    (r : Fin 32768) (hr : r.val = b.val * 16 + c.val) :
    val_main_v21 (F := Ideal) x1 (ix2 r d) = Nbr.padW (Nbr.wOf x1) (b.val + 3) c := by
  rw [val_main_v21_apply]
  exact v5_read x1 b c _ hr

/-- The right weight column spread over the features (`%25`) at row `b * 16 + c`. -/
theorem v25_read (x1 : (⟨S2048x16, .i32⟩ : BufTy).Contents (Elt Ideal)) (b : Fin 2048) (c : Fin 16) (d : Fin 256)
    (r : Fin 32768) (hr : r.val = b.val * 16 + c.val) :
    val_main_v25 (F := Ideal) x1 (ix2 r d) = Nbr.padW (Nbr.wOf x1) (b.val + 3) c := by
  rw [val_main_v25_apply]
  exact v5_read x1 b c _ hr

/-- The right weight column spread over the features (`%29`) at row `b * 16 + c`. -/
theorem v29_read (x1 : (⟨S2048x16, .i32⟩ : BufTy).Contents (Elt Ideal)) (b : Fin 2048) (c : Fin 16) (d : Fin 256)
    (r : Fin 32768) (hr : r.val = b.val * 16 + c.val) :
    val_main_v29 (F := Ideal) x1 (ix2 r d) = Nbr.padW (Nbr.wOf x1) (b.val + 3) c := by
  rw [val_main_v29_apply]
  exact v5_read x1 b c _ hr

/-! ## A shift by one mention with zero fill

  `φ p` is the shifted array's row at mention `p`: shifting down, the piece behind the zero block holds `φ (b + 1)` at
  mention `b` and `φ 0` is zero; shifting up, the piece in front of the zero block holds `φ b` at mention `b` and
  `φ 2047` is zero. -/

/-- Sixteen zero rows in front of a piece: at row `b * 16 + c` the result is `φ b`. -/
theorem shiftDown_read (g : S32752x256.Idx → EReal) (φ : Nat → Fin 16 → Fin 256 → EReal)
    (h : Shape.Concatenates [S16x256, S32752x256] S32768x256 0)
    (hg : ∀ (b : Fin 2048) (c : Fin 16) (d : Fin 256) (r' : Fin 32752), r'.val = b.val * 16 + c.val →
      g (ix2 r' d) = φ (b.val + 1) c d)
    (hφ : ∀ c d, φ 0 c d = 0)
    (b : Fin 2048) (c : Fin 16) (d : Fin 256) (r : Fin 32768) (hr : r.val = b.val * 16 + c.val) :
    concatenate S32768x256 0 [⟨S16x256, val_main_v6 (F := Ideal)⟩, ⟨S32752x256, g⟩] h (ix2 r d) = φ b.val c d := by
  have hb := b.isLt
  have hc := c.isLt
  by_cases hz : b.val = 0
  · refine (concatenate_pair_apply_left _ _ _ h (ix2 r d) rfl (ix2 (⟨r.val, by omega⟩ : Fin 16) d) (fun a => ?_)).trans ?_
    · match a with
      | ⟨0, _⟩ => rfl
      | ⟨1, _⟩ => rfl
    · rw [v6_zero, hz, hφ]
  · refine (concatenate_pair_apply_right _ _ _ h (ix2 r d) rfl rfl
      (ix2 (⟨r.val - 16, by omega⟩ : Fin 32752) d) (fun a ha => ?_) ?_).trans ?_
    · match a with
      | ⟨0, _⟩ => exact absurd rfl ha
      | ⟨1, _⟩ => rfl
    · show r.val - 16 + 16 = r.val; omega
    · refine (hg ⟨b.val - 1, by omega⟩ c d _ (by show r.val - 16 = (b.val - 1) * 16 + c.val; omega)).trans ?_
      show φ (b.val - 1 + 1) c d = φ b.val c d
      rw [Nat.sub_add_cancel (show 1 ≤ b.val by omega)]

/-- Sixteen zero rows behind a piece: at row `b * 16 + c` the result is `φ b`. -/
theorem shiftUp_read (g : S32752x256.Idx → EReal) (φ : Nat → Fin 16 → Fin 256 → EReal)
    (h : Shape.Concatenates [S32752x256, S16x256] S32768x256 0)
    (hg : ∀ (b : Fin 2048) (c : Fin 16) (d : Fin 256) (r' : Fin 32752), r'.val = b.val * 16 + c.val →
      g (ix2 r' d) = φ b.val c d)
    (hφ : ∀ c d, φ 2047 c d = 0)
    (b : Fin 2048) (c : Fin 16) (d : Fin 256) (r : Fin 32768) (hr : r.val = b.val * 16 + c.val) :
    concatenate S32768x256 0 [⟨S32752x256, g⟩, ⟨S16x256, val_main_v6 (F := Ideal)⟩] h (ix2 r d) = φ b.val c d := by
  have hb := b.isLt
  have hc := c.isLt
  by_cases hz : b.val = 2047
  · refine (concatenate_pair_apply_right _ _ _ h (ix2 r d) rfl rfl
      (ix2 (⟨r.val - 32752, by omega⟩ : Fin 16) d) (fun a ha => ?_) ?_).trans ?_
    · match a with
      | ⟨0, _⟩ => exact absurd rfl ha
      | ⟨1, _⟩ => rfl
    · show r.val - 32752 + 32752 = r.val; omega
    · rw [v6_zero, hz, hφ]
  · refine (concatenate_pair_apply_left _ _ _ h (ix2 r d) rfl (ix2 (⟨r.val, by omega⟩ : Fin 32752) d) (fun a => ?_)).trans ?_
    · match a with
      | ⟨0, _⟩ => rfl
      | ⟨1, _⟩ => rfl
    · exact hg b c d _ hr

/-! ## The six copies as the reference groups them -/

/-- The batch shifted down by one mention (`%8`). -/
theorem v8_read (x0 : (⟨S32768x256, .f32⟩ : BufTy).Contents (Elt Ideal))
    (b : Fin 2048) (c : Fin 16) (d : Fin 256) (r : Fin 32768) (hr : r.val = b.val * 16 + c.val) :
    val_main_v8 (F := Ideal) x0 (ix2 r d) = Nbr.padE (Nbr.embOf x0) (b.val + 2) c d := by
  unfold val_main_v8
  refine shiftDown_read _ (fun p => Nbr.padE (Nbr.embOf x0) (p + 2)) _ (fun b' c' d' r' hr' => ?_) (fun c' d' => ?_) b c d r hr
  · rw [val_main_v7_apply]
    show x0 _ = Nbr.padE (Nbr.embOf x0) (b'.val + 1 + 2) c' d'
    rw [padE_in _ (b'.val + 1 + 2) b' (by omega)]
    exact x0_row x0 b' c' d' _ hr' rfl
  · exact padE_out _ (0 + 2) (Or.inl (by omega)) c' d'

/-- Copy 0 as the reference groups it (`%10`). -/
theorem v10_read (x0 : (⟨S32768x256, .f32⟩ : BufTy).Contents (Elt Ideal)) (x1 : (⟨S2048x16, .i32⟩ : BufTy).Contents (Elt Ideal))
    (b : Fin 2048) (c : Fin 16) (d : Fin 256) (r : Fin 32768) (hr : r.val = b.val * 16 + c.val) :
    val_main_v10 (F := Ideal) x0 x1 (ix2 r d)
      = Nbr.padE (Nbr.embOf x0) (b.val + 2) c d * Nbr.padW (Nbr.wOf x1) (b.val + 2) c := by
  rw [val_main_v10_apply, v8_read x0 b c d r hr, v9_read x1 b c d r hr]
  rfl

/-- Copy 0 shifted down by one mention (`%12`). -/
theorem v12_read (x0 : (⟨S32768x256, .f32⟩ : BufTy).Contents (Elt Ideal)) (x1 : (⟨S2048x16, .i32⟩ : BufTy).Contents (Elt Ideal))
    (b : Fin 2048) (c : Fin 16) (d : Fin 256) (r : Fin 32768) (hr : r.val = b.val * 16 + c.val) :
    val_main_v12 (F := Ideal) x0 x1 (ix2 r d)
      = Nbr.padE (Nbr.embOf x0) (b.val + 1) c d * Nbr.padW (Nbr.wOf x1) (b.val + 1) c := by
  unfold val_main_v12
  refine shiftDown_read _ (fun p c d => Nbr.padE (Nbr.embOf x0) (p + 1) c d * Nbr.padW (Nbr.wOf x1) (p + 1) c) _
    (fun b' c' d' r' hr' => ?_) (fun c' d' => ?_) b c d r hr
  · rw [val_main_v11_apply, idx_eq_ix2 (idx_main_v11 (ix2 r' d'))
      (⟨r'.val, by have := r'.isLt; omega⟩ : Fin 32768) d' rfl rfl]
    exact v10_read x0 x1 b' c' d' _ hr'
  · show Nbr.padE (Nbr.embOf x0) (0 + 1) c' d' * _ = 0
    rw [padE_out _ (0 + 1) (Or.inl (by omega)), zero_mul]

/-- Copy 1 as the reference groups it (`%14`). -/
theorem v14_read (x0 : (⟨S32768x256, .f32⟩ : BufTy).Contents (Elt Ideal)) (x1 : (⟨S2048x16, .i32⟩ : BufTy).Contents (Elt Ideal))
    (b : Fin 2048) (c : Fin 16) (d : Fin 256) (r : Fin 32768) (hr : r.val = b.val * 16 + c.val) :
    val_main_v14 (F := Ideal) x0 x1 (ix2 r d)
      = Nbr.padE (Nbr.embOf x0) (b.val + 1) c d * Nbr.padW (Nbr.wOf x1) (b.val + 1) c
        * Nbr.padW (Nbr.wOf x1) (b.val + 2) c := by
  rw [val_main_v14_apply, v12_read x0 x1 b c d r hr, v13_read x1 b c d r hr]
  rfl

/-- Copy 1 shifted down by one mention (`%16`). -/
theorem v16_read (x0 : (⟨S32768x256, .f32⟩ : BufTy).Contents (Elt Ideal)) (x1 : (⟨S2048x16, .i32⟩ : BufTy).Contents (Elt Ideal))
    (b : Fin 2048) (c : Fin 16) (d : Fin 256) (r : Fin 32768) (hr : r.val = b.val * 16 + c.val) :
    val_main_v16 (F := Ideal) x0 x1 (ix2 r d)
      = Nbr.padE (Nbr.embOf x0) b.val c d * Nbr.padW (Nbr.wOf x1) b.val c * Nbr.padW (Nbr.wOf x1) (b.val + 1) c := by
  unfold val_main_v16
  refine shiftDown_read _
    (fun p c d => Nbr.padE (Nbr.embOf x0) p c d * Nbr.padW (Nbr.wOf x1) p c * Nbr.padW (Nbr.wOf x1) (p + 1) c) _
    (fun b' c' d' r' hr' => ?_) (fun c' d' => ?_) b c d r hr
  · rw [val_main_v15_apply, idx_eq_ix2 (idx_main_v15 (ix2 r' d'))
      (⟨r'.val, by have := r'.isLt; omega⟩ : Fin 32768) d' rfl rfl]
    exact v14_read x0 x1 b' c' d' _ hr'
  · show Nbr.padE (Nbr.embOf x0) 0 c' d' * _ * _ = 0
    rw [padE_out _ 0 (Or.inl (by omega)), zero_mul, zero_mul]

/-- Copy 2 as the reference groups it (`%18`). -/
theorem v18_read (x0 : (⟨S32768x256, .f32⟩ : BufTy).Contents (Elt Ideal)) (x1 : (⟨S2048x16, .i32⟩ : BufTy).Contents (Elt Ideal))
    (b : Fin 2048) (c : Fin 16) (d : Fin 256) (r : Fin 32768) (hr : r.val = b.val * 16 + c.val) :
    val_main_v18 (F := Ideal) x0 x1 (ix2 r d)
      = Nbr.padE (Nbr.embOf x0) b.val c d * Nbr.padW (Nbr.wOf x1) b.val c * Nbr.padW (Nbr.wOf x1) (b.val + 1) c
        * Nbr.padW (Nbr.wOf x1) (b.val + 2) c := by
  rw [val_main_v18_apply, v16_read x0 x1 b c d r hr, v17_read x1 b c d r hr]
  rfl

/-- The batch shifted up by one mention (`%20`). -/
theorem v20_read (x0 : (⟨S32768x256, .f32⟩ : BufTy).Contents (Elt Ideal))
    (b : Fin 2048) (c : Fin 16) (d : Fin 256) (r : Fin 32768) (hr : r.val = b.val * 16 + c.val) :
    val_main_v20 (F := Ideal) x0 (ix2 r d) = Nbr.padE (Nbr.embOf x0) (b.val + 4) c d := by
  unfold val_main_v20
  refine shiftUp_read _ (fun p => Nbr.padE (Nbr.embOf x0) (p + 4)) _ (fun b' c' d' r' hr' => ?_) (fun c' d' => ?_) b c d r hr
  · have hb' := b'.isLt
    have hc' := c'.isLt
    have hr'' := r'.isLt
    rw [val_main_v19_apply]
    show x0 _ = Nbr.padE (Nbr.embOf x0) (b'.val + 4) c' d'
    rw [padE_in _ (b'.val + 4) (⟨b'.val + 1, by omega⟩ : Fin 2048) (by show b'.val + 4 = b'.val + 1 + 3; omega)]
    exact x0_row x0 _ c' d' _ (by show 16 + r'.val = (b'.val + 1) * 16 + c'.val; omega) rfl
  · exact padE_out _ (2047 + 4) (Or.inr (by omega)) c' d'

/-- Copy 3 as the reference groups it (`%22`). -/
theorem v22_read (x0 : (⟨S32768x256, .f32⟩ : BufTy).Contents (Elt Ideal)) (x1 : (⟨S2048x16, .i32⟩ : BufTy).Contents (Elt Ideal))
    (b : Fin 2048) (c : Fin 16) (d : Fin 256) (r : Fin 32768) (hr : r.val = b.val * 16 + c.val) :
    val_main_v22 (F := Ideal) x0 x1 (ix2 r d)
      = Nbr.padE (Nbr.embOf x0) (b.val + 4) c d * Nbr.padW (Nbr.wOf x1) (b.val + 3) c := by
  rw [val_main_v22_apply, v20_read x0 b c d r hr, v21_read x1 b c d r hr]
  rfl

/-- Copy 3 shifted up by one mention (`%24`). -/
theorem v24_read (x0 : (⟨S32768x256, .f32⟩ : BufTy).Contents (Elt Ideal)) (x1 : (⟨S2048x16, .i32⟩ : BufTy).Contents (Elt Ideal))
    (b : Fin 2048) (c : Fin 16) (d : Fin 256) (r : Fin 32768) (hr : r.val = b.val * 16 + c.val) :
    val_main_v24 (F := Ideal) x0 x1 (ix2 r d)
      = Nbr.padE (Nbr.embOf x0) (b.val + 5) c d * Nbr.padW (Nbr.wOf x1) (b.val + 4) c := by
  unfold val_main_v24
  refine shiftUp_read _
    (fun p c d => Nbr.padE (Nbr.embOf x0) (p + 5) c d * Nbr.padW (Nbr.wOf x1) (p + 4) c) _
    (fun b' c' d' r' hr' => ?_) (fun c' d' => ?_) b c d r hr
  · have hb' := b'.isLt
    have hc' := c'.isLt
    have hr'' := r'.isLt
    rw [val_main_v23_apply, idx_eq_ix2 (idx_main_v23 (ix2 r' d'))
      (⟨16 + r'.val, by omega⟩ : Fin 32768) d' rfl rfl]
    exact v22_read x0 x1 ⟨b'.val + 1, by omega⟩ c' d' _ (by show 16 + r'.val = (b'.val + 1) * 16 + c'.val; omega)
  · show Nbr.padE (Nbr.embOf x0) (2047 + 5) c' d' * _ = 0
    rw [padE_out _ (2047 + 5) (Or.inr (by omega)), zero_mul]

/-- Copy 4 as the reference groups it (`%26`). -/
theorem v26_read (x0 : (⟨S32768x256, .f32⟩ : BufTy).Contents (Elt Ideal)) (x1 : (⟨S2048x16, .i32⟩ : BufTy).Contents (Elt Ideal))
    (b : Fin 2048) (c : Fin 16) (d : Fin 256) (r : Fin 32768) (hr : r.val = b.val * 16 + c.val) :
    val_main_v26 (F := Ideal) x0 x1 (ix2 r d)
      = Nbr.padE (Nbr.embOf x0) (b.val + 5) c d * Nbr.padW (Nbr.wOf x1) (b.val + 4) c * Nbr.padW (Nbr.wOf x1) (b.val + 3) c := by
  rw [val_main_v26_apply, v24_read x0 x1 b c d r hr, v25_read x1 b c d r hr]
  rfl

/-- Copy 4 shifted up by one mention (`%28`). -/
theorem v28_read (x0 : (⟨S32768x256, .f32⟩ : BufTy).Contents (Elt Ideal)) (x1 : (⟨S2048x16, .i32⟩ : BufTy).Contents (Elt Ideal))
    (b : Fin 2048) (c : Fin 16) (d : Fin 256) (r : Fin 32768) (hr : r.val = b.val * 16 + c.val) :
    val_main_v28 (F := Ideal) x0 x1 (ix2 r d)
      = Nbr.padE (Nbr.embOf x0) (b.val + 6) c d * Nbr.padW (Nbr.wOf x1) (b.val + 5) c * Nbr.padW (Nbr.wOf x1) (b.val + 4) c := by
  unfold val_main_v28
  refine shiftUp_read _
    (fun p c d => Nbr.padE (Nbr.embOf x0) (p + 6) c d * Nbr.padW (Nbr.wOf x1) (p + 5) c * Nbr.padW (Nbr.wOf x1) (p + 4) c) _
    (fun b' c' d' r' hr' => ?_) (fun c' d' => ?_) b c d r hr
  · have hb' := b'.isLt
    have hc' := c'.isLt
    have hr'' := r'.isLt
    rw [val_main_v27_apply, idx_eq_ix2 (idx_main_v27 (ix2 r' d'))
      (⟨16 + r'.val, by omega⟩ : Fin 32768) d' rfl rfl]
    exact v26_read x0 x1 ⟨b'.val + 1, by omega⟩ c' d' _ (by show 16 + r'.val = (b'.val + 1) * 16 + c'.val; omega)
  · show Nbr.padE (Nbr.embOf x0) (2047 + 6) c' d' * _ * _ = 0
    rw [padE_out _ (2047 + 6) (Or.inr (by omega)), zero_mul, zero_mul]

/-- Copy 5 as the reference groups it (`%30`). -/
theorem v30_read (x0 : (⟨S32768x256, .f32⟩ : BufTy).Contents (Elt Ideal)) (x1 : (⟨S2048x16, .i32⟩ : BufTy).Contents (Elt Ideal))
    (b : Fin 2048) (c : Fin 16) (d : Fin 256) (r : Fin 32768) (hr : r.val = b.val * 16 + c.val) :
    val_main_v30 (F := Ideal) x0 x1 (ix2 r d)
      = Nbr.padE (Nbr.embOf x0) (b.val + 6) c d * Nbr.padW (Nbr.wOf x1) (b.val + 5) c * Nbr.padW (Nbr.wOf x1) (b.val + 4) c * Nbr.padW (Nbr.wOf x1) (b.val + 3) c := by
  rw [val_main_v30_apply, v28_read x0 x1 b c d r hr, v29_read x1 b c d r hr]
  rfl

/-! ## The six copies: the reference's grouping of the weights against the specification's -/

/-- The reference's shifted masked copy 0 (`%10`) at row `b * 16 + c`, feature `d`. -/
theorem copy0_ref (x0 : (⟨S32768x256, .f32⟩ : BufTy).Contents (Elt Ideal)) (x1 : (⟨S2048x16, .i32⟩ : BufTy).Contents (Elt Ideal))
    (b : Fin 2048) (c : Fin 16) (d : Fin 256) (r : Fin 32768) (hr : r.val = b.val * 16 + c.val) :
    val_main_v10 (F := Ideal) x0 x1 (ix2 r d) = Nbr.copy (Nbr.embOf x0) (Nbr.wOf x1) b.val 0 c d := by
  rw [v10_read x0 x1 b c d r hr]
  rfl

/-- The reference's shifted masked copy 1 (`%14`) at row `b * 16 + c`, feature `d`. -/
theorem copy1_ref (x0 : (⟨S32768x256, .f32⟩ : BufTy).Contents (Elt Ideal)) (x1 : (⟨S2048x16, .i32⟩ : BufTy).Contents (Elt Ideal))
    (b : Fin 2048) (c : Fin 16) (d : Fin 256) (r : Fin 32768) (hr : r.val = b.val * 16 + c.val) :
    val_main_v14 (F := Ideal) x0 x1 (ix2 r d) = Nbr.copy (Nbr.embOf x0) (Nbr.wOf x1) b.val 1 c d := by
  rw [v14_read x0 x1 b c d r hr]
  show _ = Nbr.padE (Nbr.embOf x0) (b.val + 1) c d * (Nbr.padW (Nbr.wOf x1) (b.val + 2) c * Nbr.padW (Nbr.wOf x1) (b.val + 1) c)
  ac_rfl

/-- The reference's shifted masked copy 2 (`%18`) at row `b * 16 + c`, feature `d`. -/
theorem copy2_ref (x0 : (⟨S32768x256, .f32⟩ : BufTy).Contents (Elt Ideal)) (x1 : (⟨S2048x16, .i32⟩ : BufTy).Contents (Elt Ideal))
    (b : Fin 2048) (c : Fin 16) (d : Fin 256) (r : Fin 32768) (hr : r.val = b.val * 16 + c.val) :
    val_main_v18 (F := Ideal) x0 x1 (ix2 r d) = Nbr.copy (Nbr.embOf x0) (Nbr.wOf x1) b.val 2 c d := by
  rw [v18_read x0 x1 b c d r hr]
  show _ = Nbr.padE (Nbr.embOf x0) b.val c d * (Nbr.padW (Nbr.wOf x1) (b.val + 2) c * Nbr.padW (Nbr.wOf x1) (b.val + 1) c * Nbr.padW (Nbr.wOf x1) b.val c)
  ac_rfl

/-- The reference's shifted masked copy 3 (`%22`) at row `b * 16 + c`, feature `d`. -/
theorem copy3_ref (x0 : (⟨S32768x256, .f32⟩ : BufTy).Contents (Elt Ideal)) (x1 : (⟨S2048x16, .i32⟩ : BufTy).Contents (Elt Ideal))
    (b : Fin 2048) (c : Fin 16) (d : Fin 256) (r : Fin 32768) (hr : r.val = b.val * 16 + c.val) :
    val_main_v22 (F := Ideal) x0 x1 (ix2 r d) = Nbr.copy (Nbr.embOf x0) (Nbr.wOf x1) b.val 3 c d := by
  rw [v22_read x0 x1 b c d r hr]
  rfl

/-- The reference's shifted masked copy 4 (`%26`) at row `b * 16 + c`, feature `d`. -/
theorem copy4_ref (x0 : (⟨S32768x256, .f32⟩ : BufTy).Contents (Elt Ideal)) (x1 : (⟨S2048x16, .i32⟩ : BufTy).Contents (Elt Ideal))
    (b : Fin 2048) (c : Fin 16) (d : Fin 256) (r : Fin 32768) (hr : r.val = b.val * 16 + c.val) :
    val_main_v26 (F := Ideal) x0 x1 (ix2 r d) = Nbr.copy (Nbr.embOf x0) (Nbr.wOf x1) b.val 4 c d := by
  rw [v26_read x0 x1 b c d r hr]
  show _ = Nbr.padE (Nbr.embOf x0) (b.val + 5) c d * (Nbr.padW (Nbr.wOf x1) (b.val + 3) c * Nbr.padW (Nbr.wOf x1) (b.val + 4) c)
  ac_rfl

/-- The reference's shifted masked copy 5 (`%30`) at row `b * 16 + c`, feature `d`. -/
theorem copy5_ref (x0 : (⟨S32768x256, .f32⟩ : BufTy).Contents (Elt Ideal)) (x1 : (⟨S2048x16, .i32⟩ : BufTy).Contents (Elt Ideal))
    (b : Fin 2048) (c : Fin 16) (d : Fin 256) (r : Fin 32768) (hr : r.val = b.val * 16 + c.val) :
    val_main_v30 (F := Ideal) x0 x1 (ix2 r d) = Nbr.copy (Nbr.embOf x0) (Nbr.wOf x1) b.val 5 c d := by
  rw [v30_read x0 x1 b c d r hr]
  show _ = Nbr.padE (Nbr.embOf x0) (b.val + 6) c d * (Nbr.padW (Nbr.wOf x1) (b.val + 3) c * Nbr.padW (Nbr.wOf x1) (b.val + 4) c * Nbr.padW (Nbr.wOf x1) (b.val + 5) c)
  ac_rfl

end Cert.ReferenceIdeal.Bridge

end
-- ==== Proof.RSim.lean ====
/-
  The reference's six similarity blocks `[2048, 16, 16]`: for each shifted masked copy, the batched inner products
  of the batch's candidates against the copy's, divided by the floored product of the two norms, then gated.  Read
  at `(b, i, j)` each is `Nbr.sim` of candidate `i` of mention `b` against candidate `j` of the copy at `b`.
-/
import proofs.«404893_j46205258170686_1_alg».proof.Proof.RefRead
import proofs.«404893_j46205258170686_1_alg».proof.Proof.Spec
import proofs.«404893_j46205258170686_1_alg».proof.Proof.LibLayout3
import proofs.«404893_j46205258170686_1_alg».proof.Proof.RCopies
import Idealize.ShloMosaic.Lib.Pipeline.Value
import Idealize.ShloMosaic.Lib.ValueIdx
import Idealize.ShloMosaic.PureOps.Ideal.Laws

noncomputable section

namespace Cert.ReferenceIdeal.Bridge

open Idealize.ShloMosaic Idealize.ShloMosaic.ValueIdx Cert.ReferenceIdeal Cert.ReferenceIdeal.Read

/-! ## The pieces every block shares -/

/-- The batch seen as `[2048, 16, 256]`, at mention `b`, candidate `i`, feature `k`. -/
theorem v41_read (x0 : (⟨S32768x256, .f32⟩ : BufTy).Contents (Elt Ideal)) (b : Fin 2048) (i : Fin 16) (k : Fin 256)
    (t : S2048x16x256.Idx) (h0 : (t 0).val = b.val) (h1 : (t 1).val = i.val) (h2 : (t 2).val = k.val) :
    val_main_v41 (F := Ideal) x0 t = Nbr.embOf x0 b i k := by
  have hi := i.isLt
  have hk := k.isLt
  rw [val_main_v41_apply]
  refine x0_row x0 b i k _ ?_ ?_
  · show (((t 0).val * 16 + (t 1).val) * 256 + (t 2).val) / 256 = b.val * 16 + i.val; omega
  · show (((t 0).val * 16 + (t 1).val) * 256 + (t 2).val) % 256 = k.val; omega

/-- A sum of squares from the zero word, then the square root, is the Euclidean norm. -/
theorem norm_of_parts (A : S2048x16x256.Idx → Ideal .f32) (f : Nbr.Feat) (z : Ideal .f32) (hz : z = 0)
    (ι : Fin 256 → S2048x16x256.Idx) (hA : ∀ k, A (ι k) = f k) :
    FloatOps.hostUnary (F := Ideal) .sqrt (z + ∑ k : Fin 256, FloatOps.mulf (F := Ideal) (A (ι k)) (A (ι k)))
      = Nbr.norm2 f := by
  subst hz
  rw [zero_add]
  show Ideal.sqrt (∑ k : Fin 256, A (ι k) * A (ι k)) = Ideal.sqrt (∑ d : Fin 256, f d * f d)
  exact congrArg Ideal.sqrt (Finset.sum_congr rfl fun k _ => by rw [hA k])

/-- A sum of products over the features is the inner product. -/
theorem dot_of_parts (A B : S2048x16x256.Idx → Ideal .f32) (u v : Nbr.Feat)
    (ιl ιr : Fin 256 → S2048x16x256.Idx) (hA : ∀ k, A (ιl k) = u k) (hB : ∀ k, B (ιr k) = v k) :
    ∑ k : Fin 256, A (ιl k) * B (ιr k) = Nbr.dot u v :=
  Finset.sum_congr rfl fun k _ => by rw [hA k, hB k]

/-- The quotient by the floored product of norms, compared, clipped and selected, is the gated similarity. -/
theorem sim_of_parts (u v : Nbr.Feat) (D NC NS eps thr lo hi z : Ideal .f32)
    (hD : D = Nbr.dot u v) (hNC : NC = Nbr.norm2 u) (hNS : NS = Nbr.norm2 v)
    (heps : eps = Nbr.wEps) (hthr : thr = Nbr.wThr) (hlo : lo = Nbr.wThr) (hhi : hi = Nbr.wOne) (hz : z = Nbr.wZero) :
    Scalar.select
      (FloatOps.cmpf (F := Ideal) .ogt
        (FloatOps.hostDivf (F := Ideal) D (FloatOps.maximumf (F := Ideal) (FloatOps.mulf (F := Ideal) NC NS) eps)) thr)
      (FloatOps.minimumf (F := Ideal) hi (FloatOps.maximumf (F := Ideal) lo
        (FloatOps.hostDivf (F := Ideal) D (FloatOps.maximumf (F := Ideal) (FloatOps.mulf (F := Ideal) NC NS) eps))))
      z = Nbr.sim u v := by
  subst hD hNC hNS heps hthr hlo hhi hz
  rfl

/-- The norm of candidate `i` of mention `b` (`%42`). -/
theorem v42_read (x0 : (⟨S32768x256, .f32⟩ : BufTy).Contents (Elt Ideal)) (b : Fin 2048) (i : Fin 16)
    (t : S2048x16.Idx) (h0 : (t 0).val = b.val) (h1 : (t 1).val = i.val) :
    val_main_v42 (F := Ideal) x0 t = Nbr.norm2 (Nbr.embOf x0 b i) := by
  rw [val_main_v42_apply, val_main_call0_v1_apply]
  simp only [val_main_call0_v0_apply]
  exact norm_of_parts (val_main_v41 (F := Ideal) x0) _ _
    (by rw [val_main_call0_cst_apply]; exact Ideal.ofBits_zero_f32)
    (fun k => idx_main_call0_v1 t k) (fun k => v41_read x0 b i k _ h0 h1 rfl)

/-! ## Block 0 -/

/-- Copy 0 seen as `[2048, 16, 256]` (`%43`), at mention `b`, candidate `j`, feature `k`. -/
theorem v43_read (x0 : (⟨S32768x256, .f32⟩ : BufTy).Contents (Elt Ideal)) (x1 : (⟨S2048x16, .i32⟩ : BufTy).Contents (Elt Ideal))
    (b : Fin 2048) (j : Fin 16) (k : Fin 256)
    (t : S2048x16x256.Idx) (h0 : (t 0).val = b.val) (h1 : (t 1).val = j.val) (h2 : (t 2).val = k.val) :
    val_main_v43 (F := Ideal) x0 x1 t = Nbr.copy (Nbr.embOf x0) (Nbr.wOf x1) b.val 0 j k := by
  have hb := b.isLt
  have hj := j.isLt
  have hk := k.isLt
  rw [val_main_v43_apply, idx_eq_ix2 (idx_main_v43 t) (⟨b.val * 16 + j.val, by omega⟩ : Fin 32768) k
    (by show (((t 0).val * 16 + (t 1).val) * 256 + (t 2).val) / 256 = b.val * 16 + j.val; omega)
    (by show (((t 0).val * 16 + (t 1).val) * 256 + (t 2).val) % 256 = k.val; omega)]
  exact copy0_ref x0 x1 b j k _ rfl

/-- The reference's gated similarity block against copy 0 (`%57`) at mention `b`, candidates `i` against `j`. -/
theorem sim0_ref (x0 : (⟨S32768x256, .f32⟩ : BufTy).Contents (Elt Ideal)) (x1 : (⟨S2048x16, .i32⟩ : BufTy).Contents (Elt Ideal))
    (b : Fin 2048) (i j : Fin 16) :
    val_main_v57 (F := Ideal) x0 x1 (ix3 b i j)
      = Nbr.sim (Nbr.embOf x0 b i) (Nbr.copy (Nbr.embOf x0) (Nbr.wOf x1) b.val 0 j) := by
  have hD : val_main_v45 (F := Ideal) x0 x1 (ix3 b i j) = Nbr.dot (Nbr.embOf x0 b i) (Nbr.copy (Nbr.embOf x0) (Nbr.wOf x1) b.val 0 j) := by
    rw [val_main_v45_apply]
    exact dot_of_parts (val_main_v41 (F := Ideal) x0) (val_main_v43 (F := Ideal) x0 x1) _ _
      (fun k => lidx_main_v45 (ix3 b i j) k) (fun k => ridx_main_v45 (ix3 b i j) k)
      (fun k => v41_read x0 b i k _ rfl rfl rfl) (fun k => v43_read x0 x1 b j k _ rfl rfl rfl)
  have hNC : val_main_v48 (F := Ideal) x0 (ix3 b i j) = Nbr.norm2 (Nbr.embOf x0 b i) := by
    rw [val_main_v48_apply, val_main_v46_apply]
    exact v42_read x0 b i _ rfl rfl
  have hNS : val_main_v49 (F := Ideal) x0 x1 (ix3 b i j) = Nbr.norm2 (Nbr.copy (Nbr.embOf x0) (Nbr.wOf x1) b.val 0 j) := by
    rw [val_main_v49_apply, val_main_v47_apply, val_main_v44_apply, val_main_call1_v1_apply]
    simp only [val_main_call1_v0_apply]
    exact norm_of_parts (val_main_v43 (F := Ideal) x0 x1) _ _
      (by rw [val_main_call1_cst_apply]; exact Ideal.ofBits_zero_f32)
      (fun k => idx_main_call1_v1 (idx_main_v47 (idx_main_v49 (ix3 b i j))) k)
      (fun k => v43_read x0 x1 b j k _ rfl rfl rfl)
  have hEps : val_main_v51 (F := Ideal) (ix3 b i j) = Nbr.wEps := by
    rw [val_main_v51_apply, val_main_cst_3_apply]; rfl
  have hThr : val_main_v54 (F := Ideal) (ix3 b i j) = Nbr.wThr := by
    rw [val_main_v54_apply, val_main_cst_4_apply]; rfl
  have hLo : val_main_call2_v1 (F := Ideal) (ix3 b i j) = Nbr.wThr := by
    rw [val_main_call2_v1_apply, val_main_call2_v0_apply, val_main_cst_5_apply]; rfl
  have hHi : val_main_call2_v4 (F := Ideal) (ix3 b i j) = Nbr.wOne := by
    rw [val_main_call2_v4_apply, val_main_call2_v3_apply, val_main_cst_6_apply]; rfl
  have hZ : val_main_call3_v1 (F := Ideal) (ix3 b i j) = Nbr.wZero := by
    rw [val_main_call3_v1_apply, val_main_call3_v0_apply, val_main_cst_7_apply]; rfl
  rw [val_main_v57_apply, val_main_v55_apply, val_main_v56_apply, val_main_call2_v2_apply, val_main_v53_apply,
    val_main_v52_apply, val_main_v50_apply]
  exact sim_of_parts _ _ _ _ _ _ _ _ _ _ hD hNC hNS hEps hThr hLo hHi hZ

/-! ## Block 1 -/

/-- Copy 1 seen as `[2048, 16, 256]` (`%58`), at mention `b`, candidate `j`, feature `k`. -/
theorem v58_read (x0 : (⟨S32768x256, .f32⟩ : BufTy).Contents (Elt Ideal)) (x1 : (⟨S2048x16, .i32⟩ : BufTy).Contents (Elt Ideal))
    (b : Fin 2048) (j : Fin 16) (k : Fin 256)
    (t : S2048x16x256.Idx) (h0 : (t 0).val = b.val) (h1 : (t 1).val = j.val) (h2 : (t 2).val = k.val) :
    val_main_v58 (F := Ideal) x0 x1 t = Nbr.copy (Nbr.embOf x0) (Nbr.wOf x1) b.val 1 j k := by
  have hb := b.isLt
  have hj := j.isLt
  have hk := k.isLt
  rw [val_main_v58_apply, idx_eq_ix2 (idx_main_v58 t) (⟨b.val * 16 + j.val, by omega⟩ : Fin 32768) k
    (by show (((t 0).val * 16 + (t 1).val) * 256 + (t 2).val) / 256 = b.val * 16 + j.val; omega)
    (by show (((t 0).val * 16 + (t 1).val) * 256 + (t 2).val) % 256 = k.val; omega)]
  exact copy1_ref x0 x1 b j k _ rfl

/-- The reference's gated similarity block against copy 1 (`%72`) at mention `b`, candidates `i` against `j`. -/
theorem sim1_ref (x0 : (⟨S32768x256, .f32⟩ : BufTy).Contents (Elt Ideal)) (x1 : (⟨S2048x16, .i32⟩ : BufTy).Contents (Elt Ideal))
    (b : Fin 2048) (i j : Fin 16) :
    val_main_v72 (F := Ideal) x0 x1 (ix3 b i j)
      = Nbr.sim (Nbr.embOf x0 b i) (Nbr.copy (Nbr.embOf x0) (Nbr.wOf x1) b.val 1 j) := by
  have hD : val_main_v60 (F := Ideal) x0 x1 (ix3 b i j) = Nbr.dot (Nbr.embOf x0 b i) (Nbr.copy (Nbr.embOf x0) (Nbr.wOf x1) b.val 1 j) := by
    rw [val_main_v60_apply]
    exact dot_of_parts (val_main_v41 (F := Ideal) x0) (val_main_v58 (F := Ideal) x0 x1) _ _
      (fun k => lidx_main_v60 (ix3 b i j) k) (fun k => ridx_main_v60 (ix3 b i j) k)
      (fun k => v41_read x0 b i k _ rfl rfl rfl) (fun k => v58_read x0 x1 b j k _ rfl rfl rfl)
  have hNC : val_main_v63 (F := Ideal) x0 (ix3 b i j) = Nbr.norm2 (Nbr.embOf x0 b i) := by
    rw [val_main_v63_apply, val_main_v61_apply]
    exact v42_read x0 b i _ rfl rfl
  have hNS : val_main_v64 (F := Ideal) x0 x1 (ix3 b i j) = Nbr.norm2 (Nbr.copy (Nbr.embOf x0) (Nbr.wOf x1) b.val 1 j) := by
    rw [val_main_v64_apply, val_main_v62_apply, val_main_v59_apply, val_main_call4_v1_apply]
    simp only [val_main_call4_v0_apply]
    exact norm_of_parts (val_main_v58 (F := Ideal) x0 x1) _ _
      (by rw [val_main_call4_cst_apply]; exact Ideal.ofBits_zero_f32)
      (fun k => idx_main_call4_v1 (idx_main_v62 (idx_main_v64 (ix3 b i j))) k)
      (fun k => v58_read x0 x1 b j k _ rfl rfl rfl)
  have hEps : val_main_v66 (F := Ideal) (ix3 b i j) = Nbr.wEps := by
    rw [val_main_v66_apply, val_main_cst_8_apply]; rfl
  have hThr : val_main_v69 (F := Ideal) (ix3 b i j) = Nbr.wThr := by
    rw [val_main_v69_apply, val_main_cst_9_apply]; rfl
  have hLo : val_main_call5_v1 (F := Ideal) (ix3 b i j) = Nbr.wThr := by
    rw [val_main_call5_v1_apply, val_main_call5_v0_apply, val_main_cst_10_apply]; rfl
  have hHi : val_main_call5_v4 (F := Ideal) (ix3 b i j) = Nbr.wOne := by
    rw [val_main_call5_v4_apply, val_main_call5_v3_apply, val_main_cst_11_apply]; rfl
  have hZ : val_main_call6_v1 (F := Ideal) (ix3 b i j) = Nbr.wZero := by
    rw [val_main_call6_v1_apply, val_main_call6_v0_apply, val_main_cst_12_apply]; rfl
  rw [val_main_v72_apply, val_main_v70_apply, val_main_v71_apply, val_main_call5_v2_apply, val_main_v68_apply,
    val_main_v67_apply, val_main_v65_apply]
  exact sim_of_parts _ _ _ _ _ _ _ _ _ _ hD hNC hNS hEps hThr hLo hHi hZ

/-! ## Block 2 -/

/-- Copy 2 seen as `[2048, 16, 256]` (`%73`), at mention `b`, candidate `j`, feature `k`. -/
theorem v73_read (x0 : (⟨S32768x256, .f32⟩ : BufTy).Contents (Elt Ideal)) (x1 : (⟨S2048x16, .i32⟩ : BufTy).Contents (Elt Ideal))
    (b : Fin 2048) (j : Fin 16) (k : Fin 256)
    (t : S2048x16x256.Idx) (h0 : (t 0).val = b.val) (h1 : (t 1).val = j.val) (h2 : (t 2).val = k.val) :
    val_main_v73 (F := Ideal) x0 x1 t = Nbr.copy (Nbr.embOf x0) (Nbr.wOf x1) b.val 2 j k := by
  have hb := b.isLt
  have hj := j.isLt
  have hk := k.isLt
  rw [val_main_v73_apply, idx_eq_ix2 (idx_main_v73 t) (⟨b.val * 16 + j.val, by omega⟩ : Fin 32768) k
    (by show (((t 0).val * 16 + (t 1).val) * 256 + (t 2).val) / 256 = b.val * 16 + j.val; omega)
    (by show (((t 0).val * 16 + (t 1).val) * 256 + (t 2).val) % 256 = k.val; omega)]
  exact copy2_ref x0 x1 b j k _ rfl

/-- The reference's gated similarity block against copy 2 (`%87`) at mention `b`, candidates `i` against `j`. -/
theorem sim2_ref (x0 : (⟨S32768x256, .f32⟩ : BufTy).Contents (Elt Ideal)) (x1 : (⟨S2048x16, .i32⟩ : BufTy).Contents (Elt Ideal))
    (b : Fin 2048) (i j : Fin 16) :
    val_main_v87 (F := Ideal) x0 x1 (ix3 b i j)
      = Nbr.sim (Nbr.embOf x0 b i) (Nbr.copy (Nbr.embOf x0) (Nbr.wOf x1) b.val 2 j) := by
  have hD : val_main_v75 (F := Ideal) x0 x1 (ix3 b i j) = Nbr.dot (Nbr.embOf x0 b i) (Nbr.copy (Nbr.embOf x0) (Nbr.wOf x1) b.val 2 j) := by
    rw [val_main_v75_apply]
    exact dot_of_parts (val_main_v41 (F := Ideal) x0) (val_main_v73 (F := Ideal) x0 x1) _ _
      (fun k => lidx_main_v75 (ix3 b i j) k) (fun k => ridx_main_v75 (ix3 b i j) k)
      (fun k => v41_read x0 b i k _ rfl rfl rfl) (fun k => v73_read x0 x1 b j k _ rfl rfl rfl)
  have hNC : val_main_v78 (F := Ideal) x0 (ix3 b i j) = Nbr.norm2 (Nbr.embOf x0 b i) := by
    rw [val_main_v78_apply, val_main_v76_apply]
    exact v42_read x0 b i _ rfl rfl
  have hNS : val_main_v79 (F := Ideal) x0 x1 (ix3 b i j) = Nbr.norm2 (Nbr.copy (Nbr.embOf x0) (Nbr.wOf x1) b.val 2 j) := by
    rw [val_main_v79_apply, val_main_v77_apply, val_main_v74_apply, val_main_call7_v1_apply]
    simp only [val_main_call7_v0_apply]
    exact norm_of_parts (val_main_v73 (F := Ideal) x0 x1) _ _
      (by rw [val_main_call7_cst_apply]; exact Ideal.ofBits_zero_f32)
      (fun k => idx_main_call7_v1 (idx_main_v77 (idx_main_v79 (ix3 b i j))) k)
      (fun k => v73_read x0 x1 b j k _ rfl rfl rfl)
  have hEps : val_main_v81 (F := Ideal) (ix3 b i j) = Nbr.wEps := by
    rw [val_main_v81_apply, val_main_cst_13_apply]; rfl
  have hThr : val_main_v84 (F := Ideal) (ix3 b i j) = Nbr.wThr := by
    rw [val_main_v84_apply, val_main_cst_14_apply]; rfl
  have hLo : val_main_call8_v1 (F := Ideal) (ix3 b i j) = Nbr.wThr := by
    rw [val_main_call8_v1_apply, val_main_call8_v0_apply, val_main_cst_15_apply]; rfl
  have hHi : val_main_call8_v4 (F := Ideal) (ix3 b i j) = Nbr.wOne := by
    rw [val_main_call8_v4_apply, val_main_call8_v3_apply, val_main_cst_16_apply]; rfl
  have hZ : val_main_call9_v1 (F := Ideal) (ix3 b i j) = Nbr.wZero := by
    rw [val_main_call9_v1_apply, val_main_call9_v0_apply, val_main_cst_17_apply]; rfl
  rw [val_main_v87_apply, val_main_v85_apply, val_main_v86_apply, val_main_call8_v2_apply, val_main_v83_apply,
    val_main_v82_apply, val_main_v80_apply]
  exact sim_of_parts _ _ _ _ _ _ _ _ _ _ hD hNC hNS hEps hThr hLo hHi hZ

/-! ## Block 3 -/

/-- Copy 3 seen as `[2048, 16, 256]` (`%88`), at mention `b`, candidate `j`, feature `k`. -/
theorem v88_read (x0 : (⟨S32768x256, .f32⟩ : BufTy).Contents (Elt Ideal)) (x1 : (⟨S2048x16, .i32⟩ : BufTy).Contents (Elt Ideal))
    (b : Fin 2048) (j : Fin 16) (k : Fin 256)
    (t : S2048x16x256.Idx) (h0 : (t 0).val = b.val) (h1 : (t 1).val = j.val) (h2 : (t 2).val = k.val) :
    val_main_v88 (F := Ideal) x0 x1 t = Nbr.copy (Nbr.embOf x0) (Nbr.wOf x1) b.val 3 j k := by
  have hb := b.isLt
  have hj := j.isLt
  have hk := k.isLt
  rw [val_main_v88_apply, idx_eq_ix2 (idx_main_v88 t) (⟨b.val * 16 + j.val, by omega⟩ : Fin 32768) k
    (by show (((t 0).val * 16 + (t 1).val) * 256 + (t 2).val) / 256 = b.val * 16 + j.val; omega)
    (by show (((t 0).val * 16 + (t 1).val) * 256 + (t 2).val) % 256 = k.val; omega)]
  exact copy3_ref x0 x1 b j k _ rfl

/-- The reference's gated similarity block against copy 3 (`%102`) at mention `b`, candidates `i` against `j`. -/
theorem sim3_ref (x0 : (⟨S32768x256, .f32⟩ : BufTy).Contents (Elt Ideal)) (x1 : (⟨S2048x16, .i32⟩ : BufTy).Contents (Elt Ideal))
    (b : Fin 2048) (i j : Fin 16) :
    val_main_v102 (F := Ideal) x0 x1 (ix3 b i j)
      = Nbr.sim (Nbr.embOf x0 b i) (Nbr.copy (Nbr.embOf x0) (Nbr.wOf x1) b.val 3 j) := by
  have hD : val_main_v90 (F := Ideal) x0 x1 (ix3 b i j) = Nbr.dot (Nbr.embOf x0 b i) (Nbr.copy (Nbr.embOf x0) (Nbr.wOf x1) b.val 3 j) := by
    rw [val_main_v90_apply]
    exact dot_of_parts (val_main_v41 (F := Ideal) x0) (val_main_v88 (F := Ideal) x0 x1) _ _
      (fun k => lidx_main_v90 (ix3 b i j) k) (fun k => ridx_main_v90 (ix3 b i j) k)
      (fun k => v41_read x0 b i k _ rfl rfl rfl) (fun k => v88_read x0 x1 b j k _ rfl rfl rfl)
  have hNC : val_main_v93 (F := Ideal) x0 (ix3 b i j) = Nbr.norm2 (Nbr.embOf x0 b i) := by
    rw [val_main_v93_apply, val_main_v91_apply]
    exact v42_read x0 b i _ rfl rfl
  have hNS : val_main_v94 (F := Ideal) x0 x1 (ix3 b i j) = Nbr.norm2 (Nbr.copy (Nbr.embOf x0) (Nbr.wOf x1) b.val 3 j) := by
    rw [val_main_v94_apply, val_main_v92_apply, val_main_v89_apply, val_main_call10_v1_apply]
    simp only [val_main_call10_v0_apply]
    exact norm_of_parts (val_main_v88 (F := Ideal) x0 x1) _ _
      (by rw [val_main_call10_cst_apply]; exact Ideal.ofBits_zero_f32)
      (fun k => idx_main_call10_v1 (idx_main_v92 (idx_main_v94 (ix3 b i j))) k)
      (fun k => v88_read x0 x1 b j k _ rfl rfl rfl)
  have hEps : val_main_v96 (F := Ideal) (ix3 b i j) = Nbr.wEps := by
    rw [val_main_v96_apply, val_main_cst_18_apply]; rfl
  have hThr : val_main_v99 (F := Ideal) (ix3 b i j) = Nbr.wThr := by
    rw [val_main_v99_apply, val_main_cst_19_apply]; rfl
  have hLo : val_main_call11_v1 (F := Ideal) (ix3 b i j) = Nbr.wThr := by
    rw [val_main_call11_v1_apply, val_main_call11_v0_apply, val_main_cst_20_apply]; rfl
  have hHi : val_main_call11_v4 (F := Ideal) (ix3 b i j) = Nbr.wOne := by
    rw [val_main_call11_v4_apply, val_main_call11_v3_apply, val_main_cst_21_apply]; rfl
  have hZ : val_main_call12_v1 (F := Ideal) (ix3 b i j) = Nbr.wZero := by
    rw [val_main_call12_v1_apply, val_main_call12_v0_apply, val_main_cst_22_apply]; rfl
  rw [val_main_v102_apply, val_main_v100_apply, val_main_v101_apply, val_main_call11_v2_apply, val_main_v98_apply,
    val_main_v97_apply, val_main_v95_apply]
  exact sim_of_parts _ _ _ _ _ _ _ _ _ _ hD hNC hNS hEps hThr hLo hHi hZ

/-! ## Block 4 -/

/-- Copy 4 seen as `[2048, 16, 256]` (`%103`), at mention `b`, candidate `j`, feature `k`. -/
theorem v103_read (x0 : (⟨S32768x256, .f32⟩ : BufTy).Contents (Elt Ideal)) (x1 : (⟨S2048x16, .i32⟩ : BufTy).Contents (Elt Ideal))
    (b : Fin 2048) (j : Fin 16) (k : Fin 256)
    (t : S2048x16x256.Idx) (h0 : (t 0).val = b.val) (h1 : (t 1).val = j.val) (h2 : (t 2).val = k.val) :
    val_main_v103 (F := Ideal) x0 x1 t = Nbr.copy (Nbr.embOf x0) (Nbr.wOf x1) b.val 4 j k := by
  have hb := b.isLt
  have hj := j.isLt
  have hk := k.isLt
  rw [val_main_v103_apply, idx_eq_ix2 (idx_main_v103 t) (⟨b.val * 16 + j.val, by omega⟩ : Fin 32768) k
    (by show (((t 0).val * 16 + (t 1).val) * 256 + (t 2).val) / 256 = b.val * 16 + j.val; omega)
    (by show (((t 0).val * 16 + (t 1).val) * 256 + (t 2).val) % 256 = k.val; omega)]
  exact copy4_ref x0 x1 b j k _ rfl

/-- The reference's gated similarity block against copy 4 (`%117`) at mention `b`, candidates `i` against `j`. -/
theorem sim4_ref (x0 : (⟨S32768x256, .f32⟩ : BufTy).Contents (Elt Ideal)) (x1 : (⟨S2048x16, .i32⟩ : BufTy).Contents (Elt Ideal))
    (b : Fin 2048) (i j : Fin 16) :
    val_main_v117 (F := Ideal) x0 x1 (ix3 b i j)
      = Nbr.sim (Nbr.embOf x0 b i) (Nbr.copy (Nbr.embOf x0) (Nbr.wOf x1) b.val 4 j) := by
  have hD : val_main_v105 (F := Ideal) x0 x1 (ix3 b i j) = Nbr.dot (Nbr.embOf x0 b i) (Nbr.copy (Nbr.embOf x0) (Nbr.wOf x1) b.val 4 j) := by
    rw [val_main_v105_apply]
    exact dot_of_parts (val_main_v41 (F := Ideal) x0) (val_main_v103 (F := Ideal) x0 x1) _ _
      (fun k => lidx_main_v105 (ix3 b i j) k) (fun k => ridx_main_v105 (ix3 b i j) k)
      (fun k => v41_read x0 b i k _ rfl rfl rfl) (fun k => v103_read x0 x1 b j k _ rfl rfl rfl)
  have hNC : val_main_v108 (F := Ideal) x0 (ix3 b i j) = Nbr.norm2 (Nbr.embOf x0 b i) := by
    rw [val_main_v108_apply, val_main_v106_apply]
    exact v42_read x0 b i _ rfl rfl
  have hNS : val_main_v109 (F := Ideal) x0 x1 (ix3 b i j) = Nbr.norm2 (Nbr.copy (Nbr.embOf x0) (Nbr.wOf x1) b.val 4 j) := by
    rw [val_main_v109_apply, val_main_v107_apply, val_main_v104_apply, val_main_call13_v1_apply]
    simp only [val_main_call13_v0_apply]
    exact norm_of_parts (val_main_v103 (F := Ideal) x0 x1) _ _
      (by rw [val_main_call13_cst_apply]; exact Ideal.ofBits_zero_f32)
      (fun k => idx_main_call13_v1 (idx_main_v107 (idx_main_v109 (ix3 b i j))) k)
      (fun k => v103_read x0 x1 b j k _ rfl rfl rfl)
  have hEps : val_main_v111 (F := Ideal) (ix3 b i j) = Nbr.wEps := by
    rw [val_main_v111_apply, val_main_cst_23_apply]; rfl
  have hThr : val_main_v114 (F := Ideal) (ix3 b i j) = Nbr.wThr := by
    rw [val_main_v114_apply, val_main_cst_24_apply]; rfl
  have hLo : val_main_call14_v1 (F := Ideal) (ix3 b i j) = Nbr.wThr := by
    rw [val_main_call14_v1_apply, val_main_call14_v0_apply, val_main_cst_25_apply]; rfl
  have hHi : val_main_call14_v4 (F := Ideal) (ix3 b i j) = Nbr.wOne := by
    rw [val_main_call14_v4_apply, val_main_call14_v3_apply, val_main_cst_26_apply]; rfl
  have hZ : val_main_call15_v1 (F := Ideal) (ix3 b i j) = Nbr.wZero := by
    rw [val_main_call15_v1_apply, val_main_call15_v0_apply, val_main_cst_27_apply]; rfl
  rw [val_main_v117_apply, val_main_v115_apply, val_main_v116_apply, val_main_call14_v2_apply, val_main_v113_apply,
    val_main_v112_apply, val_main_v110_apply]
  exact sim_of_parts _ _ _ _ _ _ _ _ _ _ hD hNC hNS hEps hThr hLo hHi hZ

/-! ## Block 5 -/

/-- Copy 5 seen as `[2048, 16, 256]` (`%118`), at mention `b`, candidate `j`, feature `k`. -/
theorem v118_read (x0 : (⟨S32768x256, .f32⟩ : BufTy).Contents (Elt Ideal)) (x1 : (⟨S2048x16, .i32⟩ : BufTy).Contents (Elt Ideal))
    (b : Fin 2048) (j : Fin 16) (k : Fin 256)
    (t : S2048x16x256.Idx) (h0 : (t 0).val = b.val) (h1 : (t 1).val = j.val) (h2 : (t 2).val = k.val) :
    val_main_v118 (F := Ideal) x0 x1 t = Nbr.copy (Nbr.embOf x0) (Nbr.wOf x1) b.val 5 j k := by
  have hb := b.isLt
  have hj := j.isLt
  have hk := k.isLt
  rw [val_main_v118_apply, idx_eq_ix2 (idx_main_v118 t) (⟨b.val * 16 + j.val, by omega⟩ : Fin 32768) k
    (by show (((t 0).val * 16 + (t 1).val) * 256 + (t 2).val) / 256 = b.val * 16 + j.val; omega)
    (by show (((t 0).val * 16 + (t 1).val) * 256 + (t 2).val) % 256 = k.val; omega)]
  exact copy5_ref x0 x1 b j k _ rfl

/-- The reference's gated similarity block against copy 5 (`%132`) at mention `b`, candidates `i` against `j`. -/
theorem sim5_ref (x0 : (⟨S32768x256, .f32⟩ : BufTy).Contents (Elt Ideal)) (x1 : (⟨S2048x16, .i32⟩ : BufTy).Contents (Elt Ideal))
    (b : Fin 2048) (i j : Fin 16) :
    val_main_v132 (F := Ideal) x0 x1 (ix3 b i j)
      = Nbr.sim (Nbr.embOf x0 b i) (Nbr.copy (Nbr.embOf x0) (Nbr.wOf x1) b.val 5 j) := by
  have hD : val_main_v120 (F := Ideal) x0 x1 (ix3 b i j) = Nbr.dot (Nbr.embOf x0 b i) (Nbr.copy (Nbr.embOf x0) (Nbr.wOf x1) b.val 5 j) := by
    rw [val_main_v120_apply]
    exact dot_of_parts (val_main_v41 (F := Ideal) x0) (val_main_v118 (F := Ideal) x0 x1) _ _
      (fun k => lidx_main_v120 (ix3 b i j) k) (fun k => ridx_main_v120 (ix3 b i j) k)
      (fun k => v41_read x0 b i k _ rfl rfl rfl) (fun k => v118_read x0 x1 b j k _ rfl rfl rfl)
  have hNC : val_main_v123 (F := Ideal) x0 (ix3 b i j) = Nbr.norm2 (Nbr.embOf x0 b i) := by
    rw [val_main_v123_apply, val_main_v121_apply]
    exact v42_read x0 b i _ rfl rfl
  have hNS : val_main_v124 (F := Ideal) x0 x1 (ix3 b i j) = Nbr.norm2 (Nbr.copy (Nbr.embOf x0) (Nbr.wOf x1) b.val 5 j) := by
    rw [val_main_v124_apply, val_main_v122_apply, val_main_v119_apply, val_main_call16_v1_apply]
    simp only [val_main_call16_v0_apply]
    exact norm_of_parts (val_main_v118 (F := Ideal) x0 x1) _ _
      (by rw [val_main_call16_cst_apply]; exact Ideal.ofBits_zero_f32)
      (fun k => idx_main_call16_v1 (idx_main_v122 (idx_main_v124 (ix3 b i j))) k)
      (fun k => v118_read x0 x1 b j k _ rfl rfl rfl)
  have hEps : val_main_v126 (F := Ideal) (ix3 b i j) = Nbr.wEps := by
    rw [val_main_v126_apply, val_main_cst_28_apply]; rfl
  have hThr : val_main_v129 (F := Ideal) (ix3 b i j) = Nbr.wThr := by
    rw [val_main_v129_apply, val_main_cst_29_apply]; rfl
  have hLo : val_main_call17_v1 (F := Ideal) (ix3 b i j) = Nbr.wThr := by
    rw [val_main_call17_v1_apply, val_main_call17_v0_apply, val_main_cst_30_apply]; rfl
  have hHi : val_main_call17_v4 (F := Ideal) (ix3 b i j) = Nbr.wOne := by
    rw [val_main_call17_v4_apply, val_main_call17_v3_apply, val_main_cst_31_apply]; rfl
  have hZ : val_main_call18_v1 (F := Ideal) (ix3 b i j) = Nbr.wZero := by
    rw [val_main_call18_v1_apply, val_main_call18_v0_apply, val_main_cst_32_apply]; rfl
  rw [val_main_v132_apply, val_main_v130_apply, val_main_v131_apply, val_main_call17_v2_apply, val_main_v128_apply,
    val_main_v127_apply, val_main_v125_apply]
  exact sim_of_parts _ _ _ _ _ _ _ _ _ _ hD hNC hNS hEps hThr hLo hHi hZ

end Cert.ReferenceIdeal.Bridge

end
-- ==== Proof.RRows.lean ====
/-
  The reference's result rows.  The mean of the six copies (`%40`: the copies stacked, summed from zero, divided by
  six) is `Nbr.neigh` — the sum from zero is the plain sum, and the quotient by six is the product with one sixth on
  every extended real.  The adjacency weights (`%145`: the six similarity blocks laid side by side, reshaped to
  rows, times one, a column of ones appended, divided by the floored sum of absolute values) are `Nbr.adjN`.  Laid
  side by side they are `Nbr.outArr`.
-/
import proofs.«404893_j46205258170686_1_alg».proof.Proof.RefRead
import proofs.«404893_j46205258170686_1_alg».proof.Proof.Spec
import proofs.«404893_j46205258170686_1_alg».proof.Proof.LibLayout3
import proofs.«404893_j46205258170686_1_alg».proof.Proof.RCopies
import proofs.«404893_j46205258170686_1_alg».proof.Proof.RSim
import Idealize.ShloMosaic.Lib.Pipeline.Value
import Idealize.ShloMosaic.Lib.ValueIdx
import Idealize.ShloMosaic.PureOps.Ideal.Laws

set_option maxRecDepth 16384

noncomputable section

namespace Cert.ReferenceIdeal.Bridge

open Idealize.ShloMosaic Idealize.ShloMosaic.ValueIdx Cert.ReferenceIdeal Cert.ReferenceIdeal.Read

/-- The float word `0x40C00000` denotes the real number six. -/
theorem ofBits_six : Ideal.ofBits .f32 0x40C00000#32 = ((6 : ℝ) : EReal) := by
  simp [Ideal.ofBits, Ideal.ieee, -EReal.coe_mul]; norm_num

/-- The stack of the six copies (`%37`) read where the sum over its first axis reads it: layer `k`, row
    `b * 16 + c`, feature `d` is copy `k`. -/
theorem stack_ref (x0 : (⟨S32768x256, .f32⟩ : BufTy).Contents (Elt Ideal)) (x1 : (⟨S2048x16, .i32⟩ : BufTy).Contents (Elt Ideal))
    (b : Fin 2048) (c : Fin 16) (d : Fin 256) (r : Fin 32768) (hr : r.val = b.val * 16 + c.val) (k : Fin 6) :
    val_main_v37 (F := Ideal) x0 x1 (idx_main_v38 (ix2 r d) k)
      = Nbr.copy (Nbr.embOf x0) (Nbr.wOf x1) b.val k c d := by
  have hidx : idx_main_v38 (ix2 r d) k = ix3 k r d :=
    funext fun a => Fin.ext (by match a with | ⟨0, _⟩ => rfl | ⟨1, _⟩ => rfl | ⟨2, _⟩ => rfl)
  rw [hidx]
  unfold val_main_v37
  match k with
  | ⟨0, _⟩ =>
    refine (concatenate_apply_piece _ _ _ _ 0 ?_ S1x32768x256 (val_main_v31 (F := Ideal) x0 x1) ?_ ?_ 0 ?_
      (ix3 (0 : Fin 1) r d) ?_ ?_).trans ?_
    · show 0 < 6; omega
    · rfl
    · rfl
    · rfl
    · intro a ha
      match a with
      | ⟨0, _⟩ => exact absurd rfl ha
      | ⟨1, _⟩ => rfl
      | ⟨2, _⟩ => rfl
    · rfl
    · refine ((val_main_v31_apply x0 x1 _).trans (congrArg _ ?_)).trans (copy0_ref x0 x1 b c d r hr)
      exact funext fun a => Fin.ext (by match a with | ⟨0, _⟩ => rfl | ⟨1, _⟩ => rfl)
  | ⟨1, _⟩ =>
    refine (concatenate_apply_piece _ _ _ _ 1 ?_ S1x32768x256 (val_main_v32 (F := Ideal) x0 x1) ?_ ?_ 1 ?_
      (ix3 (0 : Fin 1) r d) ?_ ?_).trans ?_
    · show 1 < 6; omega
    · rfl
    · rfl
    · rfl
    · intro a ha
      match a with
      | ⟨0, _⟩ => exact absurd rfl ha
      | ⟨1, _⟩ => rfl
      | ⟨2, _⟩ => rfl
    · rfl
    · refine ((val_main_v32_apply x0 x1 _).trans (congrArg _ ?_)).trans (copy1_ref x0 x1 b c d r hr)
      exact funext fun a => Fin.ext (by match a with | ⟨0, _⟩ => rfl | ⟨1, _⟩ => rfl)
  | ⟨2, _⟩ =>
    refine (concatenate_apply_piece _ _ _ _ 2 ?_ S1x32768x256 (val_main_v33 (F := Ideal) x0 x1) ?_ ?_ 2 ?_
      (ix3 (0 : Fin 1) r d) ?_ ?_).trans ?_
    · show 2 < 6; omega
    · rfl
    · rfl
    · rfl
    · intro a ha
      match a with
      | ⟨0, _⟩ => exact absurd rfl ha
      | ⟨1, _⟩ => rfl
      | ⟨2, _⟩ => rfl
    · rfl
    · refine ((val_main_v33_apply x0 x1 _).trans (congrArg _ ?_)).trans (copy2_ref x0 x1 b c d r hr)
      exact funext fun a => Fin.ext (by match a with | ⟨0, _⟩ => rfl | ⟨1, _⟩ => rfl)
  | ⟨3, _⟩ =>
    refine (concatenate_apply_piece _ _ _ _ 3 ?_ S1x32768x256 (val_main_v34 (F := Ideal) x0 x1) ?_ ?_ 3 ?_
      (ix3 (0 : Fin 1) r d) ?_ ?_).trans ?_
    · show 3 < 6; omega
    · rfl
    · rfl
    · rfl
    · intro a ha
      match a with
      | ⟨0, _⟩ => exact absurd rfl ha
      | ⟨1, _⟩ => rfl
      | ⟨2, _⟩ => rfl
    · rfl
    · refine ((val_main_v34_apply x0 x1 _).trans (congrArg _ ?_)).trans (copy3_ref x0 x1 b c d r hr)
      exact funext fun a => Fin.ext (by match a with | ⟨0, _⟩ => rfl | ⟨1, _⟩ => rfl)
  | ⟨4, _⟩ =>
    refine (concatenate_apply_piece _ _ _ _ 4 ?_ S1x32768x256 (val_main_v35 (F := Ideal) x0 x1) ?_ ?_ 4 ?_
      (ix3 (0 : Fin 1) r d) ?_ ?_).trans ?_
    · show 4 < 6; omega
    · rfl
    · rfl
    · rfl
    · intro a ha
      match a with
      | ⟨0, _⟩ => exact absurd rfl ha
      | ⟨1, _⟩ => rfl
      | ⟨2, _⟩ => rfl
    · rfl
    · refine ((val_main_v35_apply x0 x1 _).trans (congrArg _ ?_)).trans (copy4_ref x0 x1 b c d r hr)
      exact funext fun a => Fin.ext (by match a with | ⟨0, _⟩ => rfl | ⟨1, _⟩ => rfl)
  | ⟨5, _⟩ =>
    refine (concatenate_apply_piece _ _ _ _ 5 ?_ S1x32768x256 (val_main_v36 (F := Ideal) x0 x1) ?_ ?_ 5 ?_
      (ix3 (0 : Fin 1) r d) ?_ ?_).trans ?_
    · show 5 < 6; omega
    · rfl
    · rfl
    · rfl
    · intro a ha
      match a with
      | ⟨0, _⟩ => exact absurd rfl ha
      | ⟨1, _⟩ => rfl
      | ⟨2, _⟩ => rfl
    · rfl
    · refine ((val_main_v36_apply x0 x1 _).trans (congrArg _ ?_)).trans (copy5_ref x0 x1 b c d r hr)
      exact funext fun a => Fin.ext (by match a with | ⟨0, _⟩ => rfl | ⟨1, _⟩ => rfl)

/-- The mean of the six copies (`%40`) at row `b * 16 + i`, feature `d`. -/
theorem neigh_ref (x0 : (⟨S32768x256, .f32⟩ : BufTy).Contents (Elt Ideal)) (x1 : (⟨S2048x16, .i32⟩ : BufTy).Contents (Elt Ideal))
    (b : Fin 2048) (i : Fin 16) (d : Fin 256) (r : Fin 32768) (hr : r.val = b.val * 16 + i.val) :
    val_main_v40 (F := Ideal) x0 x1 (ix2 r d) = Nbr.neigh (Nbr.copy (Nbr.embOf x0) (Nbr.wOf x1) b.val) i d := by
  refine (val_main_v40_apply x0 x1 _).trans ?_
  rw [val_main_v38_apply, val_main_v39_apply, val_main_cst_2_apply, val_main_cst_1_apply, Fin.sum_univ_six,
    stack_ref x0 x1 b i d r hr 0, stack_ref x0 x1 b i d r hr 1, stack_ref x0 x1 b i d r hr 2,
    stack_ref x0 x1 b i d r hr 3, stack_ref x0 x1 b i d r hr 4, stack_ref x0 x1 b i d r hr 5,
    Ideal.hostDivf_def, Ideal.ofBits_def, Ideal.ofBits_def, Ideal.ofBits_zero_f32, zero_add, ofBits_six,
    Ideal.div_coe (y := (6 : ℝ)) (by norm_num)]
  rfl

/-- The six similarity blocks laid side by side (`%133`) at mention `b`, candidate `i`, entry `q = 16 k + j`:
    the similarity of the candidate to candidate `j` of copy `k`. -/
theorem simRow_ref (x0 : (⟨S32768x256, .f32⟩ : BufTy).Contents (Elt Ideal)) (x1 : (⟨S2048x16, .i32⟩ : BufTy).Contents (Elt Ideal))
    (b : Fin 2048) (i : Fin 16) (k : Fin 6) (j : Fin 16) (q : Fin 96) (hq : q.val = k.val * 16 + j.val) :
    val_main_v133 (F := Ideal) x0 x1 (ix3 b i q)
      = Nbr.sim (Nbr.embOf x0 b i) (Nbr.copy (Nbr.embOf x0) (Nbr.wOf x1) b.val k j) := by
  unfold val_main_v133
  match k, hq with
  | ⟨0, _⟩, hq =>
    refine (concatenate_apply_piece _ _ _ _ 0 ?_ S2048x16x16 (val_main_v57 (F := Ideal) x0 x1) ?_ ?_ 0 ?_
      (ix3 b i j) ?_ ?_).trans (sim0_ref x0 x1 b i j)
    · show 0 < 6; omega
    · rfl
    · rfl
    · rfl
    · intro a ha
      match a with
      | ⟨0, _⟩ => rfl
      | ⟨1, _⟩ => rfl
      | ⟨2, _⟩ => exact absurd rfl ha
    · show 0 + j.val = q.val
      have hq' : q.val = 0 * 16 + j.val := hq
      omega
  | ⟨1, _⟩, hq =>
    refine (concatenate_apply_piece _ _ _ _ 1 ?_ S2048x16x16 (val_main_v72 (F := Ideal) x0 x1) ?_ ?_ 16 ?_
      (ix3 b i j) ?_ ?_).trans (sim1_ref x0 x1 b i j)
    · show 1 < 6; omega
    · rfl
    · rfl
    · rfl
    · intro a ha
      match a with
      | ⟨0, _⟩ => rfl
      | ⟨1, _⟩ => rfl
      | ⟨2, _⟩ => exact absurd rfl ha
    · show 16 + j.val = q.val
      have hq' : q.val = 1 * 16 + j.val := hq
      omega
  | ⟨2, _⟩, hq =>
    refine (concatenate_apply_piece _ _ _ _ 2 ?_ S2048x16x16 (val_main_v87 (F := Ideal) x0 x1) ?_ ?_ 32 ?_
      (ix3 b i j) ?_ ?_).trans (sim2_ref x0 x1 b i j)
    · show 2 < 6; omega
    · rfl
    · rfl
    · rfl
    · intro a ha
      match a with
      | ⟨0, _⟩ => rfl
      | ⟨1, _⟩ => rfl
      | ⟨2, _⟩ => exact absurd rfl ha
    · show 32 + j.val = q.val
      have hq' : q.val = 2 * 16 + j.val := hq
      omega
  | ⟨3, _⟩, hq =>
    refine (concatenate_apply_piece _ _ _ _ 3 ?_ S2048x16x16 (val_main_v102 (F := Ideal) x0 x1) ?_ ?_ 48 ?_
      (ix3 b i j) ?_ ?_).trans (sim3_ref x0 x1 b i j)
    · show 3 < 6; omega
    · rfl
    · rfl
    · rfl
    · intro a ha
      match a with
      | ⟨0, _⟩ => rfl
      | ⟨1, _⟩ => rfl
      | ⟨2, _⟩ => exact absurd rfl ha
    · show 48 + j.val = q.val
      have hq' : q.val = 3 * 16 + j.val := hq
      omega
  | ⟨4, _⟩, hq =>
    refine (concatenate_apply_piece _ _ _ _ 4 ?_ S2048x16x16 (val_main_v117 (F := Ideal) x0 x1) ?_ ?_ 64 ?_
      (ix3 b i j) ?_ ?_).trans (sim4_ref x0 x1 b i j)
    · show 4 < 6; omega
    · rfl
    · rfl
    · rfl
    · intro a ha
      match a with
      | ⟨0, _⟩ => rfl
      | ⟨1, _⟩ => rfl
      | ⟨2, _⟩ => exact absurd rfl ha
    · show 64 + j.val = q.val
      have hq' : q.val = 4 * 16 + j.val := hq
      omega
  | ⟨5, _⟩, hq =>
    refine (concatenate_apply_piece _ _ _ _ 5 ?_ S2048x16x16 (val_main_v132 (F := Ideal) x0 x1) ?_ ?_ 80 ?_
      (ix3 b i j) ?_ ?_).trans (sim5_ref x0 x1 b i j)
    · show 5 < 6; omega
    · rfl
    · rfl
    · rfl
    · intro a ha
      match a with
      | ⟨0, _⟩ => rfl
      | ⟨1, _⟩ => rfl
      | ⟨2, _⟩ => exact absurd rfl ha
    · show 80 + j.val = q.val
      have hq' : q.val = 5 * 16 + j.val := hq
      omega

/-- The row of 97 adjacency weights before normalisation (`%138`) at row `b * 16 + i`, entry `q`. -/
theorem adj_ref (x0 : (⟨S32768x256, .f32⟩ : BufTy).Contents (Elt Ideal)) (x1 : (⟨S2048x16, .i32⟩ : BufTy).Contents (Elt Ideal))
    (b : Fin 2048) (i : Fin 16) (q : Fin 97) (r : Fin 32768) (hr : r.val = b.val * 16 + i.val) :
    val_main_v138 (F := Ideal) x0 x1 (ix2 r q)
      = Nbr.adj (Nbr.embOf x0 b) (Nbr.copy (Nbr.embOf x0) (Nbr.wOf x1) b.val) i q := by
  unfold val_main_v138 Nbr.adj
  by_cases h : q.val < 96
  · rw [dif_pos h]
    refine (concatenate_pair_apply_left _ _ _ _ _ ?_ (ix2 r (⟨q.val, h⟩ : Fin 96)) ?_).trans ?_
    · rfl
    · intro a
      match a with
      | ⟨0, _⟩ => rfl
      | ⟨1, _⟩ => rfl
    · refine (val_main_v137_apply x0 x1 _).trans ?_
      rw [val_main_v136_apply, val_main_cst_34_apply, Ideal.mulf_def, Ideal.ofBits_def]
      unfold Nbr.wOne
      refine congrArg (· * Ideal.ofBits .f32 0x3F800000#32) ?_
      unfold val_main_v134
      refine (Cert.Layout3.shapeCast_rows_merge_apply _ _ r (⟨q.val, h⟩ : Fin 96) b i hr).trans ?_
      exact simRow_ref x0 x1 b i ⟨q.val / 16, by omega⟩ ⟨q.val % 16, Nat.mod_lt _ (by decide)⟩ ⟨q.val, h⟩
        (by show q.val = q.val / 16 * 16 + q.val % 16; omega)
  · rw [dif_neg h]
    refine (concatenate_pair_apply_right _ _ _ _ _ ?_ ?_ (ix2 r (0 : Fin 1)) ?_ ?_).trans ?_
    · rfl
    · rfl
    · intro a ha
      match a with
      | ⟨0, _⟩ => rfl
      | ⟨1, _⟩ => exact absurd rfl ha
    · show 0 + 96 = q.val
      have := q.isLt
      omega
    · rw [val_main_v135_apply, val_main_cst_33_apply]
      rfl

/-- The sum of the absolute values of a row of adjacency weights (`%140`) at row `b * 16 + i`. -/
theorem rowAbs_ref (x0 : (⟨S32768x256, .f32⟩ : BufTy).Contents (Elt Ideal)) (x1 : (⟨S2048x16, .i32⟩ : BufTy).Contents (Elt Ideal))
    (b : Fin 2048) (i : Fin 16) (r : Fin 32768) (hr : r.val = b.val * 16 + i.val) :
    val_main_v140 (F := Ideal) x0 x1 (ix1 r)
      = Nbr.rowAbs (Nbr.embOf x0 b) (Nbr.copy (Nbr.embOf x0) (Nbr.wOf x1) b.val) i := by
  rw [val_main_v140_apply, val_main_cst_35_apply, Ideal.ofBits_def, Ideal.ofBits_zero_f32, zero_add]
  unfold Nbr.rowAbs
  refine Finset.sum_congr rfl fun q _ => ?_
  have hidx : idx_main_v140 (ix1 r) q = ix2 r q :=
    funext fun a => Fin.ext (by match a with | ⟨0, _⟩ => rfl | ⟨1, _⟩ => rfl)
  rw [hidx, val_main_v139_apply, adj_ref x0 x1 b i q r hr, Ideal.hostAbsf_def, Ideal.absf_def]

/-- The normalised adjacency weights (`%145`) at row `b * 16 + i`, entry `q`. -/
theorem adjN_ref (x0 : (⟨S32768x256, .f32⟩ : BufTy).Contents (Elt Ideal)) (x1 : (⟨S2048x16, .i32⟩ : BufTy).Contents (Elt Ideal))
    (b : Fin 2048) (i : Fin 16) (q : Fin 97) (r : Fin 32768) (hr : r.val = b.val * 16 + i.val) :
    val_main_v145 (F := Ideal) x0 x1 (ix2 r q)
      = Nbr.adjN (Nbr.embOf x0 b) (Nbr.copy (Nbr.embOf x0) (Nbr.wOf x1) b.val) i q := by
  have h144 : idx_main_v144 (ix2 r q) = ix2 r (0 : Fin 1) :=
    funext fun a => Fin.ext (by match a with | ⟨0, _⟩ => rfl | ⟨1, _⟩ => rfl)
  have h141 : idx_main_v141 (ix2 r (0 : Fin 1)) = ix1 r :=
    funext fun a => Fin.ext (by match a with | ⟨0, _⟩ => rfl)
  refine (val_main_v145_apply x0 x1 _).trans ?_
  rw [val_main_v144_apply, h144, val_main_v143_apply, val_main_v141_apply, h141, val_main_v142_apply,
    val_main_cst_36_apply, adj_ref x0 x1 b i q r hr, rowAbs_ref x0 x1 b i r hr,
    Ideal.hostDivf_def, Ideal.maximumf_def, Ideal.ofBits_def]
  rfl

/-- The reference's result array is `Nbr.outArr` of its arguments. -/
theorem ref_value (x0 : (⟨S32768x256, .f32⟩ : BufTy).Contents (Elt Ideal)) (x1 : (⟨S2048x16, .i32⟩ : BufTy).Contents (Elt Ideal)) :
    val_main_v146 (F := Ideal) x0 x1 = Nbr.outArr x0 x1 := by
  funext idx
  obtain ⟨r, col, rfl⟩ : ∃ (r : Fin 32768) (col : Fin 353), idx = ix2 r col := ⟨idx 0, idx 1, eq_ix2 idx⟩
  have hb : r.val / 16 < 2048 := by have := r.isLt; omega
  have hi : r.val % 16 < 16 := Nat.mod_lt _ (by decide)
  have hr : r.val = (⟨r.val / 16, hb⟩ : Fin 2048).val * 16 + (⟨r.val % 16, hi⟩ : Fin 16).val := by
    show r.val = r.val / 16 * 16 + r.val % 16
    omega
  rw [Nbr.outArr_apply x0 x1 ⟨r.val / 16, hb⟩ ⟨r.val % 16, hi⟩ col r hr]
  unfold val_main_v146 Nbr.result Nbr.rowOut
  by_cases h : col.val < 256
  · rw [dif_pos h]
    refine (concatenate_pair_apply_left _ _ _ _ _ ?_ (ix2 r (⟨col.val, h⟩ : Fin 256)) ?_).trans
      (neigh_ref x0 x1 ⟨r.val / 16, hb⟩ ⟨r.val % 16, hi⟩ ⟨col.val, h⟩ r hr)
    · rfl
    · intro a
      match a with
      | ⟨0, _⟩ => rfl
      | ⟨1, _⟩ => rfl
  · rw [dif_neg h]
    have h97 : col.val - 256 < 97 := by have := col.isLt; omega
    refine (concatenate_pair_apply_right _ _ _ _ _ ?_ ?_ (ix2 r (⟨col.val - 256, h97⟩ : Fin 97)) ?_ ?_).trans
      (adjN_ref x0 x1 ⟨r.val / 16, hb⟩ ⟨r.val % 16, hi⟩ ⟨col.val - 256, h97⟩ r hr)
    · rfl
    · rfl
    · intro a ha
      match a with
      | ⟨0, _⟩ => rfl
      | ⟨1, _⟩ => exact absurd rfl ha
    · show col.val - 256 + 256 = col.val
      omega

end Cert.ReferenceIdeal.Bridge

end
-- ==== Proof.lean ====
/-
  The certificate of the neighbour-window layer: a Pallas kernel against its jnp reference, equal as extended reals.

  For 2048 mentions of 16 candidates with 256 features each and a 0/1 validity weight per candidate, both programs
  form six shifted copies of the batch — the mentions one, two, three places before and after, each weighted by the
  product of the weights of the mentions stepped over, zeros beyond the ends — and return, per candidate, the mean of
  the six copies followed by the candidate's gated cosine similarities to the sixteen candidates of each copy and a
  constant one, the 97 weights divided by the sum of their absolute values (`Nbr.rowOut`, Proof/Spec.lean).

  The kernel works in 128 steps of 16 mentions on a batch padded by three zero mentions on either side, with the
  cumulative weights computed on the host; each step stores one block of rows, and the blocks tile the result
  (Proof/KArray.lean: the result array is `Nbr.outArr` of the arguments).  The reference shifts the whole array six
  times, re-weighting after every shift, and its operations read at an index give the same function
  (Proof/RRows.lean).  The two differ in the grouping of the products of weights (associativity and commutativity of
  the product of extended reals), in the mean (the kernel multiplies by the named constant one sixth, the reference
  divides by six: equal on every extended real), and in the order of the sums; nothing needs finiteness.
-/
import proofs.«404893_j46205258170686_1_alg».proof.Defs
import proofs.«404893_j46205258170686_1_alg».proof.Proof.Gen.Kernel
import proofs.«404893_j46205258170686_1_alg».proof.Proof.Gen.Kernel.Skeleton
import proofs.«404893_j46205258170686_1_alg».proof.Proof.Gen.Kernel.Launch
import proofs.«404893_j46205258170686_1_alg».proof.Proof.Gen.Kernel.Points
import proofs.«404893_j46205258170686_1_alg».proof.Proof.Gen.Kernel.Frame
import proofs.«404893_j46205258170686_1_alg».proof.Proof.Gen.KernelIdeal
import proofs.«404893_j46205258170686_1_alg».proof.Proof.Gen.KernelIdeal.Skeleton
import proofs.«404893_j46205258170686_1_alg».proof.Proof.Gen.KernelIdeal.Launch
import proofs.«404893_j46205258170686_1_alg».proof.Proof.Gen.KernelIdeal.Points
import proofs.«404893_j46205258170686_1_alg».proof.Proof.Gen.KernelIdeal.Frame
import proofs.«404893_j46205258170686_1_alg».proof.Proof.Gen.ReferenceIdeal
import proofs.«404893_j46205258170686_1_alg».proof.Proof.Gen.Pre_finite_inputs
import proofs.«404893_j46205258170686_1_alg».proof.Proof.Spec
import proofs.«404893_j46205258170686_1_alg».proof.Proof.KArray
import proofs.«404893_j46205258170686_1_alg».proof.Proof.RefRun
import proofs.«404893_j46205258170686_1_alg».proof.Proof.RRows
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs (its run, the result dropped) and leaves its arguments unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the constant the kernel multiplies the sum of the six copies by is named one
    sixth, and the name denotes one sixth. -/
theorem preserves : Cert.preserves_Kernel_KernelIdeal :=
  IdealRules.named_const.statement Cert.KernelIdeal.κ "inv_6" .f32 0x3E2AAAAB#32 ((1 / 6 : ℝ) : EReal) rfl

/-- Run from memories that agree on the arguments, the idealized kernel's result array and the idealized reference's
    are both `Nbr.outArr` of the arguments. -/
theorem algebraic : Cert.algebraic_KernelIdeal_ReferenceIdeal := by
  intro m ρ m' ρ' _ hagree
  refine ⟨fun c => Nbr.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Arr.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Bridge.ref_value, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
